-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576 : Shape := ⟨1, ![1048576]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x64 .f32) (main_arg1 : FVec F S1048576 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  main_v8
-- ==== Kernel.lean ====
abbrev S1048576x64 : Shape := ⟨2, ![1048576, 64]⟩
abbrev S1048576 : Shape := ⟨1, ![1048576]⟩
abbrev S8192x128x8x8 : Shape := ⟨4, ![8192, 128, 8, 8]⟩
abbrev S8x8192x8x128 : Shape := ⟨4, ![8, 8192, 8, 128]⟩
abbrev S32x8x128 : Shape := ⟨3, ![32, 8, 128]⟩
abbrev S32768 : Shape := ⟨1, ![32768]⟩
abbrev S_ : Shape := ⟨0, ![]⟩
abbrev S1x32x8x128 : Shape := ⟨4, ![1, 32, 8, 128]⟩
abbrev S16 : Shape := ⟨1, ![16]⟩
abbrev S1x1x16 : Shape := ⟨3, ![1, 1, 16]⟩

abbrev nBuf : Table → Nat
  | .hbm => 7
  | .local .scVector .vmem => 3
  | _ => 0

abbrev bufTy : (tb : Table) → Fin (nBuf tb) → BufTy
  | .hbm, ⟨0, _⟩ => ⟨S1048576x64, .f32⟩
  | .hbm, ⟨1, _⟩ => ⟨S1048576, .f32⟩
  | .hbm, ⟨2, _⟩ => ⟨S8192x128x8x8, .f32⟩
  | .hbm, ⟨3, _⟩ => ⟨S8x8192x8x128, .f32⟩
  | .hbm, ⟨4, _⟩ => ⟨S8x8192x8x128, .f32⟩
  | .hbm, ⟨5, _⟩ => ⟨S8192x128x8x8, .f32⟩
  | .hbm, ⟨6, _⟩ => ⟨S1048576x64, .f32⟩
  | .local .scVector .vmem, ⟨0, _⟩ => ⟨S32x8x128, .f32⟩
  | .local .scVector .vmem, ⟨1, _⟩ => ⟨S32x8x128, .f32⟩
  | .local .scVector .vmem, ⟨2, _⟩ => ⟨S32768, .f32⟩
  | _, _ => ⟨S1048576x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32 : BitVec 32 := 128#32
  let v3 : BitVec 32 := Scalar.muli v2 c128_i32
  ![v3.toNat]
def k0_off2 (i : grid0.Coords) : Fin 4 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32 : BitVec 32 := 0#32
  let v4 : BitVec 32 := Scalar.addi v2 c0_i32
  let c0_i32_1 : BitVec 32 := 0#32
  let c0_i32_2 : BitVec 32 := 0#32
  ![0, v4.toNat, 0, 0]
@[reducible] def k0_t1_loop : Scf.Loop 32 :=
  let c0_i32_5 : BitVec 32 := 0#32
  let c32_i32 : BitVec 32 := 32#32
  let v9 : BitVec 32 := Scalar.addi c0_i32_5 c32_i32
  let c1_i32 : BitVec 32 := 1#32
  ⟨c0_i32_5, v9, c1_i32⟩
def k0_off3 (i : grid0.Coords) (k0_t1 : Fin k0_t1_loop.trips) : Fin 4 → Nat :=
  let c0_i32_5 : BitVec 32 := 0#32
  let c1_i32 : BitVec 32 := 1#32
  let arg12 : BitVec 32 := Scf.iv c0_i32_5 c1_i32 k0_t1
  let c2_i32_21 : BitVec 32 := 2#32
  let v18 : BitVec 32 := Scalar.muli arg12 c2_i32_21
  let c1_i32_36 : BitVec 32 := 1#32
  let v36 : BitVec 32 := Scalar.addi v18 c1_i32_36
  let c0_i32_38 : BitVec 32 := 0#32
  let v38 : BitVec 1 := Scalar.cmpi .sgt v36 c0_i32_38
  let v39 : BitVec 32 := Scalar.extui v38
  let c0_i32_39 : BitVec 32 := 0#32
  let v40 : BitVec 1 := Scalar.cmpi .slt v36 c0_i32_39
  let v41 : BitVec 32 := Scalar.extui v40
  let v42 : BitVec 32 := Scalar.subi v39 v41
  let c8_i32_37 : BitVec 32 := 8#32
  let c0_i32_40 : BitVec 32 := 0#32
  let v43 : BitVec 1 := Scalar.cmpi .sgt c8_i32_37 c0_i32_40
  let v44 : BitVec 32 := Scalar.extui v43
  let c0_i32_41 : BitVec 32 := 0#32
  let v45 : BitVec 1 := Scalar.cmpi .slt c8_i32_37 c0_i32_41
  let v46 : BitVec 32 := Scalar.extui v45
  let v47 : BitVec 32 := Scalar.subi v44 v46
  let v48 : BitVec 1 := Scalar.cmpi .ne v42 v47
  let v49 : BitVec 32 := Scalar.remsi v36 c8_i32_37
  let c0_i32_42 : BitVec 32 := 0#32
  let v50 : BitVec 1 := Scalar.cmpi .ne v49 c0_i32_42
  let v51 : BitVec 1 := Scalar.andi v48 v50
  let v37 : BitVec 32 := Scalar.divsi v36 c8_i32_37
  let c1_i32_43 : BitVec 32 := 1#32
  let v52 : BitVec 32 := Scalar.subi v37 c1_i32_43
  let v53 : BitVec 32 := Scalar.select v51 v52 v37
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c8_i32_44 : BitVec 32 := 8#32
  let c0_i32_45 : BitVec 32 := 0#32
  let v54 : BitVec 1 := Scalar.cmpi .eq c8_i32_44 c0_i32_45
  let c1_i32_46 : BitVec 32 := 1#32
  let v55 : BitVec 32 := Scalar.select v54 c1_i32_46 c8_i32_44
  let v56 : BitVec 32 := Scalar.remsi v36 v55
  let c0_i32_48 : BitVec 32 := 0#32
  let v58 : BitVec 1 := Scalar.cmpi .slt v56 c0_i32_48
  let c0_i32_49 : BitVec 32 := 0#32
  let v59 : BitVec 1 := Scalar.cmpi .slt v55 c0_i32_49
  let v60 : BitVec 1 := Scalar.xori v58 v59
  let c0_i32_47 : BitVec 32 := 0#32
  let v57 : BitVec 1 := Scalar.cmpi .ne v56 c0_i32_47
  let v61 : BitVec 1 := Scalar.andi v60 v57
  let v62 : BitVec 32 := Scalar.addi v56 v55
  let v63 : BitVec 32 := Scalar.select v61 v62 v56
  let c32_i32_50 : BitVec 32 := 32#32
  let v64 : BitVec 32 := Scalar.muli v63 c32_i32_50
  let v65 : BitVec 32 := Scalar.addi v2 v64
  let c0_i32_51 : BitVec 32 := 0#32
  let c0_i32_52 : BitVec 32 := 0#32
  ![v53.toNat, v65.toNat, 0, 0]
@[reducible] def k0_t2_loop : Scf.Loop 32 :=
  let c0_i32_55 : BitVec 32 := 0#32
  let c32_i32_56 : BitVec 32 := 32#32
  let v70 : BitVec 32 := Scalar.addi c0_i32_55 c32_i32_56
  let c1_i32_57 : BitVec 32 := 1#32
  ⟨c0_i32_55, v70, c1_i32_57⟩
def k0_off4 (k0_t1 : Fin k0_t1_loop.trips) (k0_t2 : Fin k0_t2_loop.trips) (c0_i32_111 : BitVec 32) : Fin 1 → Nat :=
  let c0_i32_5 : BitVec 32 := 0#32
  let c1_i32 : BitVec 32 := 1#32
  let arg12 : BitVec 32 := Scf.iv c0_i32_5 c1_i32 k0_t1
  let c2_i32_21 : BitVec 32 := 2#32
  let v18 : BitVec 32 := Scalar.muli arg12 c2_i32_21
  let c8_i32 : BitVec 32 := 8#32
  let c0_i32_22 : BitVec 32 := 0#32
  let v19 : BitVec 1 := Scalar.cmpi .eq c8_i32 c0_i32_22
  let c1_i32_23 : BitVec 32 := 1#32
  let v20 : BitVec 32 := Scalar.select v19 c1_i32_23 c8_i32
  let v21 : BitVec 32 := Scalar.remsi v18 v20
  let c0_i32_25 : BitVec 32 := 0#32
  let v23 : BitVec 1 := Scalar.cmpi .slt v21 c0_i32_25
  let c0_i32_26 : BitVec 32 := 0#32
  let v24 : BitVec 1 := Scalar.cmpi .slt v20 c0_i32_26
  let v25 : BitVec 1 := Scalar.xori v23 v24
  let c0_i32_24 : BitVec 32 := 0#32
  let v22 : BitVec 1 := Scalar.cmpi .ne v21 c0_i32_24
  let v26 : BitVec 1 := Scalar.andi v25 v22
  let v27 : BitVec 32 := Scalar.addi v21 v20
  let v28 : BitVec 32 := Scalar.select v26 v27 v21
  let c32_i32_109 : BitVec 32 := 32#32
  let v147 : BitVec 32 := Scalar.muli v28 c32_i32_109
  let c0_i32_55 : BitVec 32 := 0#32
  let c1_i32_57 : BitVec 32 := 1#32
  let arg13 : BitVec 32 := Scf.iv c0_i32_55 c1_i32_57 k0_t2
  let v148 : BitVec 32 := Scalar.addi v147 arg13
  let c128_i32_110 : BitVec 32 := 128#32
  let v149 : BitVec 32 := Scalar.muli v148 c128_i32_110
  let v150 : BitVec 32 := Scalar.addi v149 c0_i32_111
  let v151 : Index := Scalar.indexCast v150
  ![v151.toNat]
def k0_off5 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v154 : Index := Scalar.indexCast arg13
  let c0_i32_112 : BitVec 32 := 0#32
  let v155 : Index := Scalar.indexCast c0_i32_112
  let c0 : Index := 0#32
  ![v154.toNat, 0, 0]
def k0_off6 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v164 : Index := Scalar.indexCast arg13
  let c1_i32_115 : BitVec 32 := 1#32
  let v165 : Index := Scalar.indexCast c1_i32_115
  let c0_116 : Index := 0#32
  ![v164.toNat, 1, 0]
def k0_off7 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v174 : Index := Scalar.indexCast arg13
  let c2_i32_119 : BitVec 32 := 2#32
  let v175 : Index := Scalar.indexCast c2_i32_119
  let c0_120 : Index := 0#32
  ![v174.toNat, 2, 0]
def k0_off8 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v184 : Index := Scalar.indexCast arg13
  let c3_i32 : BitVec 32 := 3#32
  let v185 : Index := Scalar.indexCast c3_i32
  let c0_123 : Index := 0#32
  ![v184.toNat, 3, 0]
def k0_off9 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v194 : Index := Scalar.indexCast arg13
  let c4_i32 : BitVec 32 := 4#32
  let v195 : Index := Scalar.indexCast c4_i32
  let c0_126 : Index := 0#32
  ![v194.toNat, 4, 0]
def k0_off10 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v204 : Index := Scalar.indexCast arg13
  let c5_i32 : BitVec 32 := 5#32
  let v205 : Index := Scalar.indexCast c5_i32
  let c0_129 : Index := 0#32
  ![v204.toNat, 5, 0]
def k0_off11 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v214 : Index := Scalar.indexCast arg13
  let c6_i32 : BitVec 32 := 6#32
  let v215 : Index := Scalar.indexCast c6_i32
  let c0_132 : Index := 0#32
  ![v214.toNat, 6, 0]
def k0_off12 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v224 : Index := Scalar.indexCast arg13
  let c7_i32 : BitVec 32 := 7#32
  let v225 : Index := Scalar.indexCast c7_i32
  let c0_135 : Index := 0#32
  ![v224.toNat, 7, 0]
def k0_off13 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v241 : Index := Scalar.indexCast arg13
  let c0_i32_140 : BitVec 32 := 0#32
  let v242 : Index := Scalar.indexCast c0_i32_140
  let c16 : Index := 16#32
  ![v241.toNat, 0, 16]
def k0_off14 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v251 : Index := Scalar.indexCast arg13
  let c1_i32_143 : BitVec 32 := 1#32
  let v252 : Index := Scalar.indexCast c1_i32_143
  let c16_144 : Index := 16#32
  ![v251.toNat, 1, 16]
def k0_off15 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v261 : Index := Scalar.indexCast arg13
  let c2_i32_147 : BitVec 32 := 2#32
  let v262 : Index := Scalar.indexCast c2_i32_147
  let c16_148 : Index := 16#32
  ![v261.toNat, 2, 16]
def k0_off16 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v271 : Index := Scalar.indexCast arg13
  let c3_i32_151 : BitVec 32 := 3#32
  let v272 : Index := Scalar.indexCast c3_i32_151
  let c16_152 : Index := 16#32
  ![v271.toNat, 3, 16]
def k0_off17 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v281 : Index := Scalar.indexCast arg13
  let c4_i32_155 : BitVec 32 := 4#32
  let v282 : Index := Scalar.indexCast c4_i32_155
  let c16_156 : Index := 16#32
  ![v281.toNat, 4, 16]
def k0_off18 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v291 : Index := Scalar.indexCast arg13
  let c5_i32_159 : BitVec 32 := 5#32
  let v292 : Index := Scalar.indexCast c5_i32_159
  let c16_160 : Index := 16#32
  ![v291.toNat, 5, 16]
def k0_off19 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v301 : Index := Scalar.indexCast arg13
  let c6_i32_163 : BitVec 32 := 6#32
  let v302 : Index := Scalar.indexCast c6_i32_163
  let c16_164 : Index := 16#32
  ![v301.toNat, 6, 16]
def k0_off20 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v311 : Index := Scalar.indexCast arg13
  let c7_i32_167 : BitVec 32 := 7#32
  let v312 : Index := Scalar.indexCast c7_i32_167
  let c16_168 : Index := 16#32
  ![v311.toNat, 7, 16]
def k0_off21 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v328 : Index := Scalar.indexCast arg13
  let c0_i32_174 : BitVec 32 := 0#32
  let v329 : Index := Scalar.indexCast c0_i32_174
  let c32 : Index := 32#32
  ![v328.toNat, 0, 32]
def k0_off22 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v338 : Index := Scalar.indexCast arg13
  let c1_i32_177 : BitVec 32 := 1#32
  let v339 : Index := Scalar.indexCast c1_i32_177
  let c32_178 : Index := 32#32
  ![v338.toNat, 1, 32]
def k0_off23 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v348 : Index := Scalar.indexCast arg13
  let c2_i32_181 : BitVec 32 := 2#32
  let v349 : Index := Scalar.indexCast c2_i32_181
  let c32_182 : Index := 32#32
  ![v348.toNat, 2, 32]
def k0_off24 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v358 : Index := Scalar.indexCast arg13
  let c3_i32_185 : BitVec 32 := 3#32
  let v359 : Index := Scalar.indexCast c3_i32_185
  let c32_186 : Index := 32#32
  ![v358.toNat, 3, 32]
def k0_off25 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v368 : Index := Scalar.indexCast arg13
  let c4_i32_189 : BitVec 32 := 4#32
  let v369 : Index := Scalar.indexCast c4_i32_189
  let c32_190 : Index := 32#32
  ![v368.toNat, 4, 32]
def k0_off26 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v378 : Index := Scalar.indexCast arg13
  let c5_i32_193 : BitVec 32 := 5#32
  let v379 : Index := Scalar.indexCast c5_i32_193
  let c32_194 : Index := 32#32
  ![v378.toNat, 5, 32]
def k0_off27 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v388 : Index := Scalar.indexCast arg13
  let c6_i32_197 : BitVec 32 := 6#32
  let v389 : Index := Scalar.indexCast c6_i32_197
  let c32_198 : Index := 32#32
  ![v388.toNat, 6, 32]
def k0_off28 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v398 : Index := Scalar.indexCast arg13
  let c7_i32_201 : BitVec 32 := 7#32
  let v399 : Index := Scalar.indexCast c7_i32_201
  let c32_202 : Index := 32#32
  ![v398.toNat, 7, 32]
def k0_off29 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v415 : Index := Scalar.indexCast arg13
  let c0_i32_207 : BitVec 32 := 0#32
  let v416 : Index := Scalar.indexCast c0_i32_207
  let c48 : Index := 48#32
  ![v415.toNat, 0, 48]
def k0_off30 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v425 : Index := Scalar.indexCast arg13
  let c1_i32_210 : BitVec 32 := 1#32
  let v426 : Index := Scalar.indexCast c1_i32_210
  let c48_211 : Index := 48#32
  ![v425.toNat, 1, 48]
def k0_off31 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v435 : Index := Scalar.indexCast arg13
  let c2_i32_214 : BitVec 32 := 2#32
  let v436 : Index := Scalar.indexCast c2_i32_214
  let c48_215 : Index := 48#32
  ![v435.toNat, 2, 48]
def k0_off32 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v445 : Index := Scalar.indexCast arg13
  let c3_i32_218 : BitVec 32 := 3#32
  let v446 : Index := Scalar.indexCast c3_i32_218
  let c48_219 : Index := 48#32
  ![v445.toNat, 3, 48]
def k0_off33 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v455 : Index := Scalar.indexCast arg13
  let c4_i32_222 : BitVec 32 := 4#32
  let v456 : Index := Scalar.indexCast c4_i32_222
  let c48_223 : Index := 48#32
  ![v455.toNat, 4, 48]
def k0_off34 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v465 : Index := Scalar.indexCast arg13
  let c5_i32_226 : BitVec 32 := 5#32
  let v466 : Index := Scalar.indexCast c5_i32_226
  let c48_227 : Index := 48#32
  ![v465.toNat, 5, 48]
def k0_off35 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v475 : Index := Scalar.indexCast arg13
  let c6_i32_230 : BitVec 32 := 6#32
  let v476 : Index := Scalar.indexCast c6_i32_230
  let c48_231 : Index := 48#32
  ![v475.toNat, 6, 48]
def k0_off36 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v485 : Index := Scalar.indexCast arg13
  let c7_i32_234 : BitVec 32 := 7#32
  let v486 : Index := Scalar.indexCast c7_i32_234
  let c48_235 : Index := 48#32
  ![v485.toNat, 7, 48]
def k0_off37 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v502 : Index := Scalar.indexCast arg13
  let c0_i32_240 : BitVec 32 := 0#32
  let v503 : Index := Scalar.indexCast c0_i32_240
  let c64 : Index := 64#32
  ![v502.toNat, 0, 64]
def k0_off38 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v512 : Index := Scalar.indexCast arg13
  let c1_i32_243 : BitVec 32 := 1#32
  let v513 : Index := Scalar.indexCast c1_i32_243
  let c64_244 : Index := 64#32
  ![v512.toNat, 1, 64]
def k0_off39 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v522 : Index := Scalar.indexCast arg13
  let c2_i32_247 : BitVec 32 := 2#32
  let v523 : Index := Scalar.indexCast c2_i32_247
  let c64_248 : Index := 64#32
  ![v522.toNat, 2, 64]
def k0_off40 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v532 : Index := Scalar.indexCast arg13
  let c3_i32_251 : BitVec 32 := 3#32
  let v533 : Index := Scalar.indexCast c3_i32_251
  let c64_252 : Index := 64#32
  ![v532.toNat, 3, 64]
def k0_off41 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v542 : Index := Scalar.indexCast arg13
  let c4_i32_255 : BitVec 32 := 4#32
  let v543 : Index := Scalar.indexCast c4_i32_255
  let c64_256 : Index := 64#32
  ![v542.toNat, 4, 64]
def k0_off42 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v552 : Index := Scalar.indexCast arg13
  let c5_i32_259 : BitVec 32 := 5#32
  let v553 : Index := Scalar.indexCast c5_i32_259
  let c64_260 : Index := 64#32
  ![v552.toNat, 5, 64]
def k0_off43 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v562 : Index := Scalar.indexCast arg13
  let c6_i32_263 : BitVec 32 := 6#32
  let v563 : Index := Scalar.indexCast c6_i32_263
  let c64_264 : Index := 64#32
  ![v562.toNat, 6, 64]
def k0_off44 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v572 : Index := Scalar.indexCast arg13
  let c7_i32_267 : BitVec 32 := 7#32
  let v573 : Index := Scalar.indexCast c7_i32_267
  let c64_268 : Index := 64#32
  ![v572.toNat, 7, 64]
def k0_off45 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v589 : Index := Scalar.indexCast arg13
  let c0_i32_273 : BitVec 32 := 0#32
  let v590 : Index := Scalar.indexCast c0_i32_273
  let c80 : Index := 80#32
  ![v589.toNat, 0, 80]
def k0_off46 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v599 : Index := Scalar.indexCast arg13
  let c1_i32_276 : BitVec 32 := 1#32
  let v600 : Index := Scalar.indexCast c1_i32_276
  let c80_277 : Index := 80#32
  ![v599.toNat, 1, 80]
def k0_off47 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v609 : Index := Scalar.indexCast arg13
  let c2_i32_280 : BitVec 32 := 2#32
  let v610 : Index := Scalar.indexCast c2_i32_280
  let c80_281 : Index := 80#32
  ![v609.toNat, 2, 80]
def k0_off48 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v619 : Index := Scalar.indexCast arg13
  let c3_i32_284 : BitVec 32 := 3#32
  let v620 : Index := Scalar.indexCast c3_i32_284
  let c80_285 : Index := 80#32
  ![v619.toNat, 3, 80]
def k0_off49 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v629 : Index := Scalar.indexCast arg13
  let c4_i32_288 : BitVec 32 := 4#32
  let v630 : Index := Scalar.indexCast c4_i32_288
  let c80_289 : Index := 80#32
  ![v629.toNat, 4, 80]
def k0_off50 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v639 : Index := Scalar.indexCast arg13
  let c5_i32_292 : BitVec 32 := 5#32
  let v640 : Index := Scalar.indexCast c5_i32_292
  let c80_293 : Index := 80#32
  ![v639.toNat, 5, 80]
def k0_off51 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v649 : Index := Scalar.indexCast arg13
  let c6_i32_296 : BitVec 32 := 6#32
  let v650 : Index := Scalar.indexCast c6_i32_296
  let c80_297 : Index := 80#32
  ![v649.toNat, 6, 80]
def k0_off52 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v659 : Index := Scalar.indexCast arg13
  let c7_i32_300 : BitVec 32 := 7#32
  let v660 : Index := Scalar.indexCast c7_i32_300
  let c80_301 : Index := 80#32
  ![v659.toNat, 7, 80]
def k0_off53 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v676 : Index := Scalar.indexCast arg13
  let c0_i32_306 : BitVec 32 := 0#32
  let v677 : Index := Scalar.indexCast c0_i32_306
  let c96 : Index := 96#32
  ![v676.toNat, 0, 96]
def k0_off54 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v686 : Index := Scalar.indexCast arg13
  let c1_i32_309 : BitVec 32 := 1#32
  let v687 : Index := Scalar.indexCast c1_i32_309
  let c96_310 : Index := 96#32
  ![v686.toNat, 1, 96]
def k0_off55 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v696 : Index := Scalar.indexCast arg13
  let c2_i32_313 : BitVec 32 := 2#32
  let v697 : Index := Scalar.indexCast c2_i32_313
  let c96_314 : Index := 96#32
  ![v696.toNat, 2, 96]
def k0_off56 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v706 : Index := Scalar.indexCast arg13
  let c3_i32_317 : BitVec 32 := 3#32
  let v707 : Index := Scalar.indexCast c3_i32_317
  let c96_318 : Index := 96#32
  ![v706.toNat, 3, 96]
def k0_off57 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v716 : Index := Scalar.indexCast arg13
  let c4_i32_321 : BitVec 32 := 4#32
  let v717 : Index := Scalar.indexCast c4_i32_321
  let c96_322 : Index := 96#32
  ![v716.toNat, 4, 96]
def k0_off58 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v726 : Index := Scalar.indexCast arg13
  let c5_i32_325 : BitVec 32 := 5#32
  let v727 : Index := Scalar.indexCast c5_i32_325
  let c96_326 : Index := 96#32
  ![v726.toNat, 5, 96]
def k0_off59 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v736 : Index := Scalar.indexCast arg13
  let c6_i32_329 : BitVec 32 := 6#32
  let v737 : Index := Scalar.indexCast c6_i32_329
  let c96_330 : Index := 96#32
  ![v736.toNat, 6, 96]
def k0_off60 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v746 : Index := Scalar.indexCast arg13
  let c7_i32_333 : BitVec 32 := 7#32
  let v747 : Index := Scalar.indexCast c7_i32_333
  let c96_334 : Index := 96#32
  ![v746.toNat, 7, 96]
def k0_off61 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v763 : Index := Scalar.indexCast arg13
  let c0_i32_339 : BitVec 32 := 0#32
  let v764 : Index := Scalar.indexCast c0_i32_339
  let c112 : Index := 112#32
  ![v763.toNat, 0, 112]
def k0_off62 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v773 : Index := Scalar.indexCast arg13
  let c1_i32_342 : BitVec 32 := 1#32
  let v774 : Index := Scalar.indexCast c1_i32_342
  let c112_343 : Index := 112#32
  ![v773.toNat, 1, 112]
def k0_off63 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v783 : Index := Scalar.indexCast arg13
  let c2_i32_346 : BitVec 32 := 2#32
  let v784 : Index := Scalar.indexCast c2_i32_346
  let c112_347 : Index := 112#32
  ![v783.toNat, 2, 112]
def k0_off64 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v793 : Index := Scalar.indexCast arg13
  let c3_i32_350 : BitVec 32 := 3#32
  let v794 : Index := Scalar.indexCast c3_i32_350
  let c112_351 : Index := 112#32
  ![v793.toNat, 3, 112]
def k0_off65 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v803 : Index := Scalar.indexCast arg13
  let c4_i32_354 : BitVec 32 := 4#32
  let v804 : Index := Scalar.indexCast c4_i32_354
  let c112_355 : Index := 112#32
  ![v803.toNat, 4, 112]
def k0_off66 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v813 : Index := Scalar.indexCast arg13
  let c5_i32_358 : BitVec 32 := 5#32
  let v814 : Index := Scalar.indexCast c5_i32_358
  let c112_359 : Index := 112#32
  ![v813.toNat, 5, 112]
def k0_off67 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v823 : Index := Scalar.indexCast arg13
  let c6_i32_362 : BitVec 32 := 6#32
  let v824 : Index := Scalar.indexCast c6_i32_362
  let c112_363 : Index := 112#32
  ![v823.toNat, 6, 112]
def k0_off68 (k0_t2 : Fin k0_t2_loop.trips) : Fin 3 → Nat :=
  let c0_i32_55 : BitVec 32 := 0#32
  let c1_i32_57 : BitVec 32 := 1#32
  let arg13 : BitVec 32 := Scf.iv c0_i32_55 c1_i32_57 k0_t2
  let v833 : Index := Scalar.indexCast arg13
  let c7_i32_366 : BitVec 32 := 7#32
  let v834 : Index := Scalar.indexCast c7_i32_366
  let c112_367 : Index := 112#32
  ![v833.toNat, 7, 112]
def k0_off69 (i : grid0.Coords) (k0_t1 : Fin k0_t1_loop.trips) : Fin 4 → Nat :=
  let c0_i32_5 : BitVec 32 := 0#32
  let c1_i32 : BitVec 32 := 1#32
  let arg12 : BitVec 32 := Scf.iv c0_i32_5 c1_i32 k0_t1
  let c2_i32_21 : BitVec 32 := 2#32
  let v18 : BitVec 32 := Scalar.muli arg12 c2_i32_21
  let c0_i32_60 : BitVec 32 := 0#32
  let v72 : BitVec 1 := Scalar.cmpi .sgt v18 c0_i32_60
  let v73 : BitVec 32 := Scalar.extui v72
  let c0_i32_61 : BitVec 32 := 0#32
  let v74 : BitVec 1 := Scalar.cmpi .slt v18 c0_i32_61
  let v75 : BitVec 32 := Scalar.extui v74
  let v76 : BitVec 32 := Scalar.subi v73 v75
  let c8_i32_59 : BitVec 32 := 8#32
  let c0_i32_62 : BitVec 32 := 0#32
  let v77 : BitVec 1 := Scalar.cmpi .sgt c8_i32_59 c0_i32_62
  let v78 : BitVec 32 := Scalar.extui v77
  let c0_i32_63 : BitVec 32 := 0#32
  let v79 : BitVec 1 := Scalar.cmpi .slt c8_i32_59 c0_i32_63
  let v80 : BitVec 32 := Scalar.extui v79
  let v81 : BitVec 32 := Scalar.subi v78 v80
  let v82 : BitVec 1 := Scalar.cmpi .ne v76 v81
  let v83 : BitVec 32 := Scalar.remsi v18 c8_i32_59
  let c0_i32_64 : BitVec 32 := 0#32
  let v84 : BitVec 1 := Scalar.cmpi .ne v83 c0_i32_64
  let v85 : BitVec 1 := Scalar.andi v82 v84
  let v71 : BitVec 32 := Scalar.divsi v18 c8_i32_59
  let c1_i32_65 : BitVec 32 := 1#32
  let v86 : BitVec 32 := Scalar.subi v71 c1_i32_65
  let v87 : BitVec 32 := Scalar.select v85 v86 v71
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c8_i32_66 : BitVec 32 := 8#32
  let c0_i32_67 : BitVec 32 := 0#32
  let v88 : BitVec 1 := Scalar.cmpi .eq c8_i32_66 c0_i32_67
  let c1_i32_68 : BitVec 32 := 1#32
  let v89 : BitVec 32 := Scalar.select v88 c1_i32_68 c8_i32_66
  let v90 : BitVec 32 := Scalar.remsi v18 v89
  let c0_i32_70 : BitVec 32 := 0#32
  let v92 : BitVec 1 := Scalar.cmpi .slt v90 c0_i32_70
  let c0_i32_71 : BitVec 32 := 0#32
  let v93 : BitVec 1 := Scalar.cmpi .slt v89 c0_i32_71
  let v94 : BitVec 1 := Scalar.xori v92 v93
  let c0_i32_69 : BitVec 32 := 0#32
  let v91 : BitVec 1 := Scalar.cmpi .ne v90 c0_i32_69
  let v95 : BitVec 1 := Scalar.andi v94 v91
  let v96 : BitVec 32 := Scalar.addi v90 v89
  let v97 : BitVec 32 := Scalar.select v95 v96 v90
  let c32_i32_72 : BitVec 32 := 32#32
  let v98 : BitVec 32 := Scalar.muli v97 c32_i32_72
  let v99 : BitVec 32 := Scalar.addi v2 v98
  let c0_i32_73 : BitVec 32 := 0#32
  let c0_i32_74 : BitVec 32 := 0#32
  ![v87.toNat, v99.toNat, 0, 0]
def k0_cond2 (k0_t1 : Fin k0_t1_loop.trips) : BitVec 1 :=
  let c0_i32_5 : BitVec 32 := 0#32
  let c1_i32 : BitVec 32 := 1#32
  let arg12 : BitVec 32 := Scf.iv c0_i32_5 c1_i32 k0_t1
  let c31_i32 : BitVec 32 := 31#32
  let v108 : BitVec 1 := Scalar.cmpi .slt arg12 c31_i32
  let v109 : BitVec 32 := Scalar.extui v108
  let c0_i32_84 : BitVec 32 := 0#32
  let v110 : BitVec 1 := Scalar.cmpi .ne v109 c0_i32_84
  v110

def k0_off70 (i : grid0.Coords) (k0_t1 : Fin k0_t1_loop.trips) : Fin 4 → Nat :=
  let c0_i32_5 : BitVec 32 := 0#32
  let c1_i32 : BitVec 32 := 1#32
  let arg12 : BitVec 32 := Scf.iv c0_i32_5 c1_i32 k0_t1
  let c2_i32_21 : BitVec 32 := 2#32
  let v18 : BitVec 32 := Scalar.muli arg12 c2_i32_21
  let c2_i32_116 : BitVec 32 := 2#32
  let v151 : BitVec 32 := Scalar.addi v18 c2_i32_116
  let c0_i32_118 : BitVec 32 := 0#32
  let v153 : BitVec 1 := Scalar.cmpi .sgt v151 c0_i32_118
  let v154 : BitVec 32 := Scalar.extui v153
  let c0_i32_119 : BitVec 32 := 0#32
  let v155 : BitVec 1 := Scalar.cmpi .slt v151 c0_i32_119
  let v156 : BitVec 32 := Scalar.extui v155
  let v157 : BitVec 32 := Scalar.subi v154 v156
  let c8_i32_117 : BitVec 32 := 8#32
  let c0_i32_120 : BitVec 32 := 0#32
  let v158 : BitVec 1 := Scalar.cmpi .sgt c8_i32_117 c0_i32_120
  let v159 : BitVec 32 := Scalar.extui v158
  let c0_i32_121 : BitVec 32 := 0#32
  let v160 : BitVec 1 := Scalar.cmpi .slt c8_i32_117 c0_i32_121
  let v161 : BitVec 32 := Scalar.extui v160
  let v162 : BitVec 32 := Scalar.subi v159 v161
  let v163 : BitVec 1 := Scalar.cmpi .ne v157 v162
  let v164 : BitVec 32 := Scalar.remsi v151 c8_i32_117
  let c0_i32_122 : BitVec 32 := 0#32
  let v165 : BitVec 1 := Scalar.cmpi .ne v164 c0_i32_122
  let v166 : BitVec 1 := Scalar.andi v163 v165
  let v152 : BitVec 32 := Scalar.divsi v151 c8_i32_117
  let c1_i32_123 : BitVec 32 := 1#32
  let v167 : BitVec 32 := Scalar.subi v152 c1_i32_123
  let v168 : BitVec 32 := Scalar.select v166 v167 v152
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c8_i32_124 : BitVec 32 := 8#32
  let c0_i32_125 : BitVec 32 := 0#32
  let v169 : BitVec 1 := Scalar.cmpi .eq c8_i32_124 c0_i32_125
  let c1_i32_126 : BitVec 32 := 1#32
  let v170 : BitVec 32 := Scalar.select v169 c1_i32_126 c8_i32_124
  let v171 : BitVec 32 := Scalar.remsi v151 v170
  let c0_i32_128 : BitVec 32 := 0#32
  let v173 : BitVec 1 := Scalar.cmpi .slt v171 c0_i32_128
  let c0_i32_129 : BitVec 32 := 0#32
  let v174 : BitVec 1 := Scalar.cmpi .slt v170 c0_i32_129
  let v175 : BitVec 1 := Scalar.xori v173 v174
  let c0_i32_127 : BitVec 32 := 0#32
  let v172 : BitVec 1 := Scalar.cmpi .ne v171 c0_i32_127
  let v176 : BitVec 1 := Scalar.andi v175 v172
  let v177 : BitVec 32 := Scalar.addi v171 v170
  let v178 : BitVec 32 := Scalar.select v176 v177 v171
  let c32_i32_130 : BitVec 32 := 32#32
  let v179 : BitVec 32 := Scalar.muli v178 c32_i32_130
  let v180 : BitVec 32 := Scalar.addi v2 v179
  let c0_i32_131 : BitVec 32 := 0#32
  let c0_i32_132 : BitVec 32 := 0#32
  ![v168.toNat, v180.toNat, 0, 0]
@[reducible] def k0_t3_loop : Scf.Loop 32 :=
  let c0_i32_86 : BitVec 32 := 0#32
  let c32_i32_87 : BitVec 32 := 32#32
  let v112 : BitVec 32 := Scalar.addi c0_i32_86 c32_i32_87
  let c1_i32_88 : BitVec 32 := 1#32
  ⟨c0_i32_86, v112, c1_i32_88⟩
def k0_off71 (k0_t1 : Fin k0_t1_loop.trips) (k0_t3 : Fin k0_t3_loop.trips) (c0_i32_111 : BitVec 32) : Fin 1 → Nat :=
  let c0_i32_5 : BitVec 32 := 0#32
  let c1_i32 : BitVec 32 := 1#32
  let arg12 : BitVec 32 := Scf.iv c0_i32_5 c1_i32 k0_t1
  let c2_i32_21 : BitVec 32 := 2#32
  let v18 : BitVec 32 := Scalar.muli arg12 c2_i32_21
  let c8_i32 : BitVec 32 := 8#32
  let c0_i32_22 : BitVec 32 := 0#32
  let v19 : BitVec 1 := Scalar.cmpi .eq c8_i32 c0_i32_22
  let c1_i32_23 : BitVec 32 := 1#32
  let v20 : BitVec 32 := Scalar.select v19 c1_i32_23 c8_i32
  let v21 : BitVec 32 := Scalar.remsi v18 v20
  let c0_i32_25 : BitVec 32 := 0#32
  let v23 : BitVec 1 := Scalar.cmpi .slt v21 c0_i32_25
  let c0_i32_26 : BitVec 32 := 0#32
  let v24 : BitVec 1 := Scalar.cmpi .slt v20 c0_i32_26
  let v25 : BitVec 1 := Scalar.xori v23 v24
  let c0_i32_24 : BitVec 32 := 0#32
  let v22 : BitVec 1 := Scalar.cmpi .ne v21 c0_i32_24
  let v26 : BitVec 1 := Scalar.andi v25 v22
  let v27 : BitVec 32 := Scalar.addi v21 v20
  let v28 : BitVec 32 := Scalar.select v26 v27 v21
  let c1_i32_85 : BitVec 32 := 1#32
  let v111 : BitVec 32 := Scalar.addi v28 c1_i32_85
  let c32_i32_109 : BitVec 32 := 32#32
  let v147 : BitVec 32 := Scalar.muli v111 c32_i32_109
  let c0_i32_86 : BitVec 32 := 0#32
  let c1_i32_88 : BitVec 32 := 1#32
  let arg13 : BitVec 32 := Scf.iv c0_i32_86 c1_i32_88 k0_t3
  let v148 : BitVec 32 := Scalar.addi v147 arg13
  let c128_i32_110 : BitVec 32 := 128#32
  let v149 : BitVec 32 := Scalar.muli v148 c128_i32_110
  let v150 : BitVec 32 := Scalar.addi v149 c0_i32_111
  let v151 : Index := Scalar.indexCast v150
  ![v151.toNat]
def k0_off72 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v154 : Index := Scalar.indexCast arg13
  let c0_i32_112 : BitVec 32 := 0#32
  let v155 : Index := Scalar.indexCast c0_i32_112
  let c0 : Index := 0#32
  ![v154.toNat, 0, 0]
def k0_off73 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v164 : Index := Scalar.indexCast arg13
  let c1_i32_115 : BitVec 32 := 1#32
  let v165 : Index := Scalar.indexCast c1_i32_115
  let c0_116 : Index := 0#32
  ![v164.toNat, 1, 0]
def k0_off74 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v174 : Index := Scalar.indexCast arg13
  let c2_i32_119 : BitVec 32 := 2#32
  let v175 : Index := Scalar.indexCast c2_i32_119
  let c0_120 : Index := 0#32
  ![v174.toNat, 2, 0]
def k0_off75 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v184 : Index := Scalar.indexCast arg13
  let c3_i32 : BitVec 32 := 3#32
  let v185 : Index := Scalar.indexCast c3_i32
  let c0_123 : Index := 0#32
  ![v184.toNat, 3, 0]
def k0_off76 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v194 : Index := Scalar.indexCast arg13
  let c4_i32 : BitVec 32 := 4#32
  let v195 : Index := Scalar.indexCast c4_i32
  let c0_126 : Index := 0#32
  ![v194.toNat, 4, 0]
def k0_off77 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v204 : Index := Scalar.indexCast arg13
  let c5_i32 : BitVec 32 := 5#32
  let v205 : Index := Scalar.indexCast c5_i32
  let c0_129 : Index := 0#32
  ![v204.toNat, 5, 0]
def k0_off78 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v214 : Index := Scalar.indexCast arg13
  let c6_i32 : BitVec 32 := 6#32
  let v215 : Index := Scalar.indexCast c6_i32
  let c0_132 : Index := 0#32
  ![v214.toNat, 6, 0]
def k0_off79 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v224 : Index := Scalar.indexCast arg13
  let c7_i32 : BitVec 32 := 7#32
  let v225 : Index := Scalar.indexCast c7_i32
  let c0_135 : Index := 0#32
  ![v224.toNat, 7, 0]
def k0_off80 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v241 : Index := Scalar.indexCast arg13
  let c0_i32_140 : BitVec 32 := 0#32
  let v242 : Index := Scalar.indexCast c0_i32_140
  let c16 : Index := 16#32
  ![v241.toNat, 0, 16]
def k0_off81 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v251 : Index := Scalar.indexCast arg13
  let c1_i32_143 : BitVec 32 := 1#32
  let v252 : Index := Scalar.indexCast c1_i32_143
  let c16_144 : Index := 16#32
  ![v251.toNat, 1, 16]
def k0_off82 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v261 : Index := Scalar.indexCast arg13
  let c2_i32_147 : BitVec 32 := 2#32
  let v262 : Index := Scalar.indexCast c2_i32_147
  let c16_148 : Index := 16#32
  ![v261.toNat, 2, 16]
def k0_off83 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v271 : Index := Scalar.indexCast arg13
  let c3_i32_151 : BitVec 32 := 3#32
  let v272 : Index := Scalar.indexCast c3_i32_151
  let c16_152 : Index := 16#32
  ![v271.toNat, 3, 16]
def k0_off84 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v281 : Index := Scalar.indexCast arg13
  let c4_i32_155 : BitVec 32 := 4#32
  let v282 : Index := Scalar.indexCast c4_i32_155
  let c16_156 : Index := 16#32
  ![v281.toNat, 4, 16]
def k0_off85 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v291 : Index := Scalar.indexCast arg13
  let c5_i32_159 : BitVec 32 := 5#32
  let v292 : Index := Scalar.indexCast c5_i32_159
  let c16_160 : Index := 16#32
  ![v291.toNat, 5, 16]
def k0_off86 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v301 : Index := Scalar.indexCast arg13
  let c6_i32_163 : BitVec 32 := 6#32
  let v302 : Index := Scalar.indexCast c6_i32_163
  let c16_164 : Index := 16#32
  ![v301.toNat, 6, 16]
def k0_off87 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v311 : Index := Scalar.indexCast arg13
  let c7_i32_167 : BitVec 32 := 7#32
  let v312 : Index := Scalar.indexCast c7_i32_167
  let c16_168 : Index := 16#32
  ![v311.toNat, 7, 16]
def k0_off88 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v328 : Index := Scalar.indexCast arg13
  let c0_i32_174 : BitVec 32 := 0#32
  let v329 : Index := Scalar.indexCast c0_i32_174
  let c32 : Index := 32#32
  ![v328.toNat, 0, 32]
def k0_off89 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v338 : Index := Scalar.indexCast arg13
  let c1_i32_177 : BitVec 32 := 1#32
  let v339 : Index := Scalar.indexCast c1_i32_177
  let c32_178 : Index := 32#32
  ![v338.toNat, 1, 32]
def k0_off90 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v348 : Index := Scalar.indexCast arg13
  let c2_i32_181 : BitVec 32 := 2#32
  let v349 : Index := Scalar.indexCast c2_i32_181
  let c32_182 : Index := 32#32
  ![v348.toNat, 2, 32]
def k0_off91 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v358 : Index := Scalar.indexCast arg13
  let c3_i32_185 : BitVec 32 := 3#32
  let v359 : Index := Scalar.indexCast c3_i32_185
  let c32_186 : Index := 32#32
  ![v358.toNat, 3, 32]
def k0_off92 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v368 : Index := Scalar.indexCast arg13
  let c4_i32_189 : BitVec 32 := 4#32
  let v369 : Index := Scalar.indexCast c4_i32_189
  let c32_190 : Index := 32#32
  ![v368.toNat, 4, 32]
def k0_off93 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v378 : Index := Scalar.indexCast arg13
  let c5_i32_193 : BitVec 32 := 5#32
  let v379 : Index := Scalar.indexCast c5_i32_193
  let c32_194 : Index := 32#32
  ![v378.toNat, 5, 32]
def k0_off94 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v388 : Index := Scalar.indexCast arg13
  let c6_i32_197 : BitVec 32 := 6#32
  let v389 : Index := Scalar.indexCast c6_i32_197
  let c32_198 : Index := 32#32
  ![v388.toNat, 6, 32]
def k0_off95 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v398 : Index := Scalar.indexCast arg13
  let c7_i32_201 : BitVec 32 := 7#32
  let v399 : Index := Scalar.indexCast c7_i32_201
  let c32_202 : Index := 32#32
  ![v398.toNat, 7, 32]
def k0_off96 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v415 : Index := Scalar.indexCast arg13
  let c0_i32_207 : BitVec 32 := 0#32
  let v416 : Index := Scalar.indexCast c0_i32_207
  let c48 : Index := 48#32
  ![v415.toNat, 0, 48]
def k0_off97 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v425 : Index := Scalar.indexCast arg13
  let c1_i32_210 : BitVec 32 := 1#32
  let v426 : Index := Scalar.indexCast c1_i32_210
  let c48_211 : Index := 48#32
  ![v425.toNat, 1, 48]
def k0_off98 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v435 : Index := Scalar.indexCast arg13
  let c2_i32_214 : BitVec 32 := 2#32
  let v436 : Index := Scalar.indexCast c2_i32_214
  let c48_215 : Index := 48#32
  ![v435.toNat, 2, 48]
def k0_off99 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v445 : Index := Scalar.indexCast arg13
  let c3_i32_218 : BitVec 32 := 3#32
  let v446 : Index := Scalar.indexCast c3_i32_218
  let c48_219 : Index := 48#32
  ![v445.toNat, 3, 48]
def k0_off100 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v455 : Index := Scalar.indexCast arg13
  let c4_i32_222 : BitVec 32 := 4#32
  let v456 : Index := Scalar.indexCast c4_i32_222
  let c48_223 : Index := 48#32
  ![v455.toNat, 4, 48]
def k0_off101 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v465 : Index := Scalar.indexCast arg13
  let c5_i32_226 : BitVec 32 := 5#32
  let v466 : Index := Scalar.indexCast c5_i32_226
  let c48_227 : Index := 48#32
  ![v465.toNat, 5, 48]
def k0_off102 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v475 : Index := Scalar.indexCast arg13
  let c6_i32_230 : BitVec 32 := 6#32
  let v476 : Index := Scalar.indexCast c6_i32_230
  let c48_231 : Index := 48#32
  ![v475.toNat, 6, 48]
def k0_off103 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v485 : Index := Scalar.indexCast arg13
  let c7_i32_234 : BitVec 32 := 7#32
  let v486 : Index := Scalar.indexCast c7_i32_234
  let c48_235 : Index := 48#32
  ![v485.toNat, 7, 48]
def k0_off104 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v502 : Index := Scalar.indexCast arg13
  let c0_i32_240 : BitVec 32 := 0#32
  let v503 : Index := Scalar.indexCast c0_i32_240
  let c64 : Index := 64#32
  ![v502.toNat, 0, 64]
def k0_off105 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v512 : Index := Scalar.indexCast arg13
  let c1_i32_243 : BitVec 32 := 1#32
  let v513 : Index := Scalar.indexCast c1_i32_243
  let c64_244 : Index := 64#32
  ![v512.toNat, 1, 64]
def k0_off106 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v522 : Index := Scalar.indexCast arg13
  let c2_i32_247 : BitVec 32 := 2#32
  let v523 : Index := Scalar.indexCast c2_i32_247
  let c64_248 : Index := 64#32
  ![v522.toNat, 2, 64]
def k0_off107 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v532 : Index := Scalar.indexCast arg13
  let c3_i32_251 : BitVec 32 := 3#32
  let v533 : Index := Scalar.indexCast c3_i32_251
  let c64_252 : Index := 64#32
  ![v532.toNat, 3, 64]
def k0_off108 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v542 : Index := Scalar.indexCast arg13
  let c4_i32_255 : BitVec 32 := 4#32
  let v543 : Index := Scalar.indexCast c4_i32_255
  let c64_256 : Index := 64#32
  ![v542.toNat, 4, 64]
def k0_off109 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v552 : Index := Scalar.indexCast arg13
  let c5_i32_259 : BitVec 32 := 5#32
  let v553 : Index := Scalar.indexCast c5_i32_259
  let c64_260 : Index := 64#32
  ![v552.toNat, 5, 64]
def k0_off110 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v562 : Index := Scalar.indexCast arg13
  let c6_i32_263 : BitVec 32 := 6#32
  let v563 : Index := Scalar.indexCast c6_i32_263
  let c64_264 : Index := 64#32
  ![v562.toNat, 6, 64]
def k0_off111 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v572 : Index := Scalar.indexCast arg13
  let c7_i32_267 : BitVec 32 := 7#32
  let v573 : Index := Scalar.indexCast c7_i32_267
  let c64_268 : Index := 64#32
  ![v572.toNat, 7, 64]
def k0_off112 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v589 : Index := Scalar.indexCast arg13
  let c0_i32_273 : BitVec 32 := 0#32
  let v590 : Index := Scalar.indexCast c0_i32_273
  let c80 : Index := 80#32
  ![v589.toNat, 0, 80]
def k0_off113 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v599 : Index := Scalar.indexCast arg13
  let c1_i32_276 : BitVec 32 := 1#32
  let v600 : Index := Scalar.indexCast c1_i32_276
  let c80_277 : Index := 80#32
  ![v599.toNat, 1, 80]
def k0_off114 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v609 : Index := Scalar.indexCast arg13
  let c2_i32_280 : BitVec 32 := 2#32
  let v610 : Index := Scalar.indexCast c2_i32_280
  let c80_281 : Index := 80#32
  ![v609.toNat, 2, 80]
def k0_off115 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v619 : Index := Scalar.indexCast arg13
  let c3_i32_284 : BitVec 32 := 3#32
  let v620 : Index := Scalar.indexCast c3_i32_284
  let c80_285 : Index := 80#32
  ![v619.toNat, 3, 80]
def k0_off116 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v629 : Index := Scalar.indexCast arg13
  let c4_i32_288 : BitVec 32 := 4#32
  let v630 : Index := Scalar.indexCast c4_i32_288
  let c80_289 : Index := 80#32
  ![v629.toNat, 4, 80]
def k0_off117 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v639 : Index := Scalar.indexCast arg13
  let c5_i32_292 : BitVec 32 := 5#32
  let v640 : Index := Scalar.indexCast c5_i32_292
  let c80_293 : Index := 80#32
  ![v639.toNat, 5, 80]
def k0_off118 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v649 : Index := Scalar.indexCast arg13
  let c6_i32_296 : BitVec 32 := 6#32
  let v650 : Index := Scalar.indexCast c6_i32_296
  let c80_297 : Index := 80#32
  ![v649.toNat, 6, 80]
def k0_off119 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v659 : Index := Scalar.indexCast arg13
  let c7_i32_300 : BitVec 32 := 7#32
  let v660 : Index := Scalar.indexCast c7_i32_300
  let c80_301 : Index := 80#32
  ![v659.toNat, 7, 80]
def k0_off120 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v676 : Index := Scalar.indexCast arg13
  let c0_i32_306 : BitVec 32 := 0#32
  let v677 : Index := Scalar.indexCast c0_i32_306
  let c96 : Index := 96#32
  ![v676.toNat, 0, 96]
def k0_off121 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v686 : Index := Scalar.indexCast arg13
  let c1_i32_309 : BitVec 32 := 1#32
  let v687 : Index := Scalar.indexCast c1_i32_309
  let c96_310 : Index := 96#32
  ![v686.toNat, 1, 96]
def k0_off122 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v696 : Index := Scalar.indexCast arg13
  let c2_i32_313 : BitVec 32 := 2#32
  let v697 : Index := Scalar.indexCast c2_i32_313
  let c96_314 : Index := 96#32
  ![v696.toNat, 2, 96]
def k0_off123 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v706 : Index := Scalar.indexCast arg13
  let c3_i32_317 : BitVec 32 := 3#32
  let v707 : Index := Scalar.indexCast c3_i32_317
  let c96_318 : Index := 96#32
  ![v706.toNat, 3, 96]
def k0_off124 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v716 : Index := Scalar.indexCast arg13
  let c4_i32_321 : BitVec 32 := 4#32
  let v717 : Index := Scalar.indexCast c4_i32_321
  let c96_322 : Index := 96#32
  ![v716.toNat, 4, 96]
def k0_off125 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v726 : Index := Scalar.indexCast arg13
  let c5_i32_325 : BitVec 32 := 5#32
  let v727 : Index := Scalar.indexCast c5_i32_325
  let c96_326 : Index := 96#32
  ![v726.toNat, 5, 96]
def k0_off126 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v736 : Index := Scalar.indexCast arg13
  let c6_i32_329 : BitVec 32 := 6#32
  let v737 : Index := Scalar.indexCast c6_i32_329
  let c96_330 : Index := 96#32
  ![v736.toNat, 6, 96]
def k0_off127 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v746 : Index := Scalar.indexCast arg13
  let c7_i32_333 : BitVec 32 := 7#32
  let v747 : Index := Scalar.indexCast c7_i32_333
  let c96_334 : Index := 96#32
  ![v746.toNat, 7, 96]
def k0_off128 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v763 : Index := Scalar.indexCast arg13
  let c0_i32_339 : BitVec 32 := 0#32
  let v764 : Index := Scalar.indexCast c0_i32_339
  let c112 : Index := 112#32
  ![v763.toNat, 0, 112]
def k0_off129 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v773 : Index := Scalar.indexCast arg13
  let c1_i32_342 : BitVec 32 := 1#32
  let v774 : Index := Scalar.indexCast c1_i32_342
  let c112_343 : Index := 112#32
  ![v773.toNat, 1, 112]
def k0_off130 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v783 : Index := Scalar.indexCast arg13
  let c2_i32_346 : BitVec 32 := 2#32
  let v784 : Index := Scalar.indexCast c2_i32_346
  let c112_347 : Index := 112#32
  ![v783.toNat, 2, 112]
def k0_off131 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v793 : Index := Scalar.indexCast arg13
  let c3_i32_350 : BitVec 32 := 3#32
  let v794 : Index := Scalar.indexCast c3_i32_350
  let c112_351 : Index := 112#32
  ![v793.toNat, 3, 112]
def k0_off132 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v803 : Index := Scalar.indexCast arg13
  let c4_i32_354 : BitVec 32 := 4#32
  let v804 : Index := Scalar.indexCast c4_i32_354
  let c112_355 : Index := 112#32
  ![v803.toNat, 4, 112]
def k0_off133 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v813 : Index := Scalar.indexCast arg13
  let c5_i32_358 : BitVec 32 := 5#32
  let v814 : Index := Scalar.indexCast c5_i32_358
  let c112_359 : Index := 112#32
  ![v813.toNat, 5, 112]
def k0_off134 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v823 : Index := Scalar.indexCast arg13
  let c6_i32_362 : BitVec 32 := 6#32
  let v824 : Index := Scalar.indexCast c6_i32_362
  let c112_363 : Index := 112#32
  ![v823.toNat, 6, 112]
def k0_off135 (k0_t3 : Fin k0_t3_loop.trips) : Fin 3 → Nat :=
  let c0_i32_86 : BitVec 32 := 0#32
  let c1_i32_88 : BitVec 32 := 1#32
  let arg13 : BitVec 32 := Scf.iv c0_i32_86 c1_i32_88 k0_t3
  let v833 : Index := Scalar.indexCast arg13
  let c7_i32_366 : BitVec 32 := 7#32
  let v834 : Index := Scalar.indexCast c7_i32_366
  let c112_367 : Index := 112#32
  ![v833.toNat, 7, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1048576x64_S8192x128x8x8 : S1048576x64.ShapeCasts S8192x128x8x8
  transposes_S8192x128x8x8_S8x8192x8x128_2_0_3_1 : S8192x128x8x8.Transposes [2, 0, 3, 1] S8x8192x8x128
  squeezes_S1x32x8x128_S32x8x128 : S1x32x8x128.Squeezes S32x8x128
  inb_S8x8192x8x128_S1x32x8x128_0_0_0_0 : ∀ a, (![0, 0, 0, 0] : Fin 4 → Nat) a + S1x32x8x128.size a ≤ S8x8192x8x128.size a
  h_S16 : 0 < S16.numel
  shapeCasts_S16_S16 : S16.ShapeCasts S16
  h_S1x1x16 : 0 < S1x1x16.numel
  shapeCasts_S1x1x16_S16 : S1x1x16.ShapeCasts S16
  shapeCasts_S16_S1x1x16 : S16.ShapeCasts S1x1x16
  transposes_S8x8192x8x128_S8192x128x8x8_1_3_0_2 : S8x8192x8x128.Transposes [1, 3, 0, 2] S8192x128x8x8
  shapeCasts_S8192x128x8x8_S1048576x64 : S8192x128x8x8.ShapeCasts S1048576x64
  hcc0_scratch3 : 0 + S_.numel ≤ 5
  hcc0_scratch4 : 1 + S_.numel ≤ 5
  hcc0_scratch5 : 2 + S_.numel ≤ 5
  hcc0_scratch6 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S32768.size a ≤ S1048576.size a
  k0_off2_inb : ∀ i : grid0.Coords, ∀ a, (k0_off2 i) a + S1x32x8x128.size a ≤ S8x8192x8x128.size a
  k0_t1_ok : k0_t1_loop.OK
  k0_off3_inb : ∀ (i : grid0.Coords) (k0_t1 : Fin k0_t1_loop.trips), ∀ a, (k0_off3 i k0_t1) a + S1x32x8x128.size a ≤ S8x8192x8x128.size a
  k0_t2_ok : k0_t2_loop.OK
  k0_off4_inb : ∀ (k0_t1 : Fin k0_t1_loop.trips) (k0_t2 : Fin k0_t2_loop.trips), ∀ (r : Fin 8), ∀ a, (k0_off4 k0_t1 k0_t2 (BitVec.ofNat 32 (16 * r.val))) a + S16.size a ≤ S32768.size a
  k0_off5_inb : ∀ k0_t2 : Fin k0_t2_loop.trips, ∀ a, (k0_off5 k0_t2) a + S1x1x16.size a ≤ S32x8x128.size a
  k0_off6_inb : ∀ k0_t2 : Fin k0_t2_loop.trips, ∀ a, (k0_off6 k0_t2) a + S1x1x16.size a ≤ S32x8x128.size a
  k0_off7_inb : ∀ k0_t2 : Fin k0_t2_loop.trips, ∀ a, (k0_off7 k0_t2) a + S1x1x16.size a ≤ S32x8x128.size a
  k0_off8_inb : ∀ k0_t2 : Fin k0_t2_loop.trips, ∀ a, (k0_off8 k0_t2) a + S1x1x16.size a ≤ S32x8x128.size a
  k0_off9_inb : ∀ k0_t2 : Fin k0_t2_loop.trips, ∀ a, (k0_off9 k0_t2) a + S1x1x16.size a ≤ S32x8x128.size a
  k0_off10_inb : ∀ k0_t2 : Fin k0_t2_loop.trips, ∀ a, (k0_off10 k0_t2) a + S1x1x16.size a ≤ S32x8x128.size a
  k0_off11_inb : ∀ k0_t2 : Fin k0_t2_loop.trips, ∀ a, (k0_off11 k0_t2) a + S1x1x16.size a ≤ S32x8x128.size a
  k0_off12_inb : ∀ k0_t2 : Fin k0_t2_loop.trips, ∀ a, (k0_off12 k0_t2) a + S1x1x16.size a ≤ S32x8x128.size a
  k0_off13_inb : ∀ k0_t2 : Fin k0_t2_loop.trips, ∀ a, (k0_off13 k0_t2) a + S1x1x16.size a ≤ S32x8x128.size a
  k0_off14_inb : ∀ k0_t2 : Fin k0_t2_loop.trips, ∀ a, (k0_off14 k0_t2) a + S1x1x16.size a ≤ S32x8x128.size a
  k0_off15_inb : ∀ k0_t2 : Fin k0_t2_loop.trips, ∀ a, (k0_off15 k0_t2) a + S1x1x16.size a ≤ S32x8x128.size a
  k0_off16_inb : ∀ k0_t2 : Fin k0_t2_loop.trips, ∀ a, (k0_off16 k0_t2) a + S1x1x16.size a ≤ S32x8x128.size a
  k0_off17_inb : ∀ k0_t2 : Fin k0_t2_loop.trips, ∀ a, (k0_off17 k0_t2) a + S1x1x16.size a ≤ S32x8x128.size a
  k0_off18_inb : ∀ k0_t2 : Fin k0_t2_loop.trips, ∀ a, (k0_off18 k0_t2) a + S1x1x16.size a ≤ S32x8x128.size a
  k0_off19_inb : ∀ k0_t2 : Fin k0_t2_loop.trips, ∀ a, (k0_off19 k0_t2) a + S1x1x16.size a ≤ S32x8x128.size a
  k0_off20_inb : ∀ k0_t2 : Fin k0_t2_loop.trips, ∀ a, (k0_off20 k0_t2) a + S1x1x16.size a ≤ S32x8x128.size a
  k0_off21_inb : ∀ k0_t2 : Fin k0_t2_loop.trips, ∀ a, (k0_off21 k0_t2) a + S1x1x16.size a ≤ S32x8x128.size a
  k0_off22_inb : ∀ k0_t2 : Fin k0_t2_loop.trips, ∀ a, (k0_off22 k0_t2) a + S1x1x16.size a ≤ S32x8x128.size a
  k0_off23_inb : ∀ k0_t2 : Fin k0_t2_loop.trips, ∀ a, (k0_off23 k0_t2) a + S1x1x16.size a ≤ S32x8x128.size a
  k0_off24_inb : ∀ k0_t2 : Fin k0_t2_loop.trips, ∀ a, (k0_off24 k0_t2) a + S1x1x16.size a ≤ S32x8x128.size a
  k0_off25_inb : ∀ k0_t2 : Fin k0_t2_loop.trips, ∀ a, (k0_off25 k0_t2) a + S1x1x16.size a ≤ S32x8x128.size a
  k0_off26_inb : ∀ k0_t2 : Fin k0_t2_loop.trips, ∀ a, (k0_off26 k0_t2) a + S1x1x16.size a ≤ S32x8x128.size a
  k0_off27_inb : ∀ k0_t2 : Fin k0_t2_loop.trips, ∀ a, (k0_off27 k0_t2) a + S1x1x16.size a ≤ S32x8x128.size a
  k0_off28_inb : ∀ k0_t2 : Fin k0_t2_loop.trips, ∀ a, (k0_off28 k0_t2) a + S1x1x16.size a ≤ S32x8x128.size a
  k0_off29_inb : ∀ k0_t2 : Fin k0_t2_loop.trips, ∀ a, (k0_off29 k0_t2) a + S1x1x16.size a ≤ S32x8x128.size a
  k0_off30_inb : ∀ k0_t2 : Fin k0_t2_loop.trips, ∀ a, (k0_off30 k0_t2) a + S1x1x16.size a ≤ S32x8x128.size a
  k0_off31_inb : ∀ k0_t2 : Fin k0_t2_loop.trips, ∀ a, (k0_off31 k0_t2) a + S1x1x16.size a ≤ S32x8x128.size a
  k0_off32_inb : ∀ k0_t2 : Fin k0_t2_loop.trips, ∀ a, (k0_off32 k0_t2) a + S1x1x16.size a ≤ S32x8x128.size a
  k0_off33_inb : ∀ k0_t2 : Fin k0_t2_loop.trips, ∀ a, (k0_off33 k0_t2) a + S1x1x16.size a ≤ S32x8x128.size a
  k0_off34_inb : ∀ k0_t2 : Fin k0_t2_loop.trips, ∀ a, (k0_off34 k0_t2) a + S1x1x16.size a ≤ S32x8x128.size a
  k0_off35_inb : ∀ k0_t2 : Fin k0_t2_loop.trips, ∀ a, (k0_off35 k0_t2) a + S1x1x16.size a ≤ S32x8x128.size a
  k0_off36_inb : ∀ k0_t2 : Fin k0_t2_loop.trips, ∀ a, (k0_off36 k0_t2) a + S1x1x16.size a ≤ S32x8x128.size a
  k0_off37_inb : ∀ k0_t2 : Fin k0_t2_loop.trips, ∀ a, (k0_off37 k0_t2) a + S1x1x16.size a ≤ S32x8x128.size a
  k0_off38_inb : ∀ k0_t2 : Fin k0_t2_loop.trips, ∀ a, (k0_off38 k0_t2) a + S1x1x16.size a ≤ S32x8x128.size a
  k0_off39_inb : ∀ k0_t2 : Fin k0_t2_loop.trips, ∀ a, (k0_off39 k0_t2) a + S1x1x16.size a ≤ S32x8x128.size a
  k0_off40_inb : ∀ k0_t2 : Fin k0_t2_loop.trips, ∀ a, (k0_off40 k0_t2) a + S1x1x16.size a ≤ S32x8x128.size a
  k0_off41_inb : ∀ k0_t2 : Fin k0_t2_loop.trips, ∀ a, (k0_off41 k0_t2) a + S1x1x16.size a ≤ S32x8x128.size a
  k0_off42_inb : ∀ k0_t2 : Fin k0_t2_loop.trips, ∀ a, (k0_off42 k0_t2) a + S1x1x16.size a ≤ S32x8x128.size a
  k0_off43_inb : ∀ k0_t2 : Fin k0_t2_loop.trips, ∀ a, (k0_off43 k0_t2) a + S1x1x16.size a ≤ S32x8x128.size a
  k0_off44_inb : ∀ k0_t2 : Fin k0_t2_loop.trips, ∀ a, (k0_off44 k0_t2) a + S1x1x16.size a ≤ S32x8x128.size a
  k0_off45_inb : ∀ k0_t2 : Fin k0_t2_loop.trips, ∀ a, (k0_off45 k0_t2) a + S1x1x16.size a ≤ S32x8x128.size a
  k0_off46_inb : ∀ k0_t2 : Fin k0_t2_loop.trips, ∀ a, (k0_off46 k0_t2) a + S1x1x16.size a ≤ S32x8x128.size a
  k0_off47_inb : ∀ k0_t2 : Fin k0_t2_loop.trips, ∀ a, (k0_off47 k0_t2) a + S1x1x16.size a ≤ S32x8x128.size a
  k0_off48_inb : ∀ k0_t2 : Fin k0_t2_loop.trips, ∀ a, (k0_off48 k0_t2) a + S1x1x16.size a ≤ S32x8x128.size a
  k0_off49_inb : ∀ k0_t2 : Fin k0_t2_loop.trips, ∀ a, (k0_off49 k0_t2) a + S1x1x16.size a ≤ S32x8x128.size a
  k0_off50_inb : ∀ k0_t2 : Fin k0_t2_loop.trips, ∀ a, (k0_off50 k0_t2) a + S1x1x16.size a ≤ S32x8x128.size a
  k0_off51_inb : ∀ k0_t2 : Fin k0_t2_loop.trips, ∀ a, (k0_off51 k0_t2) a + S1x1x16.size a ≤ S32x8x128.size a
  k0_off52_inb : ∀ k0_t2 : Fin k0_t2_loop.trips, ∀ a, (k0_off52 k0_t2) a + S1x1x16.size a ≤ S32x8x128.size a
  k0_off53_inb : ∀ k0_t2 : Fin k0_t2_loop.trips, ∀ a, (k0_off53 k0_t2) a + S1x1x16.size a ≤ S32x8x128.size a
  k0_off54_inb : ∀ k0_t2 : Fin k0_t2_loop.trips, ∀ a, (k0_off54 k0_t2) a + S1x1x16.size a ≤ S32x8x128.size a
  k0_off55_inb : ∀ k0_t2 : Fin k0_t2_loop.trips, ∀ a, (k0_off55 k0_t2) a + S1x1x16.size a ≤ S32x8x128.size a
  k0_off56_inb : ∀ k0_t2 : Fin k0_t2_loop.trips, ∀ a, (k0_off56 k0_t2) a + S1x1x16.size a ≤ S32x8x128.size a
  k0_off57_inb : ∀ k0_t2 : Fin k0_t2_loop.trips, ∀ a, (k0_off57 k0_t2) a + S1x1x16.size a ≤ S32x8x128.size a
  k0_off58_inb : ∀ k0_t2 : Fin k0_t2_loop.trips, ∀ a, (k0_off58 k0_t2) a + S1x1x16.size a ≤ S32x8x128.size a
  k0_off59_inb : ∀ k0_t2 : Fin k0_t2_loop.trips, ∀ a, (k0_off59 k0_t2) a + S1x1x16.size a ≤ S32x8x128.size a
  k0_off60_inb : ∀ k0_t2 : Fin k0_t2_loop.trips, ∀ a, (k0_off60 k0_t2) a + S1x1x16.size a ≤ S32x8x128.size a
  k0_off61_inb : ∀ k0_t2 : Fin k0_t2_loop.trips, ∀ a, (k0_off61 k0_t2) a + S1x1x16.size a ≤ S32x8x128.size a
  k0_off62_inb : ∀ k0_t2 : Fin k0_t2_loop.trips, ∀ a, (k0_off62 k0_t2) a + S1x1x16.size a ≤ S32x8x128.size a
  k0_off63_inb : ∀ k0_t2 : Fin k0_t2_loop.trips, ∀ a, (k0_off63 k0_t2) a + S1x1x16.size a ≤ S32x8x128.size a
  k0_off64_inb : ∀ k0_t2 : Fin k0_t2_loop.trips, ∀ a, (k0_off64 k0_t2) a + S1x1x16.size a ≤ S32x8x128.size a
  k0_off65_inb : ∀ k0_t2 : Fin k0_t2_loop.trips, ∀ a, (k0_off65 k0_t2) a + S1x1x16.size a ≤ S32x8x128.size a
  k0_off66_inb : ∀ k0_t2 : Fin k0_t2_loop.trips, ∀ a, (k0_off66 k0_t2) a + S1x1x16.size a ≤ S32x8x128.size a
  k0_off67_inb : ∀ k0_t2 : Fin k0_t2_loop.trips, ∀ a, (k0_off67 k0_t2) a + S1x1x16.size a ≤ S32x8x128.size a
  k0_off68_inb : ∀ k0_t2 : Fin k0_t2_loop.trips, ∀ a, (k0_off68 k0_t2) a + S1x1x16.size a ≤ S32x8x128.size a
  k0_off69_inb : ∀ (i : grid0.Coords) (k0_t1 : Fin k0_t1_loop.trips), ∀ a, (k0_off69 i k0_t1) a + S1x32x8x128.size a ≤ S8x8192x8x128.size a
  k0_off70_inb : ∀ (i : grid0.Coords) (k0_t1 : Fin k0_t1_loop.trips), ∀ (k0_h2 : k0_cond2 k0_t1 = 1#1), ∀ a, (k0_off70 i k0_t1) a + S1x32x8x128.size a ≤ S8x8192x8x128.size a
  k0_t3_ok : k0_t3_loop.OK
  k0_off71_inb : ∀ (k0_t1 : Fin k0_t1_loop.trips) (k0_t3 : Fin k0_t3_loop.trips), ∀ (r : Fin 8), ∀ a, (k0_off71 k0_t1 k0_t3 (BitVec.ofNat 32 (16 * r.val))) a + S16.size a ≤ S32768.size a
  k0_off72_inb : ∀ k0_t3 : Fin k0_t3_loop.trips, ∀ a, (k0_off72 k0_t3) a + S1x1x16.size a ≤ S32x8x128.size a
  k0_off73_inb : ∀ k0_t3 : Fin k0_t3_loop.trips, ∀ a, (k0_off73 k0_t3) a + S1x1x16.size a ≤ S32x8x128.size a
  k0_off74_inb : ∀ k0_t3 : Fin k0_t3_loop.trips, ∀ a, (k0_off74 k0_t3) a + S1x1x16.size a ≤ S32x8x128.size a
  k0_off75_inb : ∀ k0_t3 : Fin k0_t3_loop.trips, ∀ a, (k0_off75 k0_t3) a + S1x1x16.size a ≤ S32x8x128.size a
  k0_off76_inb : ∀ k0_t3 : Fin k0_t3_loop.trips, ∀ a, (k0_off76 k0_t3) a + S1x1x16.size a ≤ S32x8x128.size a
  k0_off77_inb : ∀ k0_t3 : Fin k0_t3_loop.trips, ∀ a, (k0_off77 k0_t3) a + S1x1x16.size a ≤ S32x8x128.size a
  k0_off78_inb : ∀ k0_t3 : Fin k0_t3_loop.trips, ∀ a, (k0_off78 k0_t3) a + S1x1x16.size a ≤ S32x8x128.size a
  k0_off79_inb : ∀ k0_t3 : Fin k0_t3_loop.trips, ∀ a, (k0_off79 k0_t3) a + S1x1x16.size a ≤ S32x8x128.size a
  k0_off80_inb : ∀ k0_t3 : Fin k0_t3_loop.trips, ∀ a, (k0_off80 k0_t3) a + S1x1x16.size a ≤ S32x8x128.size a
  k0_off81_inb : ∀ k0_t3 : Fin k0_t3_loop.trips, ∀ a, (k0_off81 k0_t3) a + S1x1x16.size a ≤ S32x8x128.size a
  k0_off82_inb : ∀ k0_t3 : Fin k0_t3_loop.trips, ∀ a, (k0_off82 k0_t3) a + S1x1x16.size a ≤ S32x8x128.size a
  k0_off83_inb : ∀ k0_t3 : Fin k0_t3_loop.trips, ∀ a, (k0_off83 k0_t3) a + S1x1x16.size a ≤ S32x8x128.size a
  k0_off84_inb : ∀ k0_t3 : Fin k0_t3_loop.trips, ∀ a, (k0_off84 k0_t3) a + S1x1x16.size a ≤ S32x8x128.size a
  k0_off85_inb : ∀ k0_t3 : Fin k0_t3_loop.trips, ∀ a, (k0_off85 k0_t3) a + S1x1x16.size a ≤ S32x8x128.size a
  k0_off86_inb : ∀ k0_t3 : Fin k0_t3_loop.trips, ∀ a, (k0_off86 k0_t3) a + S1x1x16.size a ≤ S32x8x128.size a
  k0_off87_inb : ∀ k0_t3 : Fin k0_t3_loop.trips, ∀ a, (k0_off87 k0_t3) a + S1x1x16.size a ≤ S32x8x128.size a
  k0_off88_inb : ∀ k0_t3 : Fin k0_t3_loop.trips, ∀ a, (k0_off88 k0_t3) a + S1x1x16.size a ≤ S32x8x128.size a
  k0_off89_inb : ∀ k0_t3 : Fin k0_t3_loop.trips, ∀ a, (k0_off89 k0_t3) a + S1x1x16.size a ≤ S32x8x128.size a
  k0_off90_inb : ∀ k0_t3 : Fin k0_t3_loop.trips, ∀ a, (k0_off90 k0_t3) a + S1x1x16.size a ≤ S32x8x128.size a
  k0_off91_inb : ∀ k0_t3 : Fin k0_t3_loop.trips, ∀ a, (k0_off91 k0_t3) a + S1x1x16.size a ≤ S32x8x128.size a
  k0_off92_inb : ∀ k0_t3 : Fin k0_t3_loop.trips, ∀ a, (k0_off92 k0_t3) a + S1x1x16.size a ≤ S32x8x128.size a
  k0_off93_inb : ∀ k0_t3 : Fin k0_t3_loop.trips, ∀ a, (k0_off93 k0_t3) a + S1x1x16.size a ≤ S32x8x128.size a
  k0_off94_inb : ∀ k0_t3 : Fin k0_t3_loop.trips, ∀ a, (k0_off94 k0_t3) a + S1x1x16.size a ≤ S32x8x128.size a
  k0_off95_inb : ∀ k0_t3 : Fin k0_t3_loop.trips, ∀ a, (k0_off95 k0_t3) a + S1x1x16.size a ≤ S32x8x128.size a
  k0_off96_inb : ∀ k0_t3 : Fin k0_t3_loop.trips, ∀ a, (k0_off96 k0_t3) a + S1x1x16.size a ≤ S32x8x128.size a
  k0_off97_inb : ∀ k0_t3 : Fin k0_t3_loop.trips, ∀ a, (k0_off97 k0_t3) a + S1x1x16.size a ≤ S32x8x128.size a
  k0_off98_inb : ∀ k0_t3 : Fin k0_t3_loop.trips, ∀ a, (k0_off98 k0_t3) a + S1x1x16.size a ≤ S32x8x128.size a
  k0_off99_inb : ∀ k0_t3 : Fin k0_t3_loop.trips, ∀ a, (k0_off99 k0_t3) a + S1x1x16.size a ≤ S32x8x128.size a
  k0_off100_inb : ∀ k0_t3 : Fin k0_t3_loop.trips, ∀ a, (k0_off100 k0_t3) a + S1x1x16.size a ≤ S32x8x128.size a
  k0_off101_inb : ∀ k0_t3 : Fin k0_t3_loop.trips, ∀ a, (k0_off101 k0_t3) a + S1x1x16.size a ≤ S32x8x128.size a
  k0_off102_inb : ∀ k0_t3 : Fin k0_t3_loop.trips, ∀ a, (k0_off102 k0_t3) a + S1x1x16.size a ≤ S32x8x128.size a
  k0_off103_inb : ∀ k0_t3 : Fin k0_t3_loop.trips, ∀ a, (k0_off103 k0_t3) a + S1x1x16.size a ≤ S32x8x128.size a
  k0_off104_inb : ∀ k0_t3 : Fin k0_t3_loop.trips, ∀ a, (k0_off104 k0_t3) a + S1x1x16.size a ≤ S32x8x128.size a
  k0_off105_inb : ∀ k0_t3 : Fin k0_t3_loop.trips, ∀ a, (k0_off105 k0_t3) a + S1x1x16.size a ≤ S32x8x128.size a
  k0_off106_inb : ∀ k0_t3 : Fin k0_t3_loop.trips, ∀ a, (k0_off106 k0_t3) a + S1x1x16.size a ≤ S32x8x128.size a
  k0_off107_inb : ∀ k0_t3 : Fin k0_t3_loop.trips, ∀ a, (k0_off107 k0_t3) a + S1x1x16.size a ≤ S32x8x128.size a
  k0_off108_inb : ∀ k0_t3 : Fin k0_t3_loop.trips, ∀ a, (k0_off108 k0_t3) a + S1x1x16.size a ≤ S32x8x128.size a
  k0_off109_inb : ∀ k0_t3 : Fin k0_t3_loop.trips, ∀ a, (k0_off109 k0_t3) a + S1x1x16.size a ≤ S32x8x128.size a
  k0_off110_inb : ∀ k0_t3 : Fin k0_t3_loop.trips, ∀ a, (k0_off110 k0_t3) a + S1x1x16.size a ≤ S32x8x128.size a
  k0_off111_inb : ∀ k0_t3 : Fin k0_t3_loop.trips, ∀ a, (k0_off111 k0_t3) a + S1x1x16.size a ≤ S32x8x128.size a
  k0_off112_inb : ∀ k0_t3 : Fin k0_t3_loop.trips, ∀ a, (k0_off112 k0_t3) a + S1x1x16.size a ≤ S32x8x128.size a
  k0_off113_inb : ∀ k0_t3 : Fin k0_t3_loop.trips, ∀ a, (k0_off113 k0_t3) a + S1x1x16.size a ≤ S32x8x128.size a
  k0_off114_inb : ∀ k0_t3 : Fin k0_t3_loop.trips, ∀ a, (k0_off114 k0_t3) a + S1x1x16.size a ≤ S32x8x128.size a
  k0_off115_inb : ∀ k0_t3 : Fin k0_t3_loop.trips, ∀ a, (k0_off115 k0_t3) a + S1x1x16.size a ≤ S32x8x128.size a
  k0_off116_inb : ∀ k0_t3 : Fin k0_t3_loop.trips, ∀ a, (k0_off116 k0_t3) a + S1x1x16.size a ≤ S32x8x128.size a
  k0_off117_inb : ∀ k0_t3 : Fin k0_t3_loop.trips, ∀ a, (k0_off117 k0_t3) a + S1x1x16.size a ≤ S32x8x128.size a
  k0_off118_inb : ∀ k0_t3 : Fin k0_t3_loop.trips, ∀ a, (k0_off118 k0_t3) a + S1x1x16.size a ≤ S32x8x128.size a
  k0_off119_inb : ∀ k0_t3 : Fin k0_t3_loop.trips, ∀ a, (k0_off119 k0_t3) a + S1x1x16.size a ≤ S32x8x128.size a
  k0_off120_inb : ∀ k0_t3 : Fin k0_t3_loop.trips, ∀ a, (k0_off120 k0_t3) a + S1x1x16.size a ≤ S32x8x128.size a
  k0_off121_inb : ∀ k0_t3 : Fin k0_t3_loop.trips, ∀ a, (k0_off121 k0_t3) a + S1x1x16.size a ≤ S32x8x128.size a
  k0_off122_inb : ∀ k0_t3 : Fin k0_t3_loop.trips, ∀ a, (k0_off122 k0_t3) a + S1x1x16.size a ≤ S32x8x128.size a
  k0_off123_inb : ∀ k0_t3 : Fin k0_t3_loop.trips, ∀ a, (k0_off123 k0_t3) a + S1x1x16.size a ≤ S32x8x128.size a
  k0_off124_inb : ∀ k0_t3 : Fin k0_t3_loop.trips, ∀ a, (k0_off124 k0_t3) a + S1x1x16.size a ≤ S32x8x128.size a
  k0_off125_inb : ∀ k0_t3 : Fin k0_t3_loop.trips, ∀ a, (k0_off125 k0_t3) a + S1x1x16.size a ≤ S32x8x128.size a
  k0_off126_inb : ∀ k0_t3 : Fin k0_t3_loop.trips, ∀ a, (k0_off126 k0_t3) a + S1x1x16.size a ≤ S32x8x128.size a
  k0_off127_inb : ∀ k0_t3 : Fin k0_t3_loop.trips, ∀ a, (k0_off127 k0_t3) a + S1x1x16.size a ≤ S32x8x128.size a
  k0_off128_inb : ∀ k0_t3 : Fin k0_t3_loop.trips, ∀ a, (k0_off128 k0_t3) a + S1x1x16.size a ≤ S32x8x128.size a
  k0_off129_inb : ∀ k0_t3 : Fin k0_t3_loop.trips, ∀ a, (k0_off129 k0_t3) a + S1x1x16.size a ≤ S32x8x128.size a
  k0_off130_inb : ∀ k0_t3 : Fin k0_t3_loop.trips, ∀ a, (k0_off130 k0_t3) a + S1x1x16.size a ≤ S32x8x128.size a
  k0_off131_inb : ∀ k0_t3 : Fin k0_t3_loop.trips, ∀ a, (k0_off131 k0_t3) a + S1x1x16.size a ≤ S32x8x128.size a
  k0_off132_inb : ∀ k0_t3 : Fin k0_t3_loop.trips, ∀ a, (k0_off132 k0_t3) a + S1x1x16.size a ≤ S32x8x128.size a
  k0_off133_inb : ∀ k0_t3 : Fin k0_t3_loop.trips, ∀ a, (k0_off133 k0_t3) a + S1x1x16.size a ≤ S32x8x128.size a
  k0_off134_inb : ∀ k0_t3 : Fin k0_t3_loop.trips, ∀ a, (k0_off134 k0_t3) a + S1x1x16.size a ≤ S32x8x128.size a
  k0_off135_inb : ∀ k0_t3 : Fin k0_t3_loop.trips, ∀ a, (k0_off135 k0_t3) a + S1x1x16.size a ≤ S32x8x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scoped0 : DmaSems sig S_ := SemArray.consecutive 4 S_ hcc0_scoped0

class Facts : Prop extends Facts₀ where

variable [Facts]
-- ==== ReferenceIdeal.lean ====
abbrev S1048576x64 : Shape := ⟨2, ![1048576, 64]⟩
abbrev S1048576 : Shape := ⟨1, ![1048576]⟩
abbrev S1048576x1 : Shape := ⟨2, ![1048576, 1]⟩

abbrev nBuf : Space → Nat
  | .hbm => 5
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576, .f32⟩
  | .hbm, ⟨2, _⟩ => ⟨S1048576x1, .f32⟩
  | .hbm, ⟨3, _⟩ => ⟨S1048576x64, .f32⟩
  | .hbm, ⟨4, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)

variable [Facts₀]

class Facts : Prop extends Facts₀ where

variable [Facts]
-- ==== Proof.Spec.lean ====
/-
  The functions the two programs compute, over literal shapes and generic in the float instance.

  `x : f32[1048576, 64]`, `diag : f32[1048576]`. The reference is `out[r, c] = diag[r] · x[r, c]`. The kernel re-lays
  `x` as `a[i, j, s, l] = x[128 j + l, 8 i + s]` (a reshape to [8192, 128, 8, 8] and the transposition (2, 0, 3, 1)),
  scales `o[i, j, s, l] = a[i, j, s, l] · diag[128 j + l]`, and lays `o` back by the inverse transposition (1, 3, 0, 2)
  and reshape: `out[r, c] = x[r, c] · diag[r]`.
-/
import Idealize.ShloMosaic.PureOps
import Idealize.ShloMosaic.Lib.ValueIdx
import Idealize.ShloMosaic.Lib.Pipeline.Value
import Idealize.ShloMosaic.Lib.ValueLayout

noncomputable section

namespace Cert.Proof.Spec

open Idealize.ShloMosaic

variable {F : FTy → Type} [FloatOps F]

abbrev SX : Shape := ⟨2, ![1048576, 64]⟩
abbrev SD : Shape := ⟨1, ![1048576]⟩
abbrev SR : Shape := ⟨4, ![8192, 128, 8, 8]⟩
abbrev SA : Shape := ⟨4, ![8, 8192, 8, 128]⟩

/-- Row `r` of `x` scaled by `diag[r]`, the factor on the right (the kernel's order of the product). -/
def rowScaled (x : FVec F SX .f32) (dd : FVec F SD .f32) : FVec F SX .f32 :=
  fun i => FloatOps.mulf (x i) (dd (ValueIdx.ix1 ⟨(i 0).val, (i 0).isLt⟩))

/-- The kernel's own array function: element `(i, j, s, l)` of the re-laid input scaled by `diag[128 j + l]`. -/
def Gk (a : FVec F SA .f32) (dd : FVec F SD .f32) : FVec F SA .f32 :=
  fun i => FloatOps.mulf (a i) (dd (ValueIdx.ix1 ⟨(128 * (i 1).val + (i 3).val) % 1048576, Nat.mod_lt _ (by decide)⟩))

/-- Re-laying, scaling by `Gk` and laying back is the row scaling. -/
theorem relayout (x : FVec F SX .f32) (dd : FVec F SD .f32)
    (hc1 : SX.ShapeCasts SR) (ht1 : SR.Transposes [2, 0, 3, 1] SA) (ht2 : SA.Transposes [1, 3, 0, 2] SR) (hc2 : SR.ShapeCasts SX) :
    shapeCast SX (transpose SR [1, 3, 0, 2] (Gk (transpose SA [2, 0, 3, 1] (shapeCast SR x hc1) ht1) dd) ht2) hc2 = rowScaled x dd := by
  funext r
  -- the target index by its coordinates: row p, column q
  obtain ⟨p, q, rfl⟩ : ∃ (p : Fin 1048576) (q : Fin 64), r = ValueIdx.ix2 p q := ⟨r 0, r 1, ValueIdx.eq_ix2 r⟩
  have hp : p.val < 1048576 := p.isLt
  have hq : q.val < 64 := q.isLt
  -- the row splits as 128 j + l, the column as 8 i + s
  obtain ⟨j, l, hjl⟩ : ∃ (j : Fin 8192) (l : Fin 128), p.val = 128 * j.val + l.val :=
    ⟨⟨p.val / 128, by omega⟩, ⟨p.val % 128, Nat.mod_lt _ (by decide)⟩, by
      show p.val = 128 * (p.val / 128) + p.val % 128; omega⟩
  obtain ⟨i, s, his⟩ : ∃ (i : Fin 8) (s : Fin 8), q.val = 8 * i.val + s.val :=
    ⟨⟨q.val / 8, by omega⟩, ⟨q.val % 8, Nat.mod_lt _ (by decide)⟩, by
      show q.val = 8 * (q.val / 8) + q.val % 8; omega⟩
  have hj : j.val < 8192 := j.isLt
  have hl : l.val < 128 := l.isLt
  have hi : i.val < 8 := i.isLt
  have hs : s.val < 8 := s.isLt
  -- row-major position 64 p + q of [8192, 128, 8, 8] is the index (j, l, i, s)
  have hpos : (SR.rowMajor (ValueIdx.ix4 j l i s)).val = (SX.rowMajor (ValueIdx.ix2 p q)).val := by
    rw [Shape.rowMajor_val_two, Shape.rowMajor_val_four]
    show ((j.val * 128 + l.val) * 8 + i.val) * 8 + s.val = p.val * 64 + q.val
    omega
  -- the final reshape: [1048576, 64] at (p, q) reads [8192, 128, 8, 8] at (j, l, i, s)
  refine (shapeCast_apply _ hc2 (ValueIdx.ix2 p q) (ValueIdx.ix4 j l i s) hpos).trans ?_
  -- the transposition (1, 3, 0, 2): [8192, 128, 8, 8] at (j, l, i, s) reads [8, 8192, 8, 128] at (i, j, s, l)
  refine (transpose_apply _ _ ht2 (ValueIdx.ix4 j l i s) (ValueIdx.ix4 i j s l)
    (fun b => match b with | ⟨0, _⟩ => rfl | ⟨1, _⟩ => rfl | ⟨2, _⟩ => rfl | ⟨3, _⟩ => rfl)).trans ?_
  -- the scaling at (i, j, s, l): the re-laid input there times diag[128 j + l]
  show FloatOps.mulf (transpose SA [2, 0, 3, 1] (shapeCast SR x hc1) ht1 (ValueIdx.ix4 i j s l))
      (dd (ValueIdx.ix1 ⟨(128 * j.val + l.val) % 1048576, Nat.mod_lt _ (by decide)⟩))
    = FloatOps.mulf (x (ValueIdx.ix2 p q)) (dd (ValueIdx.ix1 ⟨p.val, p.isLt⟩))
  -- the transposition (2, 0, 3, 1) reads the first reshape at (j, l, i, s), which is x at (p, q)
  have ha : transpose SA [2, 0, 3, 1] (shapeCast SR x hc1) ht1 (ValueIdx.ix4 i j s l) = x (ValueIdx.ix2 p q) := by
    refine (transpose_apply _ _ ht1 (ValueIdx.ix4 i j s l) (ValueIdx.ix4 j l i s)
      (fun b => match b with | ⟨0, _⟩ => rfl | ⟨1, _⟩ => rfl | ⟨2, _⟩ => rfl | ⟨3, _⟩ => rfl)).trans ?_
    exact shapeCast_apply x hc1 (ValueIdx.ix4 j l i s) (ValueIdx.ix2 p q) hpos.symm
  -- 128 j + l is the row p, below 1048576: the reduction modulo 1048576 is the identity
  have hd : (ValueIdx.ix1 ⟨(128 * j.val + l.val) % 1048576, Nat.mod_lt _ (by decide)⟩ : SD.Idx)
      = ValueIdx.ix1 ⟨p.val, p.isLt⟩ := by
    congr 1
    apply Fin.ext
    show (128 * j.val + l.val) % 1048576 = p.val
    omega
  rw [ha, hd]

end Cert.Proof.Spec

end
-- ==== Proof.RefValue.lean ====
/-
  The reference's value: `diag[:, None] * x` is, on the extended reals, the row scaling with the factor on the
  right: multiplication of extended reals commutes.
-/
import proofs.«218970_g6992206758257_cont_9to1_m_205_14_alg».proof.Proof.Gen.ReferenceIdeal.Run
import proofs.«218970_g6992206758257_cont_9to1_m_205_14_alg».proof.Proof.Gen.ReferenceIdeal.Read
import proofs.«218970_g6992206758257_cont_9to1_m_205_14_alg».proof.Proof.Spec

noncomputable section

namespace Cert.Proof.RefValue

open Cert.ReferenceIdeal Cert.ReferenceIdeal.Gen Idealize.ShloMosaic

/-- The reference run's result term at the ideal instance is the row scaling of the specification. -/
theorem ref_eq (x : (⟨S1048576x64, .f32⟩ : BufTy).Contents (Elt Ideal)) (dd : (⟨S1048576, .f32⟩ : BufTy).Contents (Elt Ideal)) :
    mulf (broadcastInDim S1048576x64 ![0, 1] bcast_S1048576x1_S1048576x64_0_1 (broadcastInDim S1048576x1 ![0] bcast_S1048576_S1048576x1_0 dd)) x
      = Cert.Proof.Spec.rowScaled (F := Ideal) x dd := by
  rw [Read.val_main_v2_eq]
  funext i
  -- the product at an index: the twice-broadcast diag at i, which is diag at row (i 0), times x at i
  rw [Read.val_main_v2_apply, Read.val_main_v1_apply, Read.val_main_v0_apply]
  -- the two broadcasts' composed index is the row coordinate of i
  have hidx : Read.idx_main_v0 (Read.idx_main_v1 i) = ValueIdx.ix1 ⟨(i 0).val, (i 0).isLt⟩ :=
    funext fun a => match a with | ⟨0, _⟩ => rfl
  rw [hidx]
  -- on the extended reals the product commutes
  show (dd (ValueIdx.ix1 ⟨(i 0).val, (i 0).isLt⟩) : EReal) * (x i : EReal)
    = (x i : EReal) * (dd (ValueIdx.ix1 ⟨(i 0).val, (i 0).isLt⟩) : EReal)
  exact mul_comm _ _

end Cert.Proof.RefValue

end
-- ==== Proof.KI.Common.lean ====
/-
  The vocabulary every module of the idealized kernel's run shares: the program as the SparseCore launch theorem
  reads it (one vector-subcore call on 2 SparseCores × 16 tiles), the resource algebra (the handshakes' rounds beside
  the transfers' counters: every transfer of this kernel is local to its tile and waited for by the tile itself),
  and the arrays and scratch buffers as a tile's body addresses them.

  The kernel: tile (c, s) has number w = 2 s + c and owns rows j ∈ [256 w, 256 w + 256) of the re-laid input
  a[i, j, s', l] (i < 8, s' < 8, l < 128); it copies diag[128 · 256 w .. +32768) into its scratch, then moves the 64
  chunks (i, jc) — 32 rows j each — through two scratch buffers, scaling element (t, s', l) of a chunk by
  diag[128 (256 w + 32 jc + t) + l], and writes each chunk to the same place of the output.
-/
import proofs.«218970_g6992206758257_cont_9to1_m_205_14_alg».proof.Defs
import Idealize.ShloMosaic.Lib.SparseCore.Launch
import Idealize.ShloMosaic.Lib.StableHlo.Run
import Idealize.ShloMosaic.Lib.Pipeline.Kit
import Idealize.ShloMosaic.Lib.Tactic
import proofs.«218970_g6992206758257_cont_9to1_m_205_14_alg».proof.Proof.Gen.KernelIdeal
import proofs.«218970_g6992206758257_cont_9to1_m_205_14_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The machine's algebra at this program. -/
abbrev MM (F : FTy → Type) : Type := MT nD τ sig (HIx 1) (Elt F) ℕ UU ℕ

abbrev EH : Emb UH (MM F) := embL

/-! ## Locations and threads -/

/-- The re-laid input `a`, `diag` and the kernel's output `o`, as locations of device `d`. -/
abbrev aLoc (d : Dev nD) : Loc nD τ sig := (SparseCore.T d).loc main_v1
abbrev dLoc (d : Dev nD) : Loc nD τ sig := (SparseCore.T d).loc main_arg1
abbrev oLoc (d : Dev nD) : Loc nD τ sig := (SparseCore.T d).loc main_v2
abbrev xLoc (d : Dev nD) : Loc nD τ sig := (SparseCore.T d).loc main_arg0

/-- The tile at grid coordinates `L` = (SparseCore, vector subcore). -/
abbrev cV (L : grid0.Coords) : Fin τ.nSC := (L 0).castLE hcore0
abbrev jV (L : grid0.Coords) : Fin τ.nSub := (L 1).castLE hsub0
abbrev tileThr (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

/-- The tile's number: it owns rows `256 w ≤ j < 256 w + 256`. -/
def wid (L : grid0.Coords) : ℕ := 2 * (L 1).val + (L 0).val
theorem wid_lt (L : grid0.Coords) : wid L < 32 := by
  have h0 : (L 0).val < 2 := (L 0).isLt
  have h1 : (L 1).val < 16 := (L 1).isLt
  unfold wid; omega

end Cert.Proof.KI

end
-- ==== Proof.KI.Chunk.lean ====
/-
  One chunk's scaling: the 32-trip loop over the rows `t` of a scratch buffer holding a chunk `(32, 8, 128)`, each
  trip multiplying row `t`, all 8 sublanes `s`, lane `l`, by the tile's copy of the diagonal at
  `128 (32 jc + t) + l` — `jc` the chunk's number along the tile's rows.
-/
import proofs.«218970_g6992206758257_cont_9to1_m_205_14_alg».proof.Proof.KI.Common
import Idealize.ShloMosaic.Lib.ValueIdx
import Idealize.ShloMosaic.Lib.Writes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.KernelIdeal.main_v1_scv : Memref Cert.KernelIdeal.sig Kind.scVector Space.hbm Cert.KernelIdeal.S8x8192x8x128 EltTy.f32)
local notation "dW" => (Memref.whole Cert.KernelIdeal.main_arg1_scv : Memref Cert.KernelIdeal.sig Kind.scVector Space.hbm Cert.KernelIdeal.S1048576 EltTy.f32)
local notation "oW" => (Memref.whole Cert.KernelIdeal.main_v2_scv : Memref Cert.KernelIdeal.sig Kind.scVector Space.hbm Cert.KernelIdeal.S8x8192x8x128 EltTy.f32)
local notation "xb0" => (Memref.whole Cert.KernelIdeal.cc0_scratch0 : Memref Cert.KernelIdeal.sig Kind.scVector Space.vmem Cert.KernelIdeal.S32x8x128 EltTy.f32)
local notation "xb1" => (Memref.whole Cert.KernelIdeal.cc0_scratch1 : Memref Cert.KernelIdeal.sig Kind.scVector Space.vmem Cert.KernelIdeal.S32x8x128 EltTy.f32)
local notation "dB" => (Memref.whole Cert.KernelIdeal.cc0_scratch2 : Memref Cert.KernelIdeal.sig Kind.scVector Space.vmem Cert.KernelIdeal.S32768 EltTy.f32)

/-- The chunk `f` with its rows `t' < t` scaled: element `(t', s, l)` by `db[128 (32 jc + t') + l]`. -/
def rowsDone (f : Vec F S32x8x128 .f32) (db : Vec F S32768 .f32) (jc t : ℕ) : Vec F S32x8x128 .f32 :=
  fun y => if (y 0).val < t then
      FloatOps.mulf (f y) (db (ValueIdx.ix1 ⟨(128 * (32 * jc + (y 0).val) + (y 2).val) % 32768, Nat.mod_lt _ (by decide)⟩))
    else f y

theorem rowsDone_zero (f : Vec F S32x8x128 .f32) (db : Vec F S32768 .f32) (jc : ℕ) : rowsDone f db jc 0 = f := by
  funext y; simp [rowsDone]

namespace Chunk

/-- The offset of the diagonal's piece the first buffer's loop loads for lane group `r`, in closed form:
    `128 (32 jc + t) + 16 r` with `jc = 2 k % 8`. -/
theorem k0_off4_closed : ∀ (k : Fin k0_t1_loop.trips) (t : Fin k0_t2_loop.trips) (r : Fin 8),
    k0_off4 k t (BitVec.ofNat 32 (16 * r.val)) = ![128 * (32 * (2 * k.val % 8) + t.val) + 16 * r.val] := by decide +kernel

/-- The same for the second buffer's loop: `jc = 2 k % 8 + 1`. -/
theorem k0_off71_closed : ∀ (k : Fin k0_t1_loop.trips) (t : Fin k0_t3_loop.trips) (r : Fin 8),
    k0_off71 k t (BitVec.ofNat 32 (16 * r.val)) = ![128 * (32 * (2 * k.val % 8 + 1) + t.val) + 16 * r.val] := by decide +kernel

/-- The same offsets over the lane `c = 16 r` itself. -/
theorem k0_off4_c (k : Fin k0_t1_loop.trips) (t : Fin k0_t2_loop.trips) (c : ℕ) (hc : c < 128) (h16 : c % 16 = 0) :
    k0_off4 k t (BitVec.ofNat 32 c) = ![128 * (32 * (2 * k.val % 8) + t.val) + c] := by
  have h := k0_off4_closed k t ⟨c / 16, by omega⟩
  have e : 16 * (c / 16) = c := by omega
  rw [show ((⟨c / 16, by omega⟩ : Fin 8)).val = c / 16 from rfl, e] at h
  exact h

/-- And for the second buffer's loop. -/
theorem k0_off71_c (k : Fin k0_t1_loop.trips) (t : Fin k0_t3_loop.trips) (c : ℕ) (hc : c < 128) (h16 : c % 16 = 0) :
    k0_off71 k t (BitVec.ofNat 32 c) = ![128 * (32 * (2 * k.val % 8 + 1) + t.val) + c] := by
  have h := k0_off71_closed k t ⟨c / 16, by omega⟩
  have e : 16 * (c / 16) = c := by omega
  rw [show ((⟨c / 16, by omega⟩ : Fin 8)).val = c / 16 from rfl, e] at h
  exact h

/-- Such a box lies in the chunk. -/
theorem rowRect_inb (t : ℕ) (ht : t < 32) (i : Fin 64) :
    ∀ a, (![t, (63 - i.val) % 8, 16 * ((63 - i.val) / 8)] : Fin 3 → ℕ) a + S1x1x16.size a ≤ S32x8x128.size a := by
  intro a
  have hi := i.isLt
  fin_cases a
  · show t + 1 ≤ 32; omega
  · show (63 - i.val) % 8 + 1 ≤ 8; omega
  · show 16 * ((63 - i.val) / 8) + 16 ≤ 128; omega

/-- Box number `i` of row `t`, counted from the last: sublane `(63 - i) % 8`, lanes `16 ((63 - i) / 8) .. + 16`. -/
def rowRect (t : ℕ) (ht : t < 32) (i : Fin 64) : Rect S32x8x128 :=
  Rect.unit ![t, (63 - i.val) % 8, 16 * ((63 - i.val) / 8)] S1x1x16.size (rowRect_inb t ht i)

/-- Stores that fill row `t` box by box with one function `G`, which is the old contents off row `t`, leave `G`. -/
theorem read_writes_row {Val : EltTy → Type} {sig : RefSig} {κ : Kind} {sp : Space} (v : View sig κ sp S32x8x128 .f32) (g : v.ty.Contents Val)
    (G : S32x8x128.Idx → Val .f32) (t : ℕ) (ht : t < 32) (L : List (View.Piece Val S32x8x128 .f32))
    (hmap : L.map Sigma.fst = (List.finRange 64).map (rowRect t ht))
    (hG : ∀ p ∈ L, ∀ x, p.2 x = G (p.1.emb x))
    (hout : ∀ y : S32x8x128.Idx, (y 0).val ≠ t → G y = v.read Val g y) :
    v.read Val (v.writes Val g L) = G := by
  funext y
  by_cases hy : (y 0).val = t
  · have h1 : (y 1).val < 8 := (y 1).isLt
    have h2 : (y 2).val < 128 := (y 2).isLt
    have hi : rowRect t ht ⟨63 - (8 * ((y 2).val / 16) + (y 1).val), by omega⟩ ∈ L.map Sigma.fst := by
      rw [hmap]; exact List.mem_map_of_mem (List.mem_finRange _)
    obtain ⟨p, hp, hpi⟩ := List.mem_map.mp hi
    refine View.read_writes_apply_of_pieces v g G L hG y ⟨p, hp, ?_⟩
    rw [hpi]; unfold rowRect; rw [Rect.mem_set_unit]
    intro a
    fin_cases a
    · show t ≤ (y 0).val ∧ (y 0).val < t + 1; omega
    · show (63 - (63 - (8 * ((y 2).val / 16) + (y 1).val))) % 8 ≤ (y 1).val ∧ (y 1).val < (63 - (63 - (8 * ((y 2).val / 16) + (y 1).val))) % 8 + 1; omega
    · show 16 * ((63 - (63 - (8 * ((y 2).val / 16) + (y 1).val))) / 8) ≤ (y 2).val ∧ (y 2).val < 16 * ((63 - (63 - (8 * ((y 2).val / 16) + (y 1).val))) / 8) + 16; omega
  · rw [View.read_writes_apply_of_forall_not_mem v g y L ?_, hout y hy]
    intro p hp hmem
    have hm : p.1 ∈ L.map Sigma.fst := List.mem_map_of_mem hp
    rw [hmap] at hm
    obtain ⟨i, -, hi⟩ := List.mem_map.mp hm
    rw [← hi] at hmem; unfold rowRect at hmem; rw [Rect.mem_set_unit] at hmem
    have h0 := hmem 0
    have h0' : t ≤ (y 0).val ∧ (y 0).val < t + 1 := h0
    omega

/-- A rank-1 index of the diagonal's copy from its position. -/
abbrev dIx (n : ℕ) : S32768.Idx := ValueIdx.ix1 ⟨n % 32768, Nat.mod_lt _ (by decide)⟩

/-- One stored value at an index: the loaded sublane piece times the loaded diagonal piece, lane by lane
    (the casts between `16` and `1 × 1 × 16` keep the lane). -/
theorem pay_apply (a : S1x1x16.Idx → F .f32) (b : S16.Idx → F .f32) (h1 : S1x1x16.ShapeCasts S16) (h2 : S16.ShapeCasts S1x1x16)
    (h3 : S16.ShapeCasts S16) (x : S1x1x16.Idx) :
    shapeCast S1x1x16 (mulf (shapeCast S16 a h1) (shapeCast S16 b h3)) h2 x
      = FloatOps.mulf (a x) (b (ValueIdx.ix1 (n := 16) (x 2))) := by
  have x0 : (x 0).val < 1 := (x 0).isLt
  have x1 : (x 1).val < 1 := (x 1).isLt
  have e : ∀ c : S16.Idx → F .f32, shapeCast S1x1x16 c h2 x = c (ValueIdx.ix1 (n := 16) (x 2)) := fun c =>
    shapeCast_apply c h2 x _ (by
      rw [Shape.rowMajor_val_one, Shape.rowMajor_val_three]
      show (x 2).val = ((x 0).val * 1 + (x 1).val) * 16 + (x 2).val
      omega)
  rw [e]
  show FloatOps.mulf (shapeCast S16 a h1 _) (shapeCast S16 b h3 _) = _
  rw [shapeCast_self, shapeCast_apply a h1 _ x (by
      rw [Shape.rowMajor_val_one, Shape.rowMajor_val_three]
      show ((x 0).val * 1 + (x 1).val) * 16 + (x 2).val = (x 2).val
      omega)]

/-- The value a trip stores at one box of row `t` — sublane `s`, lanes `c .. c + 16` — is the scaled row there: the box's old
    contents (row `t` not yet scaled) times the diagonal's copy at `128 (32 jc + t) + c ..`. -/
theorem piece_ok {sig : RefSig} {κ κd : Kind} {sp spd : Space} (v : View sig κ sp S32x8x128 .f32) (g0 : v.ty.Contents (Elt F))
    (vd : View sig κd spd S32768 .f32) (d0 : vd.ty.Contents (Elt F))
    (f : Vec F S32x8x128 .f32) (db : Vec F S32768 .f32) (jc t s c : ℕ) (hjc : jc < 8) (ht : t < 32) (hc : c + 16 ≤ 128)
    (hread : v.read (Elt F) g0 = rowsDone f db jc t) (hdread : vd.read (Elt F) d0 = db)
    (off : Fin 3 → ℕ) (inb₀ : ∀ a, off a + S1x1x16.size a ≤ S32x8x128.size a) (hoff : off = ![t, s, c])
    (offd : Fin 1 → ℕ) (inbd : ∀ a, offd a + S16.size a ≤ S32768.size a) (hoffd : offd = ![128 * (32 * jc + t) + c])
    (h1 : S1x1x16.ShapeCasts S16) (h2 : S16.ShapeCasts S1x1x16) (h3 : S16.ShapeCasts S16)
    (x : S1x1x16.Idx) :
    shapeCast S1x1x16 (mulf (shapeCast S16 (View.readAt (Elt F) v (Rect.unit (s := S32x8x128) off S1x1x16.size inb₀).toLoadRect g0 : Vec F S1x1x16 .f32) h1 : FVec F S16 .f32)
        (shapeCast S16 (View.readAt (Elt F) vd (Rect.unit (s := S32768) offd S16.size inbd).toLoadRect d0 : Vec F S16 .f32) h3 : FVec F S16 .f32)) h2 x
      = rowsDone f db jc (t + 1) ((Rect.unit (s := S32x8x128) ![t, s, c] S1x1x16.size (fun a => hoff ▸ inb₀ a)).emb x) := by
  subst hoff hoffd
  have inb : ∀ a, (![t, s, c] : Fin 3 → ℕ) a + S1x1x16.size a ≤ S32x8x128.size a := inb₀
  show _ = rowsDone f db jc (t + 1) ((Rect.unit (s := S32x8x128) ![t, s, c] S1x1x16.size inb).emb x)
  rw [pay_apply]
  have x0 : (x 0).val < 1 := (x 0).isLt
  have x2 : (x 2).val < 16 := (x 2).isLt
  rw [View.readAt_apply, View.readAt_apply, hread, hdread]
  have y0 : (((Rect.unit (s := S32x8x128) ![t, s, c] S1x1x16.size inb).emb x) 0).val = t := by
    rw [Rect.emb_apply]; show t + 1 * (x 0).val = t; omega
  have y2 : (((Rect.unit (s := S32x8x128) ![t, s, c] S1x1x16.size inb).emb x) 2).val = c + (x 2).val := by
    rw [Rect.emb_apply]; show c + 1 * (x 2).val = _; omega
  have e : (Rect.unit (s := S32x8x128) ![t, s, c] S1x1x16.size inb₀).toLoadRect.idx x = (Rect.unit (s := S32x8x128) ![t, s, c] S1x1x16.size inb).emb x := rfl
  rw [e]
  unfold rowsDone
  rw [if_neg (by omega), if_pos (by omega)]
  congr 1
  refine congrArg db ?_
  funext a
  refine Fin.ext ?_
  fin_cases a
  show 128 * (32 * jc + t) + c + 1 * (x 2).val = (128 * (32 * jc + (((Rect.unit (s := S32x8x128) ![t, s, c] S1x1x16.size inb).emb x) 0).val) + (((Rect.unit (s := S32x8x128) ![t, s, c] S1x1x16.size inb).emb x) 2).val) % 32768
  rw [y0, y2]
  omega

/-- Off row `t` the chunk with `t + 1` rows scaled is the chunk with `t` rows scaled. -/
theorem rowsDone_succ_of_ne (f : Vec F S32x8x128 .f32) (db : Vec F S32768 .f32) (jc t : ℕ) (y : S32x8x128.Idx) (hy : (y 0).val ≠ t) :
    rowsDone f db jc (t + 1) y = rowsDone f db jc t y := by
  unfold rowsDone
  by_cases h : (y 0).val < t
  · rw [if_pos h, if_pos (by omega)]
  · rw [if_neg h, if_neg (by omega)]

end Chunk

open Chunk

/-- What the first buffer's loop holds before trip `n`: the chunk with `n` rows scaled, the diagonal's copy. -/
def invC0 (d : Dev nD) (L : grid0.Coords) (f : Vec F S32x8x128 .f32) (db : Vec F S32768 .f32) (jc : ℕ) (n : ℕ) (_ : PUnit) : sProp (MM F) :=
  iprop(((xb0).view.loc (tileThr d L) ↦{fullShare} rowsDone f db jc n) ∗ ((dB).view.loc (tileThr d L) ↦{fullShare} db))

/-- The same for the second buffer. -/
def invC1 (d : Dev nD) (L : grid0.Coords) (f : Vec F S32x8x128 .f32) (db : Vec F S32768 .f32) (jc : ℕ) (n : ℕ) (_ : PUnit) : sProp (MM F) :=
  iprop(((xb1).view.loc (tileThr d L) ↦{fullShare} rowsDone f db jc n) ∗ ((dB).view.loc (tileThr d L) ↦{fullShare} db))

set_option sl_exec.closedPieces true in
set_option maxHeartbeats 4000000 in
/-- Trip `t` of the first buffer's loop, in pair `k` of the outer loop (the chunk is number `2 k`: `jc = 2 k % 8`). -/
theorem chunk0_trip (d : Dev nD) (L : grid0.Coords) (f : Vec F S32x8x128 .f32) (db : Vec F S32768 .f32)
    (s3 s4 s5 s6 s0 : DmaSems sig S_) (v2 : BitVec 32) (k : Fin k0_t1_loop.trips) (v18 v28 v36 v37 : BitVec 32) (v51 : BitVec 1)
    (t : Fin k0_t2_loop.trips) (acc : PUnit) :
    invC0 d L f db ((2 * k.val) % 8) t.val acc
      ⊢ wp frame (wpE (defs₀ (F := F)) 𝒱₀ (tileThr d L) none) Set.univ
          (k0_t2_body L aW (Memref.isWhole_whole _) dW (Memref.isWhole_whole _) oW (Memref.isWhole_whole _)
            xb0 (Memref.isWhole_whole _) xb1 (Memref.isWhole_whole _) dB (Memref.isWhole_whole _)
            s3 s4 s5 s6 s0 v2 k v18 v28 v36 v37 v51 t acc)
          (invC0 d L f db ((2 * k.val) % 8) (t.val + 1)) := by
  unfold invC0
  unfold k0_t2_body
  iintro ⟨Hx, Hd⟩
  sl_exec
  sl_step
  isplitl [Hx]
  · istop
    refine Entails.of_eq (congrArg _ ?_)
    have ht : t.val < 32 := Nat.lt_of_lt_of_le t.isLt k0_t2_abs.2.1
    have hk : 2 * k.val % 8 < 8 := Nat.mod_lt _ (by decide)
    have key := read_writes_row (Val := Elt F) (Memref.whole cc0_scratch0).view (rowsDone f db (2 * k.val % 8) t.val)
      (rowsDone f db (2 * k.val % 8) (t.val + 1)) t.val ht
    refine Eq.trans (View.read_whole (Val := Elt F) cc0_scratch0 _).symm ?_
    refine key _ ?_ ?_ ?_
    · rfl
    · repeat' (first | (refine List.forall_mem_cons.2 ⟨?_, ?_⟩) | (exact fun _ h => absurd h List.not_mem_nil))
      all_goals (intro x; exact piece_ok (Memref.whole cc0_scratch0).view _ (Memref.whole cc0_scratch2).view _ f db _ _ _ _ hk ht (by decide) (by rfl) (by rfl) _ _ (by exact ClosedOff.eq) _ _ (by exact k0_off4_c k t _ (by decide) (by decide)) _ _ _ x)
    · intro y hy
      exact rowsDone_succ_of_ne f db _ _ y hy
  · iexact Hd

set_option sl_exec.closedPieces true in
set_option maxHeartbeats 4000000 in
/-- Trip `t` of the second buffer's loop, in pair `k` (the chunk is number `2 k + 1`: `jc = 2 k % 8 + 1`). -/
theorem chunk1_trip (d : Dev nD) (L : grid0.Coords) (f : Vec F S32x8x128 .f32) (db : Vec F S32768 .f32)
    (s3 s4 s5 s6 s0 : DmaSems sig S_) (v2 : BitVec 32) (k : Fin k0_t1_loop.trips) (arg12 v18 v28 v71 : BitVec 32) (v85 : BitVec 1) (v86 v111 : BitVec 32)
    (t : Fin k0_t3_loop.trips) (acc : PUnit) :
    invC1 d L f db ((2 * k.val) % 8 + 1) t.val acc
      ⊢ wp frame (wpE (defs₀ (F := F)) 𝒱₀ (tileThr d L) none) Set.univ
          (k0_t3_body L aW (Memref.isWhole_whole _) dW (Memref.isWhole_whole _) oW (Memref.isWhole_whole _)
            xb0 (Memref.isWhole_whole _) xb1 (Memref.isWhole_whole _) dB (Memref.isWhole_whole _)
            s3 s4 s5 s6 s0 v2 k arg12 v18 v28 v71 v85 v86 v111 t acc)
          (invC1 d L f db ((2 * k.val) % 8 + 1) (t.val + 1)) := by
  unfold invC1
  unfold k0_t3_body
  iintro ⟨Hx, Hd⟩
  sl_exec
  sl_step
  isplitl [Hx]
  · istop
    refine Entails.of_eq (congrArg _ ?_)
    have ht : t.val < 32 := Nat.lt_of_lt_of_le t.isLt k0_t3_abs.2.1
    have hk : 2 * k.val % 8 + 1 < 8 := by omega
    have key := read_writes_row (Val := Elt F) (Memref.whole cc0_scratch1).view (rowsDone f db (2 * k.val % 8 + 1) t.val)
      (rowsDone f db (2 * k.val % 8 + 1) (t.val + 1)) t.val ht
    refine Eq.trans (View.read_whole (Val := Elt F) cc0_scratch1 _).symm ?_
    refine key _ ?_ ?_ ?_
    · rfl
    · repeat' (first | (refine List.forall_mem_cons.2 ⟨?_, ?_⟩) | (exact fun _ h => absurd h List.not_mem_nil))
      all_goals (intro x; exact piece_ok (Memref.whole cc0_scratch1).view _ (Memref.whole cc0_scratch2).view _ f db _ _ _ _ hk ht (by decide) (by rfl) (by rfl) _ _ (by exact ClosedOff.eq) _ _ (by exact k0_off71_c k t _ (by decide) (by decide)) _ _ _ x)
    · intro y hy
      exact rowsDone_succ_of_ne f db _ _ y hy
  · iexact Hd

end Cert.Proof.KI

end
-- ==== Proof.KI.Chunks.lean ====
/-
  The geometry of a tile's chunks. Tile `L` (number `w = wid L`) owns rows `256 w ≤ j < 256 w + 256` of the arrays
  `[8, 8192, 8, 128]`. Its chunk `n < 64` is plane `i = n / 8`, rows `j = 256 w + 32 (n % 8) + t`, `t < 32`, all
  sublanes and lanes: the box at offsets `(n / 8, 256 w + 32 (n % 8), 0, 0)` of sizes `(1, 32, 8, 128)`, squeezed to
  `(32, 8, 128)`. The 64 chunks tile the tile's rows. The tile's piece of the diagonal is the words
  `[32768 w, 32768 w + 32768)`, so that scratch word `128 (32 jc + t) + l` is `diag[128 (256 w + 32 jc + t) + l]`.
-/
import proofs.«218970_g6992206758257_cont_9to1_m_205_14_alg».proof.Proof.KI.Chunk
import proofs.«218970_g6992206758257_cont_9to1_m_205_14_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.KernelIdeal.main_v1_scv : Memref Cert.KernelIdeal.sig Kind.scVector Space.hbm Cert.KernelIdeal.S8x8192x8x128 EltTy.f32)
local notation "dW" => (Memref.whole Cert.KernelIdeal.main_arg1_scv : Memref Cert.KernelIdeal.sig Kind.scVector Space.hbm Cert.KernelIdeal.S1048576 EltTy.f32)
local notation "oW" => (Memref.whole Cert.KernelIdeal.main_v2_scv : Memref Cert.KernelIdeal.sig Kind.scVector Space.hbm Cert.KernelIdeal.S8x8192x8x128 EltTy.f32)
local notation "xb0" => (Memref.whole Cert.KernelIdeal.cc0_scratch0 : Memref Cert.KernelIdeal.sig Kind.scVector Space.vmem Cert.KernelIdeal.S32x8x128 EltTy.f32)
local notation "xb1" => (Memref.whole Cert.KernelIdeal.cc0_scratch1 : Memref Cert.KernelIdeal.sig Kind.scVector Space.vmem Cert.KernelIdeal.S32x8x128 EltTy.f32)
local notation "dB" => (Memref.whole Cert.KernelIdeal.cc0_scratch2 : Memref Cert.KernelIdeal.sig Kind.scVector Space.vmem Cert.KernelIdeal.S32768 EltTy.f32)

/-- Offsets of chunk `n` of tile `L` (total in `n`: read at `n % 64`). -/
def chunkOff (L : grid0.Coords) (n : ℕ) : Fin 4 → ℕ := ![(n % 64) / 8, 256 * wid L + 32 * (n % 8), 0, 0]

theorem chunkOff_inb (L : grid0.Coords) (n : ℕ) : ∀ a, chunkOff L n a + S1x32x8x128.size a ≤ S8x8192x8x128.size a := by
  have hw := wid_lt L
  intro a
  fin_cases a <;> simp [chunkOff] <;> omega

/-- A box `(1, 32, 8, 128)` of an array at given offsets, squeezed, as the kernel slices it. -/
abbrev sl4 (M : Memref sig Kind.scVector Space.hbm S8x8192x8x128 EltTy.f32) (off : Fin 4 → ℕ)
    (h : ∀ a, off a + S1x32x8x128.size a ≤ S8x8192x8x128.size a) : Memref sig Kind.scVector Space.hbm S32x8x128 EltTy.f32 :=
  (M.slice (Rect.unit (s := S8x8192x8x128) off S1x32x8x128.size h) (fun _ => rfl)).squeeze S32x8x128 squeezes_S1x32x8x128_S32x8x128

/-- Chunk `n` of tile `L` of the array `M`. -/
abbrev chunkOf (M : Memref sig Kind.scVector Space.hbm S8x8192x8x128 EltTy.f32) (L : grid0.Coords) (n : ℕ) :
    Memref sig Kind.scVector Space.hbm S32x8x128 EltTy.f32 := sl4 M (chunkOff L n) (chunkOff_inb L n)

/-! ## The program's own slices are these chunks -/

theorem sl4_congr (M : Memref sig Kind.scVector Space.hbm S8x8192x8x128 EltTy.f32) {off off' : Fin 4 → ℕ} (e : off = off')
    (h : ∀ a, off a + S1x32x8x128.size a ≤ S8x8192x8x128.size a) (h' : ∀ a, off' a + S1x32x8x128.size a ≤ S8x8192x8x128.size a) :
    sl4 M off h = sl4 M off' h' := by subst e; rfl

/-- The second guard of a pair's trip: every pair but the last prefetches the chunk after next. -/
-- the guard and the four offset chains, evaluated at every tile and every trip (finitely many closed instances)
theorem cond2_all : ∀ k : Fin k0_t1_loop.trips, k0_cond2 k = 1#1 ↔ k.val < 31 := by decide +kernel
theorem off2_all : ∀ L : grid0.Coords, k0_off2 L = chunkOff L 0 := by decide +kernel
theorem off3_all : ∀ (L : grid0.Coords) (k : Fin k0_t1_loop.trips), k0_off3 L k = chunkOff L (2 * k.val + 1) := by decide +kernel
theorem off69_all : ∀ (L : grid0.Coords) (k : Fin k0_t1_loop.trips), k0_off69 L k = chunkOff L (2 * k.val) := by decide +kernel
theorem off70_all : ∀ (L : grid0.Coords) (k : Fin k0_t1_loop.trips), k.val < 31 → k0_off70 L k = chunkOff L (2 * k.val + 2) := by
  decide +kernel

theorem cond2_iff (k : Fin k0_t1_loop.trips) : k0_cond2 k = 1#1 ↔ k.val < 31 := cond2_all k

theorem off2_eq (L : grid0.Coords) : k0_off2 L = chunkOff L 0 := off2_all L
theorem off3_eq (L : grid0.Coords) (k : Fin k0_t1_loop.trips) : k0_off3 L k = chunkOff L (2 * k.val + 1) := off3_all L k
theorem off69_eq (L : grid0.Coords) (k : Fin k0_t1_loop.trips) : k0_off69 L k = chunkOff L (2 * k.val) := off69_all L k
theorem off70_eq (L : grid0.Coords) (k : Fin k0_t1_loop.trips) (hk : k.val < 31) : k0_off70 L k = chunkOff L (2 * k.val + 2) :=
  off70_all L k hk

/-! ## The tile's rows as 64 chunks -/

/-- The box of chunk `n` of tile `L`. -/
abbrev chunkRect (L : grid0.Coords) (n : ℕ) : Rect S8x8192x8x128 :=
  Rect.unit (s := S8x8192x8x128) (chunkOff L n) S1x32x8x128.size (chunkOff_inb L n)

/-- The elements of a chunk's slice are its box's. -/
theorem set_chunkOf (L : grid0.Coords) (n : ℕ) : (chunkOf oW L n).view.set = (chunkRect L n).set := by
  show (((oW).view.slice (chunkRect L n)).reshape S32x8x128 squeezes_S1x32x8x128_S32x8x128.numel_eq).set = _
  rw [View.set_reshape, View.set_slice]; exact Finset.map_refl

/-- An index is in chunk `n`'s box when its plane is `n / 8` and its row is among the chunk's 32. -/
theorem mem_chunkRect (L : grid0.Coords) (n : ℕ) (i : S8x8192x8x128.Idx) :
    i ∈ (chunkRect L n).set ↔ (i 0).val = (n % 64) / 8 ∧ 256 * wid L + 32 * (n % 8) ≤ (i 1).val ∧ (i 1).val < 256 * wid L + 32 * (n % 8) + 32 := by
  rw [Rect.mem_set_unit]
  have h2 : (i 2).val < 8 := (i 2).isLt
  have h3 : (i 3).val < 128 := (i 3).isLt
  constructor
  · intro h
    have h0 := h 0
    have h1 := h 1
    simp [chunkOff] at h0 h1
    omega
  · rintro ⟨e0, e1, e1'⟩ a
    fin_cases a <;> simp [chunkOff] <;> omega

/-- Rows `256 w ≤ j < 256 w + 256` of an array `[8, 8192, 8, 128]`. -/
def slabSet (w : ℕ) : Finset S8x8192x8x128.Idx := Finset.univ.filter fun i => 256 * w ≤ (i 1).val ∧ (i 1).val < 256 * w + 256

/-- Two different chunks of a tile differ in the plane or in the rows: their boxes are disjoint. -/
theorem chunks_disjoint (L : grid0.Coords) : ∀ n ∈ Finset.range 64, ∀ n' ∈ Finset.range 64, n ≠ n' →
    Disjoint (chunkRect L n).set (chunkRect L n').set := by
  intro n hn n' hn' hne
  rw [Finset.mem_range] at hn hn'
  rw [Finset.disjoint_left]
  intro i hi hi'
  rw [mem_chunkRect] at hi hi'
  omega

/-- The 64 boxes cover the tile's rows: row `j` of plane `i` is in chunk `8 i + (j - 256 w) / 32`. -/
theorem chunks_cover (L : grid0.Coords) : (Finset.range 64).biUnion (fun n => (chunkRect L n).set) = slabSet (wid L) := by
  ext i
  have h0 : (i 0).val < 8 := (i 0).isLt
  simp only [Finset.mem_biUnion, Finset.mem_range, mem_chunkRect, slabSet, Finset.mem_filter, Finset.mem_univ, true_and]
  constructor
  · rintro ⟨n, hn, e0, e1, e1'⟩
    omega
  · rintro ⟨hlo, hhi⟩
    refine ⟨8 * (i 0).val + ((i 1).val - 256 * wid L) / 32, ?_, ?_, ?_, ?_⟩ <;> omega

/-- A chunk's slice of the output, held by its elements, is the array held on the chunk's box. -/
theorem pts_chunkOf (d : Dev nD) (L : grid0.Coords) (n : ℕ) (f : Buf (Elt F) (oLoc d)) :
    ((chunkOf oW L n).view.loc (tileThr d L) ↦[(chunkOf oW L n).view.set]{fullShare} f : sProp (MM F))
      = (oLoc d ↦[(chunkRect L n).set]{fullShare} f) := by
  rw [set_chunkOf]

/-- The tile's rows of the output, held at the full share, are its 64 chunks, each held by its own slice's elements. -/
theorem oSlab_chunks (d : Dev nD) (L : grid0.Coords) (f : Buf (Elt F) (oLoc d)) :
    (oLoc d ↦[slabSet (wid L)]{fullShare} f : sProp (MM F))
      ⊣⊢ bigSep (Finset.range 64) fun n => ((chunkOf oW L n).view.loc (tileThr d L) ↦[(chunkOf oW L n).view.set]{fullShare} f) := by
  refine BiEntails.of_eq ?_
  rw [← chunks_cover L, pointsTo_biUnion (Finset.range 64) (ℓ := oLoc d) (fun n => (chunkRect L n).set) (chunks_disjoint L)]
  exact bigSep_congr fun n _ => (pts_chunkOf d L n f).symm

/-- Chunks that hold (anything that agrees on them with) one array function join to the tile's rows at that function. -/
theorem oChunk_congr (d : Dev nD) (L : grid0.Coords) (n : ℕ) (f g : Buf (Elt F) (oLoc d))
    (h : ∀ i ∈ (chunkOf oW L n).view.set, f i = g i) :
    ((chunkOf oW L n).view.loc (tileThr d L) ↦[(chunkOf oW L n).view.set]{fullShare} f : sProp (MM F))
      ⊢ ((chunkOf oW L n).view.loc (tileThr d L) ↦[(chunkOf oW L n).view.set]{fullShare} g) :=
  Entails.of_eq (pointsTo_congr h)

/-! ## What a chunk holds -/

/-- The tile's piece of the diagonal, as the kernel slices it. -/
abbrev dSlice (L : grid0.Coords) : Memref sig Kind.scVector Space.hbm S32768 EltTy.f32 :=
  (dW).slice (Rect.unit (s := S1048576) (k0_off1 L) S32768.size (k0_off1_inb L)) (fun _ => rfl)

/-- Dropping the leading axis of size one: the index of `(1, 32, 8, 128)` matched with `y` is `y` behind `0`. -/
theorem sq_cons (y : S32x8x128.Idx) :
    (Shape.reshapeEquiv squeezes_S1x32x8x128_S32x8x128.numel_eq y : S1x32x8x128.Idx) = Fin.cons ⟨0, Nat.one_pos⟩ y :=
  Shape.reshapeEquiv_cons_one (n := 3) (d := ![32, 8, 128]) _ y

/-- Element `(t, s, l)` of a squeezed box at offsets `off` sits at `(off 0, off 1 + t, off 2 + s, off 3 + l)`. -/
theorem box_emb_val (off : Fin 4 → ℕ) (h : ∀ a, off a + S1x32x8x128.size a ≤ S8x8192x8x128.size a) (y : S32x8x128.Idx) :
    let i : S8x8192x8x128.Idx := (Rect.unit (s := S8x8192x8x128) off S1x32x8x128.size h).emb
      (Shape.reshapeEquiv squeezes_S1x32x8x128_S32x8x128.numel_eq y)
    (i 0).val = off 0 ∧ (i 1).val = off 1 + (y 0).val ∧ (i 2).val = off 2 + (y 1).val ∧ (i 3).val = off 3 + (y 2).val := by
  intro i
  have e := sq_cons y
  refine ⟨?_, ?_, ?_, ?_⟩
  · show off 0 + 1 * ((Shape.reshapeEquiv squeezes_S1x32x8x128_S32x8x128.numel_eq y : S1x32x8x128.Idx) 0).val = _
    rw [e]; simp; rfl
  · show off 1 + 1 * ((Shape.reshapeEquiv squeezes_S1x32x8x128_S32x8x128.numel_eq y : S1x32x8x128.Idx) 1).val = _
    rw [e]; simp; rfl
  · show off 2 + 1 * ((Shape.reshapeEquiv squeezes_S1x32x8x128_S32x8x128.numel_eq y : S1x32x8x128.Idx) 2).val = _
    rw [e]; simp; rfl
  · show off 3 + 1 * ((Shape.reshapeEquiv squeezes_S1x32x8x128_S32x8x128.numel_eq y : S1x32x8x128.Idx) 3).val = _
    rw [e]; simp; rfl

/-- Element `(t, s, l)` of chunk `n` of the input, scaled by the tile's piece of the diagonal at word
    `128 (32 (n % 8) + t) + l`, is the kernel's array function at the element's place `(n / 8, 256 w + 32 (n % 8) + t, s, l)`:
    the tile's piece starts at word `32768 w`, and `128 (256 w + 32 (n % 8) + t) + l = 32768 w + 128 (32 (n % 8) + t) + l`. -/
theorem chunk_at (d : Dev nD) (L : grid0.Coords) (n : ℕ) (A : Buf (Elt F) (aLoc d)) (DD : Buf (Elt F) (dLoc d)) (y : S32x8x128.Idx) :
    rowsDone ((chunkOf aW L n).view.read (Elt F) A) ((dSlice L).view.read (Elt F) DD) (n % 8) 32 y
      = (Cert.Proof.Spec.Gk (F := F) A DD : Buf (Elt F) (oLoc d)) ((chunkOf oW L n).view.emb y) := by
  have h0 : (y 0).val < 32 := (y 0).isLt
  have h2 : (y 2).val < 128 := (y 2).isLt
  have hL0 : (L 0).val < 2 := (L 0).isLt
  have hL1 : (L 1).val < 16 := (L 1).isLt
  obtain ⟨-, e1, -, e3⟩ := box_emb_val (chunkOff L n) (chunkOff_inb L n) y
  have e1' : ((chunkOf oW L n).view.emb y 1).val = chunkOff L n 1 + (y 0).val := e1
  have e3' : ((chunkOf oW L n).view.emb y 3).val = chunkOff L n 3 + (y 2).val := e3
  unfold rowsDone
  rw [if_pos h0, View.read_apply, View.read_apply, cast_eq, cast_eq]
  show FloatOps.mulf (A ((chunkOf oW L n).view.emb y)) (DD _) = FloatOps.mulf (A ((chunkOf oW L n).view.emb y)) (DD _)
  congr 2
  funext a
  match a with
  | ⟨0, _⟩ =>
    apply Fin.ext
    show k0_off1 L 0 + 1 * ((128 * (32 * (n % 8) + (y 0).val) + (y 2).val) % 32768)
      = (128 * ((chunkOf oW L n).view.emb y 1).val + ((chunkOf oW L n).view.emb y 3).val) % 1048576
    rw [e1', e3', k0_off1_eq]
    simp [chunkOff, wid]
    omega

/-- Reading the kernel's array function through chunk `n`'s view is chunk `n` of the input scaled by the tile's piece
    of the diagonal. -/
theorem chunk_read (d : Dev nD) (L : grid0.Coords) (n : ℕ) (hn : n < 64) (A : Buf (Elt F) (aLoc d)) (DD : Buf (Elt F) (dLoc d)) :
    (chunkOf oW L n).view.read (Elt F) (Cert.Proof.Spec.Gk (F := F) A DD : Buf (Elt F) (oLoc d))
      = rowsDone ((chunkOf aW L n).view.read (Elt F) A) ((dSlice L).view.read (Elt F) DD) (n % 8) 32 := by
  funext y
  rw [View.read_apply, cast_eq]
  exact (chunk_at d L n A DD y).symm

/-- Chunk `n` of the input, scaled by the tile's piece of the diagonal and written over chunk `n` of the output,
    is the kernel's array function there. -/
theorem chunk_value (d : Dev nD) (L : grid0.Coords) (n : ℕ) (hn : n < 64) (A : Buf (Elt F) (aLoc d)) (DD : Buf (Elt F) (dLoc d))
    (O0 : Buf (Elt F) (oLoc d)) :
    ∀ i ∈ (chunkOf oW L n).view.set,
      View.write (Elt F) (chunkOf oW L n).view O0
          (rowsDone ((chunkOf aW L n).view.read (Elt F) A) ((dSlice L).view.read (Elt F) DD) (n % 8) 32) Finset.univ i
        = (Cert.Proof.Spec.Gk (F := F) A DD : Buf (Elt F) (oLoc d)) i := by
  intro i hi
  obtain ⟨y, -, rfl⟩ := Finset.mem_map.mp hi
  rw [View.write_emb_of_mem _ _ (Finset.mem_univ y)]
  exact (cast_eq _ _).trans (chunk_at d L n A DD y)

end Cert.Proof.KI

end
-- ==== Proof.KI.BodyDefs.lean ====
/-
  The vocabulary of one tile's task: what the scratch buffers and the output's chunks hold at each moment, and the
  copies in flight. Chunk `n` of the input is `aChunk n`; scaled it is `sChunk n`; a copy of chunk `n` into a buffer
  delivers the buffer at `aChunk n` and the lent elements of `a`; a copy of a buffer holding `sChunk n` over chunk `n`
  of the output delivers that chunk at the kernel's array function and the buffer back.
-/
import proofs.«218970_g6992206758257_cont_9to1_m_205_14_alg».proof.Proof.KI.Chunks
import Idealize.ShloMosaic.Lib.Exec.Context

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.KernelIdeal.main_v1_scv : Memref Cert.KernelIdeal.sig Kind.scVector Space.hbm Cert.KernelIdeal.S8x8192x8x128 EltTy.f32)
local notation "dW" => (Memref.whole Cert.KernelIdeal.main_arg1_scv : Memref Cert.KernelIdeal.sig Kind.scVector Space.hbm Cert.KernelIdeal.S1048576 EltTy.f32)
local notation "oW" => (Memref.whole Cert.KernelIdeal.main_v2_scv : Memref Cert.KernelIdeal.sig Kind.scVector Space.hbm Cert.KernelIdeal.S8x8192x8x128 EltTy.f32)
local notation "xb0" => (Memref.whole Cert.KernelIdeal.cc0_scratch0 : Memref Cert.KernelIdeal.sig Kind.scVector Space.vmem Cert.KernelIdeal.S32x8x128 EltTy.f32)
local notation "xb1" => (Memref.whole Cert.KernelIdeal.cc0_scratch1 : Memref Cert.KernelIdeal.sig Kind.scVector Space.vmem Cert.KernelIdeal.S32x8x128 EltTy.f32)
local notation "dB" => (Memref.whole Cert.KernelIdeal.cc0_scratch2 : Memref Cert.KernelIdeal.sig Kind.scVector Space.vmem Cert.KernelIdeal.S32768 EltTy.f32)

section Defs

variable (d : Dev nD) (L : grid0.Coords) (q : PosShare TreeShare) (A : Buf (Elt F) (aLoc d)) (DD : Buf (Elt F) (dLoc d))
  (O0 : Buf (Elt F) (oLoc d))

/-- The tile's copy of its piece of the diagonal. -/
abbrev dbOf : Vec F S32768 .f32 := (dSlice L).view.read (Elt F) DD
/-- Chunk `n` of the input. -/
abbrev aChunk (n : ℕ) : Vec F S32x8x128 .f32 := (chunkOf aW L n).view.read (Elt F) A
/-- Chunk `n` scaled. -/
abbrev sChunk (n : ℕ) : Vec F S32x8x128 .f32 := rowsDone (aChunk d L A n) (dbOf d L DD) (n % 8) 32

/-- The kernel's array function, as contents of the output. -/
abbrev GkO : Buf (Elt F) (oLoc d) := (Cert.Proof.Spec.Gk (F := F) A DD : Buf (Elt F) (oLoc d))

/-- Chunk `n` of the output, not yet written / written. -/
def oTodo (n : ℕ) : sProp (MM F) := (chunkOf oW L n).view.loc (tileThr d L) ↦[(chunkOf oW L n).view.set]{fullShare} O0
def oDone (n : ℕ) : sProp (MM F) := (chunkOf oW L n).view.loc (tileThr d L) ↦[(chunkOf oW L n).view.set]{fullShare} GkO d A DD

/-- What a copy of chunk `n` of the input into the first (second) buffer delivers. -/
def ldDel0 (n : ℕ) : sProp (MM F) :=
  iprop(((xb0).view.loc (tileThr d L) ↦{fullShare} aChunk d L A n) ∗ ((aW).view.loc (tileThr d L) ↦[(chunkOf aW L n).view.set]{q} A))
def ldDel1 (n : ℕ) : sProp (MM F) :=
  iprop(((xb1).view.loc (tileThr d L) ↦{fullShare} aChunk d L A n) ∗ ((aW).view.loc (tileThr d L) ↦[(chunkOf aW L n).view.set]{q} A))
/-- The input but chunk `n`'s elements (lent to a copy in flight). -/
def aRest (n : ℕ) : sProp (MM F) := (aW).view.loc (tileThr d L) ↦[Finset.univ \ (chunkOf aW L n).view.set]{q} A

/-- What a copy of the first (second) buffer, holding chunk `n` scaled, over chunk `n` of the output delivers. -/
def stDel0 (n : ℕ) : sProp (MM F) :=
  iprop(oDone d L A DD n ∗ ((xb0).view.loc (tileThr d L) ↦[(xb0).view.set]{fullShare} sChunk d L A DD n))
def stDel1 (n : ℕ) : sProp (MM F) :=
  iprop(oDone d L A DD n ∗ ((xb1).view.loc (tileThr d L) ↦[(xb1).view.set]{fullShare} sChunk d L A DD n))
/-- The (empty) rest of a buffer lent whole to a copy out. -/
def xRest0 (n : ℕ) : sProp (MM F) := (xb0).view.loc (tileThr d L) ↦[Finset.univ \ (xb0).view.set]{fullShare} sChunk d L A DD n
def xRest1 (n : ℕ) : sProp (MM F) := (xb1).view.loc (tileThr d L) ↦[Finset.univ \ (xb1).view.set]{fullShare} sChunk d L A DD n

/-- The four copies in flight, each on its own semaphore: a chunk's worth of credit. -/
def ldFl0 (n : ℕ) : sProp (MM F) := Transfers.Flight countersEmb (tileThr d L) (SemLoc.dma cc0_scratch3.sem) default 1048576 (ldDel0 d L q A n)
def ldFl1 (n : ℕ) : sProp (MM F) := Transfers.Flight countersEmb (tileThr d L) (SemLoc.dma cc0_scratch4.sem) default 1048576 (ldDel1 d L q A n)
def stFl0 (n : ℕ) : sProp (MM F) := Transfers.Flight countersEmb (tileThr d L) (SemLoc.dma cc0_scratch5.sem) default 1048576 (stDel0 d L A DD n)
def stFl1 (n : ℕ) : sProp (MM F) := Transfers.Flight countersEmb (tileThr d L) (SemLoc.dma cc0_scratch6.sem) default 1048576 (stDel1 d L A DD n)

end Defs

/-! ## The same contents and copies, however a box's offsets are written -/

section Folds

variable (d : Dev nD) (L : grid0.Coords) (q : PosShare TreeShare) (A : Buf (Elt F) (aLoc d)) (DD : Buf (Elt F) (dLoc d))
  (O0 : Buf (Elt F) (oLoc d))

theorem trips1 : Scf.trips k0_t1_loop.lb k0_t1_loop.ub k0_t1_loop.st = 32 := by decide
theorem trips2 : Scf.trips k0_t2_loop.lb k0_t2_loop.ub k0_t2_loop.st = 32 := by decide
theorem trips3 : Scf.trips k0_t3_loop.lb k0_t3_loop.ub k0_t3_loop.st = 32 := by decide

/-- A buffer written whole by a copy of the box at `off` holds chunk `n`, when `off` is chunk `n`'s offsets. -/
theorem xb0_landed (off : Fin 4 → ℕ) (h : ∀ a, off a + S1x32x8x128.size a ≤ S8x8192x8x128.size a) (n : ℕ) (e : off = chunkOff L n)
    (fOld : Vec F S32x8x128 .f32) :
    View.write (Elt F) (xb0).view fOld (ReadAs.same.apply (View.read (Elt F) (sl4 aW off h).view A)) Finset.univ = aChunk d L A n := by
  subst e; exact View.write_whole_univ _ _ _
theorem xb1_landed (off : Fin 4 → ℕ) (h : ∀ a, off a + S1x32x8x128.size a ≤ S8x8192x8x128.size a) (n : ℕ) (e : off = chunkOff L n)
    (fOld : Vec F S32x8x128 .f32) :
    View.write (Elt F) (xb1).view fOld (ReadAs.same.apply (View.read (Elt F) (sl4 aW off h).view A)) Finset.univ = aChunk d L A n := by
  subst e; exact View.write_whole_univ _ _ _

/-- The input but the lent box: the rest of chunk `n`. -/
theorem aRest_fold (off : Fin 4 → ℕ) (h : ∀ a, off a + S1x32x8x128.size a ≤ S8x8192x8x128.size a) (n : ℕ) (e : off = chunkOff L n) :
    ((aW).view.loc (tileThr d L) ↦[Finset.univ \ (sl4 aW off h).view.set]{q} A : sProp (MM F)) ⊢ aRest d L q A n := by
  subst e; exact .rfl

/-- A copy of the box at `off` into the first buffer, in flight, is the flight of chunk `n`. -/
theorem ldFl0_fold (off : Fin 4 → ℕ) (h : ∀ a, off a + S1x32x8x128.size a ≤ S8x8192x8x128.size a) (n : ℕ) (e : off = chunkOff L n)
    (fOld : Vec F S32x8x128 .f32) :
    (Transfers.Flight countersEmb (tileThr d L) (SemLoc.dma cc0_scratch3.sem) default 1048576
        iprop(((xb0).view.loc (tileThr d L) ↦{fullShare}
              View.write (Elt F) (xb0).view fOld (ReadAs.same.apply (View.read (Elt F) (sl4 aW off h).view A)) Finset.univ)
          ∗ ((aW).view.loc (tileThr d L) ↦[(sl4 aW off h).view.set]{q} A)) : sProp (MM F))
      ⊢ ldFl0 d L q A n := by
  subst e
  unfold ldFl0 ldDel0
  rw [xb0_landed d L A _ h n rfl fOld]

/-- A chunk of the output written whole with chunk `n` scaled is that chunk at the kernel's array function, given
    that the array function read through the chunk is the scaled chunk. -/
theorem oDone_of_writes [∀ e, Nonempty (Elt F e)] (off : Fin 4 → ℕ) (h : ∀ a, off a + S1x32x8x128.size a ≤ S8x8192x8x128.size a) (n : ℕ)
    (e : off = chunkOff L n) (base : Buf (Elt F) (oLoc d)) (P : Vec F S32x8x128 .f32)
    (hread : (chunkOf oW L n).view.read (Elt F) (GkO d A DD) = P) :
    ((sl4 oW off h).view.loc (tileThr d L) ↦[(sl4 oW off h).view.set]{fullShare}
        (sl4 oW off h).view.writes (Elt F) base [⟨Rect.whole S32x8x128, P⟩] : sProp (MM F))
      ⊢ oDone d L A DD n := by
  subst e
  unfold oDone
  rw [pointsTo_rep (Ix := HIx 1) (Name := ℕ) (U := UU) (Lvl := ℕ) (tileThr d L) (sl4 oW (chunkOff L n) h),
    View.read_writes_whole,
    pointsTo_rep (Ix := HIx 1) (Name := ℕ) (U := UU) (Lvl := ℕ) (tileThr d L) (chunkOf oW L n) (GkO d A DD), hread]

/-! ## The chunks still to write, and those written -/

/-- The chunks from `2 k` on. -/
def todoSet (k : ℕ) : Finset ℕ := (Finset.range 64).filter (2 * k ≤ ·)

theorem todoSet_zero : todoSet 0 = Finset.range 64 := by
  ext n; simp [todoSet]

theorem todoSet_pop (k : ℕ) (hk : k < 32) : todoSet k = insert (2 * k) (insert (2 * k + 1) (todoSet (k + 1))) := by
  ext n; simp only [todoSet, Finset.mem_filter, Finset.mem_range, Finset.mem_insert]; omega

theorem todoSet_last : todoSet 32 = ∅ := by
  ext n; simp only [todoSet, Finset.mem_filter, Finset.mem_range, Finset.notMem_empty, iff_false]; omega

theorem todo_pop (Φ : ℕ → sProp (MM F)) (k : ℕ) (hk : k < 32) :
    bigSep (todoSet k) Φ ⊣⊢ iprop(Φ (2 * k) ∗ Φ (2 * k + 1) ∗ bigSep (todoSet (k + 1)) Φ) := by
  rw [todoSet_pop k hk, BI.bigSep_insert (by simp only [Finset.mem_insert, todoSet, Finset.mem_filter, Finset.mem_range]; omega),
    BI.bigSep_insert (by simp only [todoSet, Finset.mem_filter, Finset.mem_range]; omega)]
  exact ⟨.rfl, .rfl⟩

theorem done_push (Φ : ℕ → sProp (MM F)) (n : ℕ) :
    bigSep (Finset.range (n + 1)) Φ ⊣⊢ iprop(Φ n ∗ bigSep (Finset.range n) Φ) := by
  rw [Finset.range_add_one, BI.bigSep_insert Finset.notMem_range_self]
  exact ⟨.rfl, .rfl⟩

/-- Recording one more wait at the kernels' index keeps the record within the launch's and that index. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

end Folds

/-! ## The outer loop's invariant, by phase -/

section Phases

variable [∀ e, Nonempty (Elt F e)]
variable (d : Dev nD) (L : grid0.Coords) (q : PosShare TreeShare) (A : Buf (Elt F) (aLoc d)) (DD : Buf (Elt F) (dLoc d))
  (O0 : Buf (Elt F) (oLoc d)) (O : CellTallies nD τ sig (HIx 1)) (W : Waits sig (HIx 1))

/-- What every pair finds: the waits' evidence, the diagonal's copy, the second load's semaphore at rest, the chunks
    still to write, and the tile's debts with the waits recorded so far. -/
def invCommon (k : ℕ) : sProp (MM F) :=
  iprop(Transfers.MayWaits (tileThr d L) (none : HIx 1) O
    ∗ ((dB).view.loc (tileThr d L) ↦{fullShare} dbOf d L DD)
    ∗ semVal (tileThr d L, SemLoc.dma cc0_scratch4.sem) 0
    ∗ bigSep (todoSet k) (oTodo d L O0)
    ∗ ∃ W', ⌜∀ p ∈ W', p ∈ W ∨ p.2 = none⌝ ∗ owes (tileThr d L) O W')

/-- Before the first pair: chunk `n = 0` on its way into the first buffer, nothing on its way out. -/
def invA (n : ℕ) : sProp (MM F) :=
  iprop(ldFl0 d L q A n ∗ aRest d L q A n ∗ (∃ f, (xb1).view.loc (tileThr d L) ↦{fullShare} f)
    ∗ semVal (tileThr d L, SemLoc.dma cc0_scratch5.sem) 0 ∗ semVal (tileThr d L, SemLoc.dma cc0_scratch6.sem) 0)

/-- Before pair `0 < k < 32`: chunk `2 k` on its way in, chunk `2 k - 1` on its way out, the earlier ones written. -/
def invB (k : ℕ) : sProp (MM F) :=
  iprop(ldFl0 d L q A (2 * k) ∗ aRest d L q A (2 * k) ∗ stFl1 d L A DD (2 * k - 1) ∗ xRest1 d L A DD (2 * k - 1)
    ∗ semVal (tileThr d L, SemLoc.dma cc0_scratch5.sem) 0 ∗ bigSep (Finset.range (2 * k - 1)) (oDone d L A DD))

/-- After the last pair: chunks `n = 62` and `n + 1` on their way out, the earlier ones written, the input whole. -/
def invC (n : ℕ) : sProp (MM F) :=
  iprop(((aW).view.loc (tileThr d L) ↦{q} A) ∗ semVal (tileThr d L, SemLoc.dma cc0_scratch3.sem) 0
    ∗ stFl0 d L A DD n ∗ xRest0 d L A DD n ∗ stFl1 d L A DD (n + 1) ∗ xRest1 d L A DD (n + 1)
    ∗ bigSep (Finset.range n) (oDone d L A DD))

/-- The outer loop's invariant before pair `k` (after the last pair at `k = 32`). -/
def Inv (k : ℕ) (_ : PUnit) : sProp (MM F) :=
  iprop(invCommon d L DD O0 O W k ∗ (if k = 0 then invA d L q A 0 else if k < 32 then invB d L q A DD k else invC d L q A DD 62))

/-- A chunk to write, as the program slices it at the offsets `off` of chunk `n`. -/
theorem oTodo_spell (off : Fin 4 → ℕ) (h : ∀ a, off a + S1x32x8x128.size a ≤ S8x8192x8x128.size a) (n : ℕ) (e : off = chunkOff L n) :
    oTodo d L O0 n ⊢ ((sl4 oW off h).view.loc (tileThr d L) ↦[(sl4 oW off h).view.set]{fullShare} O0 : sProp (MM F)) := by
  subst e; exact .rfl

/-- The scaled chunk, whatever way its number along the tile's rows is spelt. -/
theorem sChunk_eq (n jc : ℕ) (h : jc = n % 8) : rowsDone (aChunk d L A n) (dbOf d L DD) jc 32 = sChunk d L A DD n := by
  subst h; rfl

/-- A copy of the second buffer, holding chunk `n` scaled, over the box at `off` of the output, in flight. -/
theorem stFl1_fold (off : Fin 4 → ℕ) (h : ∀ a, off a + S1x32x8x128.size a ≤ S8x8192x8x128.size a) (n : ℕ) (e : off = chunkOff L n)
    (hn : n < 64) (X : Vec F S32x8x128 .f32) (hX : X = sChunk d L A DD n) :
    (Transfers.Flight countersEmb (tileThr d L) (SemLoc.dma cc0_scratch6.sem) default 1048576
        iprop(((sl4 oW off h).view.loc (tileThr d L) ↦[(sl4 oW off h).view.set]{fullShare}
              (sl4 oW off h).view.writes (Elt F) O0 [⟨Rect.whole S32x8x128, ReadAs.same.apply (View.read (Elt F) (xb1).view X)⟩])
          ∗ ((xb1).view.loc (tileThr d L) ↦[(xb1).view.set]{fullShare} X)) : sProp (MM F))
      ⊢ stFl1 d L A DD n := by
  subst hX
  unfold stFl1 stDel1
  exact Transfers.Flight_mono _ _ (sep_mono (oDone_of_writes d L A DD off h n e O0 _ (chunk_read d L n hn A DD)) .rfl)

/-- The same for the first buffer. -/
theorem stFl0_fold (off : Fin 4 → ℕ) (h : ∀ a, off a + S1x32x8x128.size a ≤ S8x8192x8x128.size a) (n : ℕ) (e : off = chunkOff L n)
    (hn : n < 64) (X : Vec F S32x8x128 .f32) (hX : X = sChunk d L A DD n) :
    (Transfers.Flight countersEmb (tileThr d L) (SemLoc.dma cc0_scratch5.sem) default 1048576
        iprop(((sl4 oW off h).view.loc (tileThr d L) ↦[(sl4 oW off h).view.set]{fullShare}
              (sl4 oW off h).view.writes (Elt F) O0 [⟨Rect.whole S32x8x128, ReadAs.same.apply (View.read (Elt F) (xb0).view X)⟩])
          ∗ ((xb0).view.loc (tileThr d L) ↦[(xb0).view.set]{fullShare} X)) : sProp (MM F))
      ⊢ stFl0 d L A DD n := by
  subst hX
  unfold stFl0 stDel0
  exact Transfers.Flight_mono _ _ (sep_mono (oDone_of_writes d L A DD off h n e O0 _ (chunk_read d L n hn A DD)) .rfl)

end Phases

end Cert.Proof.KI

end
-- ==== Proof.KI.TripMid.lean ====
/-
  A middle pair `0 < k < 31` of one tile's task: the first buffer's chunk `2 k` lands, the second buffer's chunk
  `2 k - 1` has left, chunk `2 k + 1` is fetched into the second buffer while the first is scaled and written out, chunk
  `2 k + 2` is fetched into the first buffer while the second is scaled, and the second buffer's copy out is started.
-/
import proofs.«218970_g6992206758257_cont_9to1_m_205_14_alg».proof.Proof.KI.BodyDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.KernelIdeal.main_v1_scv : Memref Cert.KernelIdeal.sig Kind.scVector Space.hbm Cert.KernelIdeal.S8x8192x8x128 EltTy.f32)
local notation "dW" => (Memref.whole Cert.KernelIdeal.main_arg1_scv : Memref Cert.KernelIdeal.sig Kind.scVector Space.hbm Cert.KernelIdeal.S1048576 EltTy.f32)
local notation "oW" => (Memref.whole Cert.KernelIdeal.main_v2_scv : Memref Cert.KernelIdeal.sig Kind.scVector Space.hbm Cert.KernelIdeal.S8x8192x8x128 EltTy.f32)
local notation "xb0" => (Memref.whole Cert.KernelIdeal.cc0_scratch0 : Memref Cert.KernelIdeal.sig Kind.scVector Space.vmem Cert.KernelIdeal.S32x8x128 EltTy.f32)
local notation "xb1" => (Memref.whole Cert.KernelIdeal.cc0_scratch1 : Memref Cert.KernelIdeal.sig Kind.scVector Space.vmem Cert.KernelIdeal.S32x8x128 EltTy.f32)
local notation "dB" => (Memref.whole Cert.KernelIdeal.cc0_scratch2 : Memref Cert.KernelIdeal.sig Kind.scVector Space.vmem Cert.KernelIdeal.S32768 EltTy.f32)

section Trips

variable [∀ e, Nonempty (Elt F e)]
variable (d : Dev nD) (L : grid0.Coords) (q : PosShare TreeShare) (A : Buf (Elt F) (aLoc d)) (DD : Buf (Elt F) (dLoc d))
  (O0 : Buf (Elt F) (oLoc d)) (O : CellTallies nD τ sig (HIx 1)) (W : Waits sig (HIx 1))

/-- A middle pair `0 < k < 31`. -/
theorem trip_mid (v2 : BitVec 32) (k : Fin k0_t1_loop.trips) (hk0 : 0 < k.val) (hk31 : k.val < 31) (acc : PUnit) :
    iprop(invCommon d L DD O0 O W k.val ∗ invB d L q A DD k.val)
      ⊢ wp frame (wpE (defs₀ (F := F)) 𝒱₀ (tileThr d L) none) Set.univ
          (k0_t1_body L aW (Memref.isWhole_whole _) dW (Memref.isWhole_whole _) oW (Memref.isWhole_whole _)
            xb0 (Memref.isWhole_whole _) xb1 (Memref.isWhole_whole _) dB (Memref.isWhole_whole _)
            cc0_scratch3 cc0_scratch4 cc0_scratch5 cc0_scratch6 cc0_scoped0 v2 k acc)
          fun _ => iprop(invCommon d L DD O0 O W (k.val + 1) ∗ invB d L q A DD (k.val + 1)) := by
  generalize hQ : (fun _ : PUnit => iprop(invCommon d L DD O0 O W (k.val + 1) ∗ invB d L q A DD (k.val + 1))) = Q
  unfold k0_t1_body invCommon invB
  iintro ⟨⟨#Hmw, HdB, Hs4, Htodo, %W', %hW', HO⟩, HL0, Ha, HS1, Hx1r, Hs5, Hdone⟩
  ihave Ht := (todo_pop (oTodo d L O0) k.val (by omega)).1 $$ Htodo
  icases Ht with ⟨Ho0, Ho1, Htodo⟩
  ihave Ho0 := (oTodo_spell d L O0 (k0_off69 L k) (k0_off69_inb L k) (2 * k.val) (off69_eq L k)) $$ Ho0
  ihave Ho1 := (oTodo_spell d L O0 (k0_off3 L k) (k0_off3_inb L k) (2 * k.val + 1) (off3_eq L k)) $$ Ho1
  unfold ldFl0 ldDel0 aRest stFl1 stDel1 xRest1
  sl_exec (disch := first | omega | (clear * - k hk0 hk31; decide +kernel +revert))
  sl_for (invC0 d L (aChunk d L A (2 * k.val)) (dbOf d L DD) ((2 * k.val) % 8)) $$ [HL0_dst HdB]
  case region => exact fun t acc => chunk0_trip d L _ _ _ _ _ _ _ v2 k _ _ _ _ _ t acc
  · unfold invC0; rw [rowsDone_zero]
    isplitl [HL0_dst]; · iexact HL0_dst
    iexact HdB
  iintro %_ HI
  unfold invC0
  icases HI with ⟨Hx0, HdB⟩
  sl_exec (disch := first | omega | (clear * - k hk0 hk31; decide +kernel +revert))
  sl_unfold_run_names
  ihave Hx1 := (Entails.of_eq (congrArg (fun c => ((xb1).view.loc (tileThr d L) ↦{fullShare} c : sProp (MM F)))
      (xb1_landed d L A (k0_off3 L k) (k0_off3_inb L k) (2 * k.val + 1) (off3_eq L k) _))) $$ Hx1r
  sl_for (invC1 d L (aChunk d L A (2 * k.val + 1)) (dbOf d L DD) ((2 * k.val) % 8 + 1)) $$ [Hx1 HdB]
  case region => exact fun t acc => chunk1_trip d L _ _ _ _ _ _ _ v2 k _ _ _ _ _ _ _ t acc
  · unfold invC1; rw [rowsDone_zero]
    isplitl [Hx1]; · iexact Hx1
    iexact HdB
  iintro %_ HI
  unfold invC1
  icases HI with ⟨Hx1, HdB⟩
  sl_exec (disch := first | omega | (clear * - k hk0 hk31; decide +kernel +revert))
  sl_unfold_run_names
  sl_step
  subst hQ
  unfold invCommon invB
  rw [show 2 * (k.val + 1) = 2 * k.val + 2 from by omega, show 2 * k.val + 2 - 1 = 2 * k.val + 1 from by omega]
  have hX1 : rowsDone (aChunk d L A (2 * k.val + 1)) (dbOf d L DD) (2 * k.val % 8 + 1)
      (Scf.trips k0_t3_loop.lb k0_t3_loop.ub k0_t3_loop.st) = sChunk d L A DD (2 * k.val + 1) := by
    rw [trips3]; exact sChunk_eq d L A DD _ _ (by omega)
  have hX0 : rowsDone (aChunk d L A (2 * k.val)) (dbOf d L DD) (2 * k.val % 8)
      (Scf.trips k0_t2_loop.lb k0_t2_loop.ub k0_t2_loop.st) = sChunk d L A DD (2 * k.val) := by
    rw [trips2]
  have hr0 : (chunkOf oW L (2 * k.val)).view.read (Elt F) (GkO d A DD)
      = ReadAs.same.apply (View.read (Elt F) (xb0).view (rowsDone (aChunk d L A (2 * k.val)) (dbOf d L DD) (2 * k.val % 8)
          (Scf.trips k0_t2_loop.lb k0_t2_loop.ub k0_t2_loop.st))) :=
    (chunk_read d L (2 * k.val) (by omega) A DD).trans hX0.symm
  isplitl [HdB Hs4 Htodo HO]
  · isplitr; · iexact Hmw
    isplitl [HdB]; · iexact HdB
    isplitl [Hs4]; · iexact Hs4
    isplitl [Htodo]; · iexact Htodo
    iexists _; isplitr
    rotate_left
    · iexact HO
    · ipureintro; exact waits_insert _ (waits_insert _ (waits_insert _ (waits_insert _ hW')))
  isplitl [HL0]
  · iapply (ldFl0_fold d L q A (k0_off70 L k) _ (2 * k.val + 2) (off70_eq L k hk31) _); iexact HL0
  isplitl [Ha]
  · iapply (aRest_fold d L q A (k0_off70 L k) _ (2 * k.val + 2) (off70_eq L k hk31)); iexact Ha
  isplitl [HS1]
  · iapply (stFl1_fold d L A DD O0 (k0_off3 L k) _ (2 * k.val + 1) (off3_eq L k) (by omega) _ hX1); iexact HS1
  isplitl [Hx1]
  · unfold xRest1; rw [← hX1]; iexact Hx1
  isplitl [Hs5]; · iexact Hs5
  rw [show 2 * k.val + 1 = (2 * k.val - 1 + 1) + 1 from by omega]
  iapply (done_push (oDone d L A DD) (2 * k.val - 1 + 1)).2
  isplitl [Ho0]
  · rw [show 2 * k.val - 1 + 1 = 2 * k.val from by omega]
    iapply (oDone_of_writes d L A DD (k0_off69 L k) _ (2 * k.val) (off69_eq L k) _ _ hr0); iexact Ho0
  iapply (done_push (oDone d L A DD) (2 * k.val - 1)).2
  isplitl [HS1_dst]; · iexact HS1_dst
  iexact Hdone

end Trips

end Cert.Proof.KI

end
-- ==== Proof.KI.TripFirst.lean ====
/-
  The first pair `k = 0` of one tile's task: the first buffer's chunk `0` lands; nothing has been copied out yet, so
  there is no copy out of the second buffer to wait for; chunk `1` is fetched into the second buffer while the first is
  scaled and written out over chunk `0` of the output, chunk `2` is fetched into the first buffer while the second is
  scaled, and the second buffer's copy out over chunk `1` is started. Chunk `0` is then the one chunk written.
-/
import proofs.«218970_g6992206758257_cont_9to1_m_205_14_alg».proof.Proof.KI.BodyDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.KernelIdeal.main_v1_scv : Memref Cert.KernelIdeal.sig Kind.scVector Space.hbm Cert.KernelIdeal.S8x8192x8x128 EltTy.f32)
local notation "dW" => (Memref.whole Cert.KernelIdeal.main_arg1_scv : Memref Cert.KernelIdeal.sig Kind.scVector Space.hbm Cert.KernelIdeal.S1048576 EltTy.f32)
local notation "oW" => (Memref.whole Cert.KernelIdeal.main_v2_scv : Memref Cert.KernelIdeal.sig Kind.scVector Space.hbm Cert.KernelIdeal.S8x8192x8x128 EltTy.f32)
local notation "xb0" => (Memref.whole Cert.KernelIdeal.cc0_scratch0 : Memref Cert.KernelIdeal.sig Kind.scVector Space.vmem Cert.KernelIdeal.S32x8x128 EltTy.f32)
local notation "xb1" => (Memref.whole Cert.KernelIdeal.cc0_scratch1 : Memref Cert.KernelIdeal.sig Kind.scVector Space.vmem Cert.KernelIdeal.S32x8x128 EltTy.f32)
local notation "dB" => (Memref.whole Cert.KernelIdeal.cc0_scratch2 : Memref Cert.KernelIdeal.sig Kind.scVector Space.vmem Cert.KernelIdeal.S32768 EltTy.f32)

section Trips

variable [∀ e, Nonempty (Elt F e)]
variable (d : Dev nD) (L : grid0.Coords) (q : PosShare TreeShare) (A : Buf (Elt F) (aLoc d)) (DD : Buf (Elt F) (dLoc d))
  (O0 : Buf (Elt F) (oLoc d)) (O : CellTallies nD τ sig (HIx 1)) (W : Waits sig (HIx 1))

/-- The first pair `k = 0`. -/
theorem trip_first (v2 : BitVec 32) (k : Fin k0_t1_loop.trips) (hk : k.val = 0) (acc : PUnit) :
    iprop(invCommon d L DD O0 O W k.val ∗ invA d L q A (2 * k.val))
      ⊢ wp frame (wpE (defs₀ (F := F)) 𝒱₀ (tileThr d L) none) Set.univ
          (k0_t1_body L aW (Memref.isWhole_whole _) dW (Memref.isWhole_whole _) oW (Memref.isWhole_whole _)
            xb0 (Memref.isWhole_whole _) xb1 (Memref.isWhole_whole _) dB (Memref.isWhole_whole _)
            cc0_scratch3 cc0_scratch4 cc0_scratch5 cc0_scratch6 cc0_scoped0 v2 k acc)
          fun _ => iprop(invCommon d L DD O0 O W (k.val + 1) ∗ invB d L q A DD (k.val + 1)) := by
  generalize hQ : (fun _ : PUnit => iprop(invCommon d L DD O0 O W (k.val + 1) ∗ invB d L q A DD (k.val + 1))) = Q
  unfold k0_t1_body invCommon invA
  iintro ⟨⟨#Hmw, HdB, Hs4, Htodo, %W', %hW', HO⟩, HL0, Ha, ⟨%f1, Hx1r⟩, Hs5, Hs6⟩
  ihave Ht := (todo_pop (oTodo d L O0) k.val (by omega)).1 $$ Htodo
  icases Ht with ⟨Ho0, Ho1, Htodo⟩
  ihave Ho0 := (oTodo_spell d L O0 (k0_off69 L k) (k0_off69_inb L k) (2 * k.val) (off69_eq L k)) $$ Ho0
  ihave Ho1 := (oTodo_spell d L O0 (k0_off3 L k) (k0_off3_inb L k) (2 * k.val + 1) (off3_eq L k)) $$ Ho1
  unfold ldFl0 ldDel0 aRest
  sl_exec (disch := first | omega | (clear * - k hk; decide +kernel +revert))
  sl_for (invC0 d L (aChunk d L A (2 * k.val)) (dbOf d L DD) ((2 * k.val) % 8)) $$ [HL0_dst HdB]
  case region => exact fun t acc => chunk0_trip d L _ _ _ _ _ _ _ v2 k _ _ _ _ _ t acc
  · unfold invC0; rw [rowsDone_zero]
    isplitl [HL0_dst]; · iexact HL0_dst
    iexact HdB
  iintro %_ HI
  unfold invC0
  icases HI with ⟨Hx0, HdB⟩
  sl_exec (disch := first | omega | (clear * - k hk; decide +kernel +revert))
  sl_unfold_run_names
  ihave Hx1 := (Entails.of_eq (congrArg (fun c => ((xb1).view.loc (tileThr d L) ↦{fullShare} c : sProp (MM F)))
      (xb1_landed d L A (k0_off3 L k) (k0_off3_inb L k) (2 * k.val + 1) (off3_eq L k) _))) $$ Hx1r
  sl_for (invC1 d L (aChunk d L A (2 * k.val + 1)) (dbOf d L DD) ((2 * k.val) % 8 + 1)) $$ [Hx1 HdB]
  case region => exact fun t acc => chunk1_trip d L _ _ _ _ _ _ _ v2 k _ _ _ _ _ _ _ t acc
  · unfold invC1; rw [rowsDone_zero]
    isplitl [Hx1]; · iexact Hx1
    iexact HdB
  iintro %_ HI
  unfold invC1
  icases HI with ⟨Hx1, HdB⟩
  sl_exec (disch := first | omega | (clear * - k hk; decide +kernel +revert))
  sl_unfold_run_names
  sl_step
  subst hQ
  unfold invCommon invB
  rw [show 2 * (k.val + 1) = 2 * k.val + 2 from by omega, show 2 * k.val + 2 - 1 = 2 * k.val + 1 from by omega]
  have hX1 : rowsDone (aChunk d L A (2 * k.val + 1)) (dbOf d L DD) (2 * k.val % 8 + 1)
      (Scf.trips k0_t3_loop.lb k0_t3_loop.ub k0_t3_loop.st) = sChunk d L A DD (2 * k.val + 1) := by
    rw [trips3]; exact sChunk_eq d L A DD _ _ (by omega)
  have hX0 : rowsDone (aChunk d L A (2 * k.val)) (dbOf d L DD) (2 * k.val % 8)
      (Scf.trips k0_t2_loop.lb k0_t2_loop.ub k0_t2_loop.st) = sChunk d L A DD (2 * k.val) := by
    rw [trips2]
  have hr0 : (chunkOf oW L (2 * k.val)).view.read (Elt F) (GkO d A DD)
      = ReadAs.same.apply (View.read (Elt F) (xb0).view (rowsDone (aChunk d L A (2 * k.val)) (dbOf d L DD) (2 * k.val % 8)
          (Scf.trips k0_t2_loop.lb k0_t2_loop.ub k0_t2_loop.st))) :=
    (chunk_read d L (2 * k.val) (by omega) A DD).trans hX0.symm
  isplitl [HdB Hs4 Htodo HO]
  · isplitr; · iexact Hmw
    isplitl [HdB]; · iexact HdB
    isplitl [Hs4]; · iexact Hs4
    isplitl [Htodo]; · iexact Htodo
    iexists _; isplitr
    rotate_left
    · iexact HO
    · ipureintro; exact waits_insert _ (waits_insert _ (waits_insert _ hW'))
  isplitl [HL0]
  · iapply (ldFl0_fold d L q A (k0_off70 L k) _ (2 * k.val + 2) (off70_eq L k (by omega)) _); iexact HL0
  isplitl [Ha]
  · iapply (aRest_fold d L q A (k0_off70 L k) _ (2 * k.val + 2) (off70_eq L k (by omega))); iexact Ha
  isplitl [Hs6]
  · iapply (stFl1_fold d L A DD O0 (k0_off3 L k) _ (2 * k.val + 1) (off3_eq L k) (by omega) _ hX1); iexact Hs6
  isplitl [Hx1]
  · unfold xRest1; rw [← hX1]; iexact Hx1
  isplitl [Hs5]; · iexact Hs5
  iapply (done_push (oDone d L A DD) (2 * k.val)).2
  isplitl [Ho0]
  · iapply (oDone_of_writes d L A DD (k0_off69 L k) _ (2 * k.val) (off69_eq L k) _ _ hr0); iexact Ho0
  rw [show 2 * k.val = 0 from by omega, Finset.range_zero, BI.bigSep_empty]
  iempintro

end Trips

end Cert.Proof.KI

end
-- ==== Proof.KI.TripLast.lean ====
/-
  The last pair `k = 31` of one tile's task: the first buffer's chunk `62` lands, the second buffer's chunk `61` has
  left, chunk `63` is fetched into the second buffer while the first is scaled and its copy out started; no further
  chunk is fetched, so the input is whole again; the second buffer is scaled and its copy out started. Both copies out
  are still on their way when the pair ends.
-/
import proofs.«218970_g6992206758257_cont_9to1_m_205_14_alg».proof.Proof.KI.BodyDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.KernelIdeal.main_v1_scv : Memref Cert.KernelIdeal.sig Kind.scVector Space.hbm Cert.KernelIdeal.S8x8192x8x128 EltTy.f32)
local notation "dW" => (Memref.whole Cert.KernelIdeal.main_arg1_scv : Memref Cert.KernelIdeal.sig Kind.scVector Space.hbm Cert.KernelIdeal.S1048576 EltTy.f32)
local notation "oW" => (Memref.whole Cert.KernelIdeal.main_v2_scv : Memref Cert.KernelIdeal.sig Kind.scVector Space.hbm Cert.KernelIdeal.S8x8192x8x128 EltTy.f32)
local notation "xb0" => (Memref.whole Cert.KernelIdeal.cc0_scratch0 : Memref Cert.KernelIdeal.sig Kind.scVector Space.vmem Cert.KernelIdeal.S32x8x128 EltTy.f32)
local notation "xb1" => (Memref.whole Cert.KernelIdeal.cc0_scratch1 : Memref Cert.KernelIdeal.sig Kind.scVector Space.vmem Cert.KernelIdeal.S32x8x128 EltTy.f32)
local notation "dB" => (Memref.whole Cert.KernelIdeal.cc0_scratch2 : Memref Cert.KernelIdeal.sig Kind.scVector Space.vmem Cert.KernelIdeal.S32768 EltTy.f32)

section Trips

variable [∀ e, Nonempty (Elt F e)]
variable (d : Dev nD) (L : grid0.Coords) (q : PosShare TreeShare) (A : Buf (Elt F) (aLoc d)) (DD : Buf (Elt F) (dLoc d))
  (O0 : Buf (Elt F) (oLoc d)) (O : CellTallies nD τ sig (HIx 1)) (W : Waits sig (HIx 1))

/-- The last pair `k = 31`. -/
theorem trip_last (v2 : BitVec 32) (k : Fin k0_t1_loop.trips) (hk : k.val = 31) (acc : PUnit) :
    iprop(invCommon d L DD O0 O W k.val ∗ invB d L q A DD k.val)
      ⊢ wp frame (wpE (defs₀ (F := F)) 𝒱₀ (tileThr d L) none) Set.univ
          (k0_t1_body L aW (Memref.isWhole_whole _) dW (Memref.isWhole_whole _) oW (Memref.isWhole_whole _)
            xb0 (Memref.isWhole_whole _) xb1 (Memref.isWhole_whole _) dB (Memref.isWhole_whole _)
            cc0_scratch3 cc0_scratch4 cc0_scratch5 cc0_scratch6 cc0_scoped0 v2 k acc)
          fun _ => iprop(invCommon d L DD O0 O W (k.val + 1) ∗ invC d L q A DD (2 * k.val)) := by
  generalize hQ : (fun _ : PUnit => iprop(invCommon d L DD O0 O W (k.val + 1) ∗ invC d L q A DD (2 * k.val))) = Q
  unfold k0_t1_body invCommon invB
  iintro ⟨⟨#Hmw, HdB, Hs4, Htodo, %W', %hW', HO⟩, HL0, Ha, HS1, Hx1r, Hs5, Hdone⟩
  ihave Ht := (todo_pop (oTodo d L O0) k.val (by omega)).1 $$ Htodo
  icases Ht with ⟨Ho0, Ho1, Htodo⟩
  ihave Ho0 := (oTodo_spell d L O0 (k0_off69 L k) (k0_off69_inb L k) (2 * k.val) (off69_eq L k)) $$ Ho0
  ihave Ho1 := (oTodo_spell d L O0 (k0_off3 L k) (k0_off3_inb L k) (2 * k.val + 1) (off3_eq L k)) $$ Ho1
  unfold ldFl0 ldDel0 aRest stFl1 stDel1 xRest1
  sl_exec (disch := first | omega | (clear * - k hk; decide +kernel +revert))
  sl_for (invC0 d L (aChunk d L A (2 * k.val)) (dbOf d L DD) ((2 * k.val) % 8)) $$ [HL0_dst HdB]
  case region => exact fun t acc => chunk0_trip d L _ _ _ _ _ _ _ v2 k _ _ _ _ _ t acc
  · unfold invC0; rw [rowsDone_zero]
    isplitl [HL0_dst]; · iexact HL0_dst
    iexact HdB
  iintro %_ HI
  unfold invC0
  icases HI with ⟨Hx0, HdB⟩
  sl_exec (disch := first | omega | (clear * - k hk; decide +kernel +revert))
  sl_unfold_run_names
  ihave Hx1 := (Entails.of_eq (congrArg (fun c => ((xb1).view.loc (tileThr d L) ↦{fullShare} c : sProp (MM F)))
      (xb1_landed d L A (k0_off3 L k) (k0_off3_inb L k) (2 * k.val + 1) (off3_eq L k) _))) $$ Hx1r
  sl_for (invC1 d L (aChunk d L A (2 * k.val + 1)) (dbOf d L DD) ((2 * k.val) % 8 + 1)) $$ [Hx1 HdB]
  case region => exact fun t acc => chunk1_trip d L _ _ _ _ _ _ _ v2 k _ _ _ _ _ _ _ t acc
  · unfold invC1; rw [rowsDone_zero]
    isplitl [Hx1]; · iexact Hx1
    iexact HdB
  iintro %_ HI
  unfold invC1
  icases HI with ⟨Hx1, HdB⟩
  sl_exec (disch := first | omega | (clear * - k hk; decide +kernel +revert))
  sl_unfold_run_names
  sl_step
  subst hQ
  unfold invCommon invC
  have hX1 : rowsDone (aChunk d L A (2 * k.val + 1)) (dbOf d L DD) (2 * k.val % 8 + 1)
      (Scf.trips k0_t3_loop.lb k0_t3_loop.ub k0_t3_loop.st) = sChunk d L A DD (2 * k.val + 1) := by
    rw [trips3]; exact sChunk_eq d L A DD _ _ (by omega)
  have hX0 : rowsDone (aChunk d L A (2 * k.val)) (dbOf d L DD) (2 * k.val % 8)
      (Scf.trips k0_t2_loop.lb k0_t2_loop.ub k0_t2_loop.st) = sChunk d L A DD (2 * k.val) := by
    rw [trips2]
  have hr : Finset.range (2 * k.val) = Finset.range (2 * k.val - 1 + 1) := by
    rw [show 2 * k.val - 1 + 1 = 2 * k.val from by omega]
  isplitl [HdB Hs4 Htodo HO]
  · isplitr; · iexact Hmw
    isplitl [HdB]; · iexact HdB
    isplitl [Hs4]; · iexact Hs4
    isplitl [Htodo]; · iexact Htodo
    iexists _; isplitr
    rotate_left
    · iexact HO
    · ipureintro; exact waits_insert _ (waits_insert _ (waits_insert _ hW'))
  isplitl [Ha]; · iexact Ha
  isplitl [HL0]; · iexact HL0
  isplitl [Hs5]
  · iapply (stFl0_fold d L A DD O0 (k0_off69 L k) _ (2 * k.val) (off69_eq L k) (by omega) _ hX0); iexact Hs5
  isplitl [Hx0]
  · unfold xRest0; rw [← hX0]; iexact Hx0
  isplitl [HS1]
  · iapply (stFl1_fold d L A DD O0 (k0_off3 L k) _ (2 * k.val + 1) (off3_eq L k) (by omega) _ hX1); iexact HS1
  isplitl [Hx1]
  · unfold xRest1; rw [← hX1]; iexact Hx1
  rw [hr]
  iapply (done_push (oDone d L A DD) (2 * k.val - 1)).2
  isplitl [HS1_dst]; · iexact HS1_dst
  iexact Hdone

end Trips

end Cert.Proof.KI

end
-- ==== Proof.KI.TileRes.lean ====
/-
  A tile's own storage, as the launch hands it to the task: its five DMA semaphores at zero and its three scratch
  buffers at whatever they hold, named one by one, and the rest of the tile's scoped cells and buffers set aside.
-/
import proofs.«218970_g6992206758257_cont_9to1_m_205_14_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.KernelIdeal.main_v1_scv : Memref Cert.KernelIdeal.sig Kind.scVector Space.hbm Cert.KernelIdeal.S8x8192x8x128 EltTy.f32)
local notation "dW" => (Memref.whole Cert.KernelIdeal.main_arg1_scv : Memref Cert.KernelIdeal.sig Kind.scVector Space.hbm Cert.KernelIdeal.S1048576 EltTy.f32)
local notation "oW" => (Memref.whole Cert.KernelIdeal.main_v2_scv : Memref Cert.KernelIdeal.sig Kind.scVector Space.hbm Cert.KernelIdeal.S8x8192x8x128 EltTy.f32)
local notation "xb0" => (Memref.whole Cert.KernelIdeal.cc0_scratch0 : Memref Cert.KernelIdeal.sig Kind.scVector Space.vmem Cert.KernelIdeal.S32x8x128 EltTy.f32)
local notation "xb1" => (Memref.whole Cert.KernelIdeal.cc0_scratch1 : Memref Cert.KernelIdeal.sig Kind.scVector Space.vmem Cert.KernelIdeal.S32x8x128 EltTy.f32)
local notation "dB" => (Memref.whole Cert.KernelIdeal.cc0_scratch2 : Memref Cert.KernelIdeal.sig Kind.scVector Space.vmem Cert.KernelIdeal.S32768 EltTy.f32)

/-- A DMA semaphore of the tile, as a cell of the machine. -/
abbrev dmaCell (d : Dev nD) (L : grid0.Coords) (s : DmaSem sig) : GSem nD τ sig := (tileThr d L, SemLoc.dma s)

/-- Different semaphores are different cells. -/
theorem dmaCell_ne (d : Dev nD) (L : grid0.Coords) {s s' : DmaSem sig} (h : s ≠ s') : dmaCell d L s ≠ dmaCell d L s' :=
  fun e => h (SemLoc.dma.inj (Prod.mk.inj e).2)

/-- A DMA semaphore of the tile is one of the tile's own scoped cells. -/
theorem dmaCell_mem (d : Dev nD) (L : grid0.Coords) (s : DmaSem sig) : dmaCell d L s ∈ ownCells (tileThr d L) :=
  (mem_ownCells (g := dmaCell d L s)).mpr ⟨rfl, by show (SemLoc.dma s : SemLoc sig).isScoped .scVector = true; rfl⟩

/-- The tile's scoped semaphores but the kernel's five. -/
def semsRest (d : Dev nD) (L : grid0.Coords) : sProp (MM F) :=
  bigSep ((((((ownCells (tileThr d L)).erase (dmaCell d L cc0_scratch3.sem)).erase (dmaCell d L cc0_scratch4.sem)).erase
      (dmaCell d L cc0_scratch5.sem)).erase (dmaCell d L cc0_scratch6.sem)).erase (dmaCell d L cc0_scoped0.sem))
    fun g => semVal g 0

/-- A scratch buffer of the tile, as a buffer of its device. -/
abbrev tileRef (L : grid0.Coords) (b : Ref sig .scVector) : DevRef τ sig := (Proc.scVector (cV L) (jV L)).devRef b

/-- Different scratch buffers are different buffers of the device. -/
theorem tileRef_ne (L : grid0.Coords) {b b' : Ref sig .scVector} (h : b ≠ b') : tileRef L b ≠ tileRef L b' :=
  fun e => h (Proc.devRef_injective _ e)

/-- The tile's scoped buffers but the kernel's three. -/
def bufsRest (d : Dev nD) (L : grid0.Coords) : sProp (MM F) :=
  bigSep ((((ownRefs (τ := τ) (.scVector (cV L) (jV L))).erase (tileRef L cc0_scratch0)).erase (tileRef L cc0_scratch1)).erase
      (tileRef L cc0_scratch2))
    fun b => iprop(∃ f, ((d, b) : Loc nD τ sig) ↦{fullShare} f)

theorem tile_sems (d : Dev nD) (L : grid0.Coords) :
    (scopedSems0 (tileThr d L) : sProp (MM F))
      = iprop(semVal (tileThr d L, SemLoc.dma cc0_scratch3.sem) 0 ∗ semVal (tileThr d L, SemLoc.dma cc0_scratch4.sem) 0
          ∗ semVal (tileThr d L, SemLoc.dma cc0_scratch5.sem) 0 ∗ semVal (tileThr d L, SemLoc.dma cc0_scratch6.sem) 0
          ∗ semVal (tileThr d L, SemLoc.dma cc0_scoped0.sem) 0 ∗ semsRest d L) := by
  rw [SparseCore.Cfg.scopedSems0_V (Val := Elt F) d (cV L) (jV L)]
  unfold SparseCore.Cfg.ownSems0 semsRest
  rw [SparseCore.bigSep_erase' (dmaCell_mem d L cc0_scratch3.sem),
    SparseCore.bigSep_erase' (Finset.mem_erase.mpr ⟨dmaCell_ne d L (show cc0_scratch4.sem ≠ cc0_scratch3.sem by decide),
      dmaCell_mem d L cc0_scratch4.sem⟩),
    SparseCore.bigSep_erase' (Finset.mem_erase.mpr ⟨dmaCell_ne d L (show cc0_scratch5.sem ≠ cc0_scratch4.sem by decide),
      Finset.mem_erase.mpr ⟨dmaCell_ne d L (show cc0_scratch5.sem ≠ cc0_scratch3.sem by decide), dmaCell_mem d L cc0_scratch5.sem⟩⟩),
    SparseCore.bigSep_erase' (Finset.mem_erase.mpr ⟨dmaCell_ne d L (show cc0_scratch6.sem ≠ cc0_scratch5.sem by decide),
      Finset.mem_erase.mpr ⟨dmaCell_ne d L (show cc0_scratch6.sem ≠ cc0_scratch4.sem by decide),
        Finset.mem_erase.mpr ⟨dmaCell_ne d L (show cc0_scratch6.sem ≠ cc0_scratch3.sem by decide), dmaCell_mem d L cc0_scratch6.sem⟩⟩⟩),
    SparseCore.bigSep_erase' (Finset.mem_erase.mpr ⟨dmaCell_ne d L (show cc0_scoped0.sem ≠ cc0_scratch6.sem by decide),
      Finset.mem_erase.mpr ⟨dmaCell_ne d L (show cc0_scoped0.sem ≠ cc0_scratch5.sem by decide),
        Finset.mem_erase.mpr ⟨dmaCell_ne d L (show cc0_scoped0.sem ≠ cc0_scratch4.sem by decide),
          Finset.mem_erase.mpr ⟨dmaCell_ne d L (show cc0_scoped0.sem ≠ cc0_scratch3.sem by decide), dmaCell_mem d L cc0_scoped0.sem⟩⟩⟩⟩)]

theorem tile_bufs (hF : (K (F := F)).Facts) (d : Dev nD) (L : grid0.Coords) :
    (scopedBufs (tileThr d L) : sProp (MM F))
      = iprop((∃ f, (xb0).view.loc (tileThr d L) ↦{fullShare} f) ∗ (∃ f, (xb1).view.loc (tileThr d L) ↦{fullShare} f)
          ∗ (∃ f, (dB).view.loc (tileThr d L) ↦{fullShare} f) ∗ bufsRest d L) := by
  rw [(K (F := F)).scopedBufs_V hF d (cV L) (jV L)]
  unfold SparseCore.Cfg.ownBufs bufsRest
  refine (SparseCore.bigSep_erase' (SparseCore.Cfg.mem_ownRefs_of_owner (p := Proc.scVector (cV L) (jV L))
    (b := tileRef L cc0_scratch0) rfl)).trans ?_
  rw [SparseCore.bigSep_erase' (Finset.mem_erase.mpr ⟨tileRef_ne L (show (cc0_scratch1 : Ref sig .scVector) ≠ cc0_scratch0 by decide),
      SparseCore.Cfg.mem_ownRefs_of_owner (p := Proc.scVector (cV L) (jV L)) (b := tileRef L cc0_scratch1) rfl⟩),
    SparseCore.bigSep_erase' (Finset.mem_erase.mpr ⟨tileRef_ne L (show (cc0_scratch2 : Ref sig .scVector) ≠ cc0_scratch1 by decide),
      Finset.mem_erase.mpr ⟨tileRef_ne L (show (cc0_scratch2 : Ref sig .scVector) ≠ cc0_scratch0 by decide),
        SparseCore.Cfg.mem_ownRefs_of_owner (p := Proc.scVector (cV L) (jV L)) (b := tileRef L cc0_scratch2) rfl⟩⟩)]

end Cert.Proof.KI

end
-- ==== Proof.KI.Body.lean ====
/-
  One tile's task. The tile is handed a read share of the re-laid input `a` and of `diag`, and its own rows of the
  output; it copies its piece of `diag` into a scratch buffer, then moves its 64 chunks through two scratch buffers in
  32 pairs — while one buffer is scaled and written out, the other is being filled — and ends with its rows of the output
  at the kernel's array function of `a` and `diag`. Every semaphore has one copy outstanding at a time, and no buffer
  is touched while a copy into or out of it is outstanding.
-/
import proofs.«218970_g6992206758257_cont_9to1_m_205_14_alg».proof.Proof.KI.TripMid
import proofs.«218970_g6992206758257_cont_9to1_m_205_14_alg».proof.Proof.KI.TripFirst
import proofs.«218970_g6992206758257_cont_9to1_m_205_14_alg».proof.Proof.KI.TripLast
import proofs.«218970_g6992206758257_cont_9to1_m_205_14_alg».proof.Proof.KI.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.KernelIdeal.main_v1_scv : Memref Cert.KernelIdeal.sig Kind.scVector Space.hbm Cert.KernelIdeal.S8x8192x8x128 EltTy.f32)
local notation "dW" => (Memref.whole Cert.KernelIdeal.main_arg1_scv : Memref Cert.KernelIdeal.sig Kind.scVector Space.hbm Cert.KernelIdeal.S1048576 EltTy.f32)
local notation "oW" => (Memref.whole Cert.KernelIdeal.main_v2_scv : Memref Cert.KernelIdeal.sig Kind.scVector Space.hbm Cert.KernelIdeal.S8x8192x8x128 EltTy.f32)
local notation "xb0" => (Memref.whole Cert.KernelIdeal.cc0_scratch0 : Memref Cert.KernelIdeal.sig Kind.scVector Space.vmem Cert.KernelIdeal.S32x8x128 EltTy.f32)
local notation "xb1" => (Memref.whole Cert.KernelIdeal.cc0_scratch1 : Memref Cert.KernelIdeal.sig Kind.scVector Space.vmem Cert.KernelIdeal.S32x8x128 EltTy.f32)
local notation "dB" => (Memref.whole Cert.KernelIdeal.cc0_scratch2 : Memref Cert.KernelIdeal.sig Kind.scVector Space.vmem Cert.KernelIdeal.S32768 EltTy.f32)

/-- What a tile is handed: a read share of `a` and of `diag`, and its rows of the output at whatever they hold. -/
def tileGo (d : Dev nD) (L : grid0.Coords) (q : PosShare TreeShare) (A : Buf (Elt F) (aLoc d)) (DD : Buf (Elt F) (dLoc d))
    (O0 : Buf (Elt F) (oLoc d)) : sProp (MM F) :=
  iprop((aLoc d ↦{q} A) ∗ (dLoc d ↦{q} DD) ∗ (oLoc d ↦[slabSet (wid L)]{fullShare} O0))

/-- What it hands back: the share of `diag`, and its rows of the output scaled. -/
def tileTd (d : Dev nD) (L : grid0.Coords) (q : PosShare TreeShare) (A : Buf (Elt F) (aLoc d)) (DD : Buf (Elt F) (dLoc d)) : sProp (MM F) :=
  iprop((dLoc d ↦{q} DD) ∗ (oLoc d ↦[slabSet (wid L)]{fullShare} (Cert.Proof.Spec.Gk (F := F) A DD : Buf (Elt F) (oLoc d))))

section Task

variable [∀ e, Nonempty (Elt F e)] (hF : (K (F := F)).Facts)
variable (d : Dev nD) (L : grid0.Coords) (q : PosShare TreeShare) (A : Buf (Elt F) (aLoc d)) (DD : Buf (Elt F) (dLoc d))
  (O0 : Buf (Elt F) (oLoc d)) (O : CellTallies nD τ sig (HIx 1)) (W : Waits sig (HIx 1)) (hO : ∀ g, O g none = 0)

/-- The arrays as a tile's memrefs address them are the device's arrays. -/
theorem pts_a (f : Buf (Elt F) (aLoc d)) : ((aW).view.loc (tileThr d L) ↦{q} f : sProp (MM F)) = (aLoc d ↦{q} f) := by
  simp only [Memref.view_whole, View.set_whole]
theorem pts_d (f : Buf (Elt F) (dLoc d)) : ((dW).view.loc (tileThr d L) ↦{q} f : sProp (MM F)) = (dLoc d ↦{q} f) := by
  simp only [Memref.view_whole, View.set_whole]

/-- The diagonal's scratch after the tile's piece has landed in it. -/
theorem dB_landed (fOld : Vec F S32768 .f32) :
    View.write (Elt F) (dB).view fOld (ReadAs.same.apply (View.read (Elt F) (dSlice L).view DD)) Finset.univ = dbOf d L DD :=
  View.write_whole_univ _ _ _

/-- One pair of the outer loop, whichever. -/
theorem trip (v2 : BitVec 32) (k : Fin k0_t1_loop.trips) (acc : PUnit) :
    Inv d L q A DD O0 O W k.val acc
      ⊢ wp frame (wpE (defs₀ (F := F)) 𝒱₀ (tileThr d L) none) Set.univ
          (k0_t1_body L aW (Memref.isWhole_whole _) dW (Memref.isWhole_whole _) oW (Memref.isWhole_whole _)
            xb0 (Memref.isWhole_whole _) xb1 (Memref.isWhole_whole _) dB (Memref.isWhole_whole _)
            cc0_scratch3 cc0_scratch4 cc0_scratch5 cc0_scratch6 cc0_scoped0 v2 k acc)
          (Inv d L q A DD O0 O W (k.val + 1)) := by
  have hk32 : k.val < 32 := lt_of_lt_of_le k.isLt k0_t1_abs.2.1
  unfold Inv
  by_cases h0 : k.val = 0
  · rw [if_pos h0, if_neg (by omega : ¬ k.val + 1 = 0), if_pos (by omega : k.val + 1 < 32)]
    have e : invA d L q A 0 = invA d L q A (2 * k.val) := by rw [h0]
    rw [e]
    exact trip_first d L q A DD O0 O W v2 k h0 acc
  · by_cases h31 : k.val = 31
    · rw [if_neg h0, if_pos hk32, if_neg (by omega : ¬ k.val + 1 = 0), if_neg (by omega : ¬ k.val + 1 < 32)]
      have e : invC d L q A DD 62 = invC d L q A DD (2 * k.val) := by rw [h31]
      rw [e]
      exact trip_last d L q A DD O0 O W v2 k h31 acc
    · rw [if_neg h0, if_pos hk32, if_neg (by omega : ¬ k.val + 1 = 0), if_pos (by omega : k.val + 1 < 32)]
      exact trip_mid d L q A DD O0 O W v2 k (by omega) (by omega) acc

include hF hO in
/-- The task on the tile at grid coordinates `L` of device `d`. -/
theorem tile_body :
    iprop(levAts (K (F := F)).L (K (F := F)).lev ∗ emp ∗ tileGo d L q A DD O0
        ∗ scopedBufs (tileThr d L) ∗ scopedSems0 (tileThr d L) ∗ owes (tileThr d L) O W)
      ⊢ wp frame (wpE (defs₀ (F := F)) 𝒱₀ (tileThr d L) none) Set.univ
          (cc0__sc_scale L aW (Memref.isWhole_whole _) dW (Memref.isWhole_whole _) oW (Memref.isWhole_whole _)
            xb0 (Memref.isWhole_whole _) xb1 (Memref.isWhole_whole _) dB (Memref.isWhole_whole _)
            cc0_scratch3 cc0_scratch4 cc0_scratch5 cc0_scratch6 cc0_scoped0)
          fun _ => iprop(tileTd d L q A DD ∗ scopedBufs (tileThr d L) ∗ scopedSems0 (tileThr d L)
            ∗ ∃ W', ⌜∀ p ∈ W', p ∈ W ∨ p.2 = none⌝ ∗ owes (tileThr d L) O W') := by
  generalize hQ : (fun _ : PUnit => iprop(tileTd d L q A DD ∗ scopedBufs (tileThr d L) ∗ scopedSems0 (tileThr d L)
            ∗ ∃ W', ⌜∀ p ∈ W', p ∈ W ∨ p.2 = none⌝ ∗ owes (tileThr d L) O W')) = Q
  rw [cc0__sc_scale_eq_skeleton]; unfold cc0__sc_scale_skel tileGo
  rw [tile_sems d L, tile_bufs hF d L]
  iintro ⟨#Hlv, -, ⟨Ha, Hd, Ho⟩, ⟨⟨%f0, Hx0⟩, ⟨%f1, Hx1⟩, ⟨%fd, HdB⟩, Hbufs⟩, ⟨Hs3, Hs4, Hs5, Hs6, Hs0, Hsems⟩, HO⟩
  ihave Hmw := ((K (F := F)).mayWaits_none (thr := tileThr d L) hO) $$ Hlv
  ihave Ha := (Entails.of_eq (pts_a d L q A).symm) $$ Ha
  ihave Hd := (Entails.of_eq (pts_d d L q DD).symm) $$ Hd
  ihave Ht := (oSlab_chunks d L O0).1 $$ Ho
  sl_exec
  sl_unfold_run_names
  ihave HdB := (Entails.of_eq (congrArg (fun c => ((dB).view.loc (tileThr d L) ↦{fullShare} c : sProp (MM F)))
      (dB_landed d L DD fd))) $$ HdB
  sl_for (Inv d L q A DD O0 O W) $$ [Hmw HdB Hs4 Ht HO Hs3 Ha Hx1 Hs5 Hs6]
  case region => exact fun k acc => trip d L q A DD O0 O W _ k acc
  · unfold Inv invCommon
    rw [if_pos rfl]
    unfold invA
    isplitl [HdB Hs4 Ht HO]
    · isplitr; · iexact Hmw
      isplitl [HdB]; · iexact HdB
      isplitl [Hs4]; · iexact Hs4
      isplitl [Ht]; · rw [todoSet_zero]; iexact Ht
      iexists _; isplitr
      rotate_left
      · iexact HO
      · ipureintro; exact waits_insert _ (fun p hp => .inl hp)
    isplitl [Hs3]
    · iapply (ldFl0_fold d L q A (k0_off2 L) _ 0 (off2_eq L) _); iexact Hs3
    isplitl [Ha]
    · iapply (aRest_fold d L q A (k0_off2 L) _ 0 (off2_eq L)); iexact Ha
    isplitl [Hx1]; · iexists _; iexact Hx1
    isplitl [Hs5]; · iexact Hs5
    iexact Hs6
  iintro %_ HI
  unfold Inv invCommon
  rw [trips1, if_neg (by decide : ¬ (32 : ℕ) = 0), if_neg (by decide : ¬ (32 : ℕ) < 32)]
  unfold invC stFl0 stDel0 stFl1 stDel1 xRest0 xRest1
  icases HI with ⟨⟨#Hmw', HdB, Hs4, Htodo, %W', %hW', HO⟩, Ha, Hs3, HS0, Hx0r, HS1, Hx1r, Hdone⟩
  sl_exec
  sl_step
  subst hQ
  unfold tileTd
  rw [tile_sems d L, tile_bufs hF d L]
  isplitl [Hd Hdone HS0_dst HS1_dst]
  · isplitl [Hd]
    · iapply (Entails.of_eq (pts_d d L q DD)); iexact Hd
    iapply (oSlab_chunks d L (GkO d A DD)).2
    have e64 : Finset.range 64 = Finset.range (62 + 1 + 1) := rfl
    rw [e64]
    iapply (done_push (oDone d L A DD) (62 + 1)).2
    isplitl [HS1_dst]; · iexact HS1_dst
    iapply (done_push (oDone d L A DD) 62).2
    isplitl [HS0_dst]; · iexact HS0_dst
    iexact Hdone
  isplitl [Hx0r Hx1r HdB Hbufs]
  · isplitl [Hx0r]; · iexists _; iexact Hx0r
    isplitl [Hx1r]; · iexists _; iexact Hx1r
    isplitl [HdB]; · iexists _; iexact HdB
    iexact Hbufs
  isplitl [Hs3 Hs4 HS0 HS1 Hs0 Hsems]
  · isplitl [Hs3]; · iexact Hs3
    isplitl [Hs4]; · iexact Hs4
    isplitl [HS0]; · iexact HS0
    isplitl [HS1]; · iexact HS1
    isplitl [Hs0]; · iexact Hs0
    iexact Hsems
  iexists _; isplitr
  rotate_left
  · iexact HO
  · ipureintro; exact waits_insert _ (waits_insert _ hW')

end Task

end Cert.Proof.KI

end
-- ==== Proof.KI.Launch.lean ====
/-
  The program's run from the tiles' tasks: the SparseCore launch theorem at one vector-subcore call on two SparseCores of
  sixteen tiles. @main re-lays `x` into `a` on the TensorCore (a reshape and a transposition), hands each SparseCore a
  read share of `a` and of `diag` and the rows of the output its tiles own, each sequencer hands each tile its share
  and its rows, the tiles scale (`tile_body`), the rows come back and join to the whole output at the kernel's array
  function, and @main lays it back (the inverse transposition and reshape).
-/
import proofs.«218970_g6992206758257_cont_9to1_m_205_14_alg».proof.Proof.KI.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

-- the kernel's memrefs, spelt as the body table passes them (so that the terms are the printed ones)
local notation "aW" => (Memref.whole Cert.KernelIdeal.main_v1_scv : Memref Cert.KernelIdeal.sig Kind.scVector Space.hbm Cert.KernelIdeal.S8x8192x8x128 EltTy.f32)
local notation "dW" => (Memref.whole Cert.KernelIdeal.main_arg1_scv : Memref Cert.KernelIdeal.sig Kind.scVector Space.hbm Cert.KernelIdeal.S1048576 EltTy.f32)
local notation "oW" => (Memref.whole Cert.KernelIdeal.main_v2_scv : Memref Cert.KernelIdeal.sig Kind.scVector Space.hbm Cert.KernelIdeal.S8x8192x8x128 EltTy.f32)
local notation "xb0" => (Memref.whole Cert.KernelIdeal.cc0_scratch0 : Memref Cert.KernelIdeal.sig Kind.scVector Space.vmem Cert.KernelIdeal.S32x8x128 EltTy.f32)
local notation "xb1" => (Memref.whole Cert.KernelIdeal.cc0_scratch1 : Memref Cert.KernelIdeal.sig Kind.scVector Space.vmem Cert.KernelIdeal.S32x8x128 EltTy.f32)
local notation "dB" => (Memref.whole Cert.KernelIdeal.cc0_scratch2 : Memref Cert.KernelIdeal.sig Kind.scVector Space.vmem Cert.KernelIdeal.S32768 EltTy.f32)

variable (m : (ℓ : Loc nD τ sig) → Buf (Elt F) ℓ) (ρ : Dev nD → PrngReg)

/-- @main's result, as a location of device `d`. -/
abbrev rLoc (d : Dev nD) : Loc nD τ sig := (SparseCore.T d).loc main_v4

/-- The re-laid input as @main's first two operations leave it. -/
def Aof (d : Dev nD) : Buf (Elt F) (aLoc d) :=
  transpose S8x8192x8x128 [2, 0, 3, 1] (shapeCast S8192x128x8x8 (m (xLoc d)) shapeCasts_S1048576x64_S8192x128x8x8)
    transposes_S8192x128x8x8_S8x8192x8x128_2_0_3_1

/-- What @main leaves in its result: the kernel's array function of the re-laid input and `diag`, laid back. -/
def kernelOut (d : Dev nD) : Buf (Elt F) (rLoc d) :=
  shapeCast S1048576x64
    (transpose S8192x128x8x8 [1, 3, 0, 2] (Cert.Proof.Spec.Gk (F := F) (Aof m d) (m (dLoc d))) transposes_S8x8192x8x128_S8192x128x8x8_1_3_0_2)
    shapeCasts_S8192x128x8x8_S1048576x64

/-- The run's post: the result, and the two arguments unchanged. -/
def QC : PUnit × MemSt nD τ sig (Elt F) → Prop := fun r => ∀ c : Dev nD,
  r.2.mem (rLoc c) = kernelOut m c
    ∧ r.2.mem (xLoc c) = m (xLoc c) ∧ r.2.mem (dLoc c) = m (dLoc c)

/-! ## Read shares, and the rows of the output by SparseCore and by tile -/

/-- SparseCore `c`'s read share of an array (a token of the full share), and tile `(c, i)`'s share of that. -/
abbrev cShare (c : ℕ) : PosShare TreeShare := Transfers.shareTokN fullShare c
abbrev tShare (c i : ℕ) : PosShare TreeShare := Transfers.shareTokN (cShare c) i

/-- The rows SparseCore `c`'s tiles own: tile `i` of SparseCore `c` has number `2 i + c`. -/
def coreSet (c : ℕ) : Finset S8x8192x8x128.Idx := (Finset.univ : Finset (Fin 16)).biUnion fun i => slabSet (2 * i.val + c)

/-- Two different tiles' rows are disjoint. -/
theorem slab_disjoint {w w' : ℕ} (h : w ≠ w') : Disjoint (slabSet w) (slabSet w') := by
  rw [Finset.disjoint_left]
  intro x hx hx'
  simp only [slabSet, Finset.mem_filter, Finset.mem_univ, true_and] at hx hx'
  omega

theorem tiles_disjoint (c : ℕ) : ∀ i ∈ (Finset.univ : Finset (Fin 16)), ∀ j ∈ (Finset.univ : Finset (Fin 16)), i ≠ j →
    Disjoint (slabSet (2 * i.val + c)) (slabSet (2 * j.val + c)) :=
  fun i _ j _ h => slab_disjoint fun e => h (Fin.ext (by omega))

/-- The two SparseCores' rows are disjoint: a tile's number has its SparseCore's parity. -/
theorem cores_disjoint : ∀ c ∈ (Finset.univ : Finset (Fin 2)), ∀ c' ∈ (Finset.univ : Finset (Fin 2)), c ≠ c' →
    Disjoint (coreSet c.val) (coreSet c'.val) := by
  intro c _ c' _ h
  have hc : c.val < 2 := c.isLt
  have hc' : c'.val < 2 := c'.isLt
  have hne : c.val ≠ c'.val := fun e => h (Fin.ext e)
  rw [Finset.disjoint_left]
  intro x hx hx'
  obtain ⟨i, -, hi⟩ := Finset.mem_biUnion.mp hx
  obtain ⟨j, -, hj⟩ := Finset.mem_biUnion.mp hx'
  simp only [slabSet, Finset.mem_filter, Finset.mem_univ, true_and] at hi hj
  omega

/-- Every row is some tile's: row `j` is tile `j / 256`'s, on SparseCore `(j / 256) % 2`. -/
theorem cores_cover : (Finset.univ : Finset (Fin 2)).biUnion (fun c => coreSet c.val) = Finset.univ := by
  ext x
  have h1 : (x 1).val < 8192 := (x 1).isLt
  simp only [Finset.mem_biUnion, Finset.mem_univ, true_and, iff_true, coreSet, slabSet, Finset.mem_filter]
  refine ⟨⟨((x 1).val / 256) % 2, Nat.mod_lt _ (by decide)⟩, ⟨((x 1).val / 256) / 2, by omega⟩, ?_, ?_⟩
  · show 256 * (2 * (((x 1).val / 256) / 2) + ((x 1).val / 256) % 2) ≤ (x 1).val
    omega
  · show (x 1).val < 256 * (2 * (((x 1).val / 256) / 2) + ((x 1).val / 256) % 2) + 256
    omega

/-- The output whole is the two SparseCores' rows; -/
theorem oPts_cores (d : Dev nD) (f : Buf (Elt F) (oLoc d)) :
    (oLoc d ↦{fullShare} f : sProp (MM F)) = bigSep Finset.univ fun c : Fin 2 => oLoc d ↦[coreSet c.val]{fullShare} f := by
  rw [← pointsTo_biUnion Finset.univ (ℓ := oLoc d) (fun c : Fin 2 => coreSet c.val) cores_disjoint, cores_cover]; try rfl

/-- a SparseCore's rows are its sixteen tiles'. -/
theorem oPts_tiles (d : Dev nD) (c : ℕ) (f : Buf (Elt F) (oLoc d)) :
    (oLoc d ↦[coreSet c]{fullShare} f : sProp (MM F)) = bigSep Finset.univ fun i : Fin 16 => oLoc d ↦[slabSet (2 * i.val + c)]{fullShare} f := by
  unfold coreSet
  rw [pointsTo_biUnion Finset.univ (ℓ := oLoc d) (fun i : Fin 16 => slabSet (2 * i.val + c)) (tiles_disjoint c)]

/-! ## What the handshakes carry -/

/-- The kernel's result array, whole: its array function of the re-laid input and `diag`. -/
abbrev Gof (d : Dev nD) : Buf (Elt F) (oLoc d) := Cert.Proof.Spec.Gk (F := F) (Aof m d) (m (dLoc d))

/-- The call hands SparseCore `c` a read share of `a` and of `diag` and its tiles' rows of the output; tile `(c, i)` a
    share of that share and its own rows. Back come the shares of `diag` and the rows at the kernel's array function. -/
def P : (K (F := F)).Pay (nD := nD) (Val := Elt F) (Name := ℕ) (U := UU) where
  st := fun q d c => match q with
    | 0 => iprop((aLoc d ↦{cShare c.val} Aof m d) ∗ (dLoc d ↦{cShare c.val} m (dLoc d)) ∗ (oLoc d ↦[coreSet c.val]{fullShare} m (oLoc d)))
  dn := fun q d c => match q with
    | 0 => iprop((dLoc d ↦{cShare c.val} m (dLoc d)) ∗ (oLoc d ↦[coreSet c.val]{fullShare} Gof m d))
  go := fun q d c i => match q with
    | 0 => tileGo d (coordsV ⟨c.val, c.isLt⟩ ⟨i.val, i.isLt⟩) (tShare c.val i.val) (Aof m d) (m (dLoc d)) (m (oLoc d))
  td := fun q d c i => match q with
    | 0 => tileTd d (coordsV ⟨c.val, c.isLt⟩ ⟨i.val, i.isLt⟩) (tShare c.val i.val) (Aof m d) (m (dLoc d))
  x := fun _ _ => iprop(emp)

instance P_storable : (P (F := F) m).IsStorable where
  st q d c := match q with
    | 0 => (inferInstance : BI.Storable (upEmb : UEmb _ (MM F))
        iprop((aLoc d ↦{cShare c.val} Aof m d) ∗ (dLoc d ↦{cShare c.val} m (dLoc d)) ∗ (oLoc d ↦[coreSet c.val]{fullShare} m (oLoc d))))
  dn q d c := match q with
    | 0 => (inferInstance : BI.Storable (upEmb : UEmb _ (MM F))
        iprop((dLoc d ↦{cShare c.val} m (dLoc d)) ∗ (oLoc d ↦[coreSet c.val]{fullShare} Gof m d)))
  go q d c i := match q with
    | 0 => by
      show BI.Storable (upEmb : UEmb _ (MM F)) (tileGo d (coordsV ⟨c.val, c.isLt⟩ ⟨i.val, i.isLt⟩) (tShare c.val i.val) (Aof m d) (m (dLoc d)) (m (oLoc d)))
      unfold tileGo; infer_instance
  td q d c i := match q with
    | 0 => by
      show BI.Storable (upEmb : UEmb _ (MM F)) (tileTd d (coordsV ⟨c.val, c.isLt⟩ ⟨i.val, i.isLt⟩) (tShare c.val i.val) (Aof m d) (m (dLoc d)))
      unfold tileTd; infer_instance

/-! ## A SparseCore's operands split among its tiles, and their results gathered -/

theorem vecSplit : (K (F := F)).VecSplit' (P m) 0 := by
  intro d c
  show iprop((aLoc d ↦{cShare c.val} Aof m d) ∗ (dLoc d ↦{cShare c.val} m (dLoc d)) ∗ (oLoc d ↦[coreSet c.val]{fullShare} m (oLoc d)))
    ⊢ |={Set.univ}=> iprop(
      (bigSep Finset.univ fun i : Fin 16 =>
        iprop((aLoc d ↦{tShare c.val i.val} Aof m d) ∗ (dLoc d ↦{tShare c.val i.val} m (dLoc d))
          ∗ (oLoc d ↦[slabSet (2 * i.val + c.val)]{fullShare} m (oLoc d))))
      ∗ ((bigSep Finset.univ fun i : Fin 16 =>
          iprop((dLoc d ↦{tShare c.val i.val} m (dLoc d)) ∗ (oLoc d ↦[slabSet (2 * i.val + c.val)]{fullShare} Gof m d)))
          -∗ iprop((dLoc d ↦{cShare c.val} m (dLoc d)) ∗ (oLoc d ↦[coreSet c.val]{fullShare} Gof m d))))
  rw [bigSep_sep', bigSep_sep', bigSep_sep', oPts_tiles, oPts_tiles]
  iintro ⟨Ha, Hd, Ho⟩
  -- the shares of `a` and of `diag`: one token per tile; `diag`'s remainder waits for the tokens' return
  ihave Ha' := (Transfers.pointsTo_toks_split (cShare c.val) 16) $$ Ha
  icases Ha' with ⟨-, Has⟩
  ihave Hd' := (Transfers.pointsTo_toks_split (cShare c.val) 16) $$ Hd
  icases Hd' with ⟨Hdr, Hds⟩
  imodintro
  isplitl [Has Hds Ho]
  · isplitl [Has]; · iexact Has
    isplitl [Hds]; · iexact Hds
    iexact Ho
  iintro ⟨Hds, Ho⟩
  isplitl [Hdr Hds]
  · iapply (Transfers.pointsTo_toks_join (cShare c.val) 16)
    isplitl [Hdr]; · iexact Hdr
    iexact Hds
  iexact Ho

/-! ## The tiles' obligation -/

theorem defs₀_vector (c : Fin τ.nSC) (s : Fin τ.nSub) :
    defs₀ (F := F) (.scVector c s) 0 ()
      = SparseCore.onTile hcore0 hsub0 (fun c s => cc0__sc_scale (coordsV c s)
          aW (Memref.isWhole_whole _) dW (Memref.isWhole_whole _) oW (Memref.isWhole_whole _)
          xb0 (Memref.isWhole_whole _) xb1 (Memref.isWhole_whole _) dB (Memref.isWhole_whole _)
          cc0_scratch3 cc0_scratch4 cc0_scratch5 cc0_scratch6 cc0_scoped0) ⟨⟩ c s := rfl

omit [FloatOps F] in
/-- A task that recorded waits at no index has recorded them at no index or the call's. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coordsV ⟨_, hc.1⟩ ⟨_, hc.2⟩) (tShare c.val i.val) (Aof m d) (m (dLoc d)) (m (oLoc d)) O W hO).trans
    (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## @main on the TensorCore -/

abbrev x' : DevRef τ sig := Proc.devRef .tc (main_arg0 : Ref sig .tc)
abbrev g' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- @main's four host operations: the re-laying before the call and the laying back after it. -/
abbrev opR1 : HloOp τ sig (Elt F) := StableHlo.reshape main_arg0 main_v0 rfl shapeCasts_S1048576x64_S8192x128x8x8
abbrev opT1 : HloOp τ sig (Elt F) :=
  StableHlo.unary main_v0 main_v1 ((transpose S8x8192x8x128 [2, 0, 3, 1] · transposes_S8192x128x8x8_S8x8192x8x128_2_0_3_1) :
    (⟨S8192x128x8x8, .f32⟩ : BufTy).Contents (Elt F) → (⟨S8x8192x8x128, .f32⟩ : BufTy).Contents (Elt F))
abbrev opT2 : HloOp τ sig (Elt F) :=
  StableHlo.unary main_v2 main_v3 ((transpose S8192x128x8x8 [1, 3, 0, 2] · transposes_S8x8192x8x128_S8192x128x8x8_1_3_0_2) :
    (⟨S8x8192x8x128, .f32⟩ : BufTy).Contents (Elt F) → (⟨S8192x128x8x8, .f32⟩ : BufTy).Contents (Elt F))
abbrev opR2 : HloOp τ sig (Elt F) := StableHlo.reshape main_v3 main_v4 rfl shapeCasts_S8192x128x8x8_S1048576x64

/-- The TensorCore's arrays, all unscoped: the two arguments and the five values of @main. -/
abbrev S7 : Finset (DevRef τ sig) := {x', g', v0', v1', v2', v3', v4'}
/-- The arrays the two operations after the call touch. -/
abbrev S3 : Finset (DevRef τ sig) := {v2', v3', v4'}

omit [FloatOps F] in
theorem held_S7 (d : Dev nD) (W : Valuation τ sig (Elt F)) :
    (held (T d) S7 W : sProp (MM F)) = iprop((xLoc d ↦{fullShare} W x') ∗ (dLoc d ↦{fullShare} W g') ∗ ((SparseCore.T d).loc main_v0 ↦{fullShare} W v0')
      ∗ (aLoc d ↦{fullShare} W v1') ∗ (oLoc d ↦{fullShare} W v2') ∗ ((SparseCore.T d).loc main_v3 ↦{fullShare} W v3') ∗ (rLoc d ↦{fullShare} W v4')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_S3 (d : Dev nD) (W : Valuation τ sig (Elt F)) :
    (held (T d) S3 W : sProp (MM F)) = iprop((oLoc d ↦{fullShare} W v2') ∗ ((SparseCore.T d).loc main_v3 ↦{fullShare} W v3') ∗ (rLoc d ↦{fullShare} W v4')) := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp (MM F)) = iprop((xLoc d ↦{fullShare} W main_arg0) ∗ (dLoc d ↦{fullShare} W main_arg1) ∗ ((SparseCore.T d).loc main_v0 ↦{fullShare} W main_v0)
      ∗ (aLoc d ↦{fullShare} W main_v1) ∗ (oLoc d ↦{fullShare} W main_v2) ∗ ((SparseCore.T d).loc main_v3 ↦{fullShare} W main_v3) ∗ (rLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; after the re-laying; after the call, with the kernel's output at its array function. -/
def V0 (d : Dev nD) : Valuation τ sig (Elt F) := fun b => m (d, b)
abbrev V2 (d : Dev nD) : Valuation τ sig (Elt F) := (opT1 (F := F)).result ((opR1 (F := F)).result (V0 m d))
def V3 (d : Dev nD) : Valuation τ sig (Elt F) := Function.update (V2 m d) v2' (Gof m d)
abbrev V5 (d : Dev nD) : Valuation τ sig (Elt F) := (opR2 (F := F)).result ((opT2 (F := F)).result (V3 m d))

theorem unscoped_held (d : Dev nD) : (unscopedBufs d (fun b => m ((SparseCore.T d).loc b)) : sProp (MM F)) = held (T d) S7 (V0 m d) := by
  rw [unscopedBufs_eq, held_S7]; rfl

theorem V2_x (d : Dev nD) : (opT1 (F := F)).result ((opR1 (F := F)).result (V0 m d)) x' = m (xLoc d) := by
  show (opT1 (F := F)).result _ x' = _
  rw [(opT1 (F := F)).result_of_not_mem _ (b := x') (show x' ∉ ({v1'} : Finset (DevRef τ sig)) by decide),
    (opR1 (F := F)).result_of_not_mem _ (b := x') (show x' ∉ ({v0'} : Finset (DevRef τ sig)) by decide)]
  rfl
theorem V2_g (d : Dev nD) : (opT1 (F := F)).result ((opR1 (F := F)).result (V0 m d)) g' = m (dLoc d) := by
  show (opT1 (F := F)).result _ g' = _
  rw [(opT1 (F := F)).result_of_not_mem _ (b := g') (show g' ∉ ({v1'} : Finset (DevRef τ sig)) by decide),
    (opR1 (F := F)).result_of_not_mem _ (b := g') (show g' ∉ ({v0'} : Finset (DevRef τ sig)) by decide)]
  rfl
theorem V2_o (d : Dev nD) : (opT1 (F := F)).result ((opR1 (F := F)).result (V0 m d)) v2' = m (oLoc d) := by
  show (opT1 (F := F)).result _ v2' = _
  rw [(opT1 (F := F)).result_of_not_mem _ (b := v2') (show v2' ∉ ({v1'} : Finset (DevRef τ sig)) by decide),
    (opR1 (F := F)).result_of_not_mem _ (b := v2') (show v2' ∉ ({v0'} : Finset (DevRef τ sig)) by decide)]
  rfl
/-- After the reshape and the transposition the kernel's input holds the re-laid `x`. -/
theorem V2_a (d : Dev nD) : (opT1 (F := F)).result ((opR1 (F := F)).result (V0 m d)) v1' = Aof m d := by
  show (opT1 (F := F)).result _ v1' = _
  rw [StableHlo.unary_result, StableHlo.reshape_result]
  rfl

theorem V3_o (d : Dev nD) : V3 m d v2' = Gof m d := Function.update_self _ _ _
theorem V3_v3 (d : Dev nD) : V3 m d v3' = V2 m d v3' := Function.update_of_ne (show v3' ≠ v2' by decide) _ _
theorem V3_v4 (d : Dev nD) : V3 m d v4' = V2 m d v4' := Function.update_of_ne (show v4' ≠ v2' by decide) _ _

/-- After the transposition and the reshape @main's result holds the kernel's output laid back. -/
theorem V5_r (d : Dev nD) : (opR2 (F := F)).result ((opT2 (F := F)).result (V3 m d)) v4' = kernelOut m d := by
  show (opR2 (F := F)).result _ v4' = _
  rw [StableHlo.reshape_result, StableHlo.unary_result, V3_o]
  rfl

theorem hR1 : (opR1 (F := F)).bufs ⊆ S7 := show ({x', v0'} : Finset (DevRef τ sig)) ⊆ S7 by decide
theorem hT1 : (opT1 (F := F)).bufs ⊆ S7 := show ({v0', v1'} : Finset (DevRef τ sig)) ⊆ S7 by decide
theorem hT2 : (opT2 (F := F)).bufs ⊆ S3 := show ({v2', v3'} : Finset (DevRef τ sig)) ⊆ S3 by decide
theorem hR2 : (opR2 (F := F)).bufs ⊆ S3 := show ({v3', v4'} : Finset (DevRef τ sig)) ⊆ S3 by decide

/-- The seven arrays after the re-laying: the arguments and the output untouched, `a` at the re-laid `x`. -/
theorem held_V2 (d : Dev nD) :
    (held (T d) S7 ((opT1 (F := F)).result ((opR1 (F := F)).result (V0 m d))) : sProp (MM F))
      = iprop((xLoc d ↦{fullShare} m (xLoc d)) ∗ (dLoc d ↦{fullShare} m (dLoc d)) ∗ ((SparseCore.T d).loc main_v0 ↦{fullShare} V2 m d v0')
        ∗ (aLoc d ↦{fullShare} Aof m d) ∗ (oLoc d ↦{fullShare} m (oLoc d)) ∗ ((SparseCore.T d).loc main_v3 ↦{fullShare} V2 m d v3')
        ∗ (rLoc d ↦{fullShare} V2 m d v4')) := by
  rw [held_S7, V2_x, V2_g, V2_a, V2_o]
/-- The three arrays after the call. -/
theorem held_V3 (d : Dev nD) :
    (held (T d) S3 (V3 m d) : sProp (MM F))
      = iprop((oLoc d ↦{fullShare} Gof m d) ∗ ((SparseCore.T d).loc main_v3 ↦{fullShare} V2 m d v3') ∗ (rLoc d ↦{fullShare} V2 m d v4')) := by
  rw [held_S3, V3_o, V3_v3, V3_v4]
/-- The three arrays after the laying back: the result at the kernel's output laid back. -/
theorem held_V5 (d : Dev nD) :
    (held (T d) S3 ((opR2 (F := F)).result ((opT2 (F := F)).result (V3 m d))) : sProp (MM F))
      = iprop((oLoc d ↦{fullShare} V5 m d v2') ∗ ((SparseCore.T d).loc main_v3 ↦{fullShare} V5 m d v3') ∗ (rLoc d ↦{fullShare} kernelOut m d)) := by
  rw [held_S3, V5_r]

/-- An array whole is the two SparseCores' read shares of it and a remainder. -/
theorem share_cores {ℓ : Loc nD τ sig} (f : Buf (Elt F) ℓ) :
    (ℓ ↦{fullShare} f : sProp (MM F)) ⊣⊢ iprop((ℓ ↦{Transfers.shareDrop fullShare 2} f) ∗ (ℓ ↦{cShare 0} f) ∗ (ℓ ↦{cShare 1} f)) := by
  have h := Transfers.pointsTo_toks (Ix := HIx 1) (Name := ℕ) (U := UU) (Lvl := ℕ) (ℓ := ℓ) (S := Finset.univ) (f := f) fullShare 2
  rw [bigSep_univ_two] at h
  exact h

/-- The output whole is the two SparseCores' rows. -/
theorem oPts_two (d : Dev nD) (f : Buf (Elt F) (oLoc d)) :
    (oLoc d ↦{fullShare} f : sProp (MM F)) = iprop((oLoc d ↦[coreSet 0]{fullShare} f) ∗ (oLoc d ↦[coreSet 1]{fullShare} f)) := by
  rw [oPts_cores, bigSep_univ_two]; rfl

/-- What the call takes for the two SparseCores, and what it hands back. -/
theorem st0_eq (d : Dev nD) : (bigSep Finset.univ fun c : Fin ((K (F := F)).nCore 0) => (P m).st 0 d c)
    = iprop(((aLoc d ↦{cShare 0} Aof m d) ∗ (dLoc d ↦{cShare 0} m (dLoc d)) ∗ (oLoc d ↦[coreSet 0]{fullShare} m (oLoc d)))
        ∗ ((aLoc d ↦{cShare 1} Aof m d) ∗ (dLoc d ↦{cShare 1} m (dLoc d)) ∗ (oLoc d ↦[coreSet 1]{fullShare} m (oLoc d)))) := by
  show (bigSep (Finset.univ : Finset (Fin 2)) fun c =>
    iprop((aLoc d ↦{cShare c.val} Aof m d) ∗ (dLoc d ↦{cShare c.val} m (dLoc d)) ∗ (oLoc d ↦[coreSet c.val]{fullShare} m (oLoc d)))) = _
  rw [bigSep_univ_two]; rfl
theorem dn0_eq (d : Dev nD) : (bigSep Finset.univ fun c : Fin ((K (F := F)).nCore 0) => (P m).dn 0 d c)
    = iprop(((dLoc d ↦{cShare 0} m (dLoc d)) ∗ (oLoc d ↦[coreSet 0]{fullShare} Gof m d))
        ∗ ((dLoc d ↦{cShare 1} m (dLoc d)) ∗ (oLoc d ↦[coreSet 1]{fullShare} Gof m d))) := by
  show (bigSep (Finset.univ : Finset (Fin 2)) fun c =>
    iprop((dLoc d ↦{cShare c.val} m (dLoc d)) ∗ (oLoc d ↦[coreSet c.val]{fullShare} Gof m d))) = _
  rw [bigSep_univ_two]; rfl

/-- What @main leaves the claim: the two arguments at their launch contents, the result at the kernel's output laid back. -/
abbrev FIN (d : Dev nD) : sProp (MM F) :=
  iprop((xLoc d ↦{fullShare} m (xLoc d)) ∗ (dLoc d ↦{fullShare} m (dLoc d)) ∗ (rLoc d ↦{fullShare} kernelOut m d))

/-- @main on device `d`'s TensorCore: the reshape and the transposition (`a` at the re-laid `x`), the call (each
    SparseCore a read share of `a` and of `diag` and its rows of the output; `diag` and the output back), the
    transposition and the reshape (the result at the kernel's output laid back); `x` and `diag` kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, then the transposition, over the seven arrays
  iapply (wp_hlo_within 𝒱 (SparseCore.T d) none Set.univ (op := opR1) (S := S7) hR1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opT1) (S := S7) hT1 (V := (opR1 (F := F)).result (V0 m d))) $$ [Hb Hheld]
  · isplitl [Hb]; · iexact Hb
    iexact Hheld
  iintro ⟨Hb, Hheld⟩
  rw [wp_ret]; imodintro
  ihave Hh := (Entails.of_eq (held_V2 m d)) $$ Hheld
  icases Hh with ⟨Hx, Hg, -, Ha, Ho, Hv3, Hv4⟩
  -- the shares and the rows for the two SparseCores
  ihave Ha' := (share_cores (F := F) (Aof m d)).1 $$ Ha
  icases Ha' with ⟨-, Ha0, Ha1⟩
  ihave Hg' := (share_cores (F := F) (m (dLoc d))).1 $$ Hg
  icases Hg' with ⟨Hgr, Hg0, Hg1⟩
  ihave Ho' := (Entails.of_eq (oPts_two (F := F) d (m (oLoc d)))) $$ Ho
  icases Ho' with ⟨Ho0, Ho1⟩
  -- the call
  iapply ((K (F := F)).wp_run (D (F := F)) 𝒱 (EH := EH) (P := P m) κ d 0) $$ [Hst Ha0 Ha1 Hg0 Hg1 Ho0 Ho1 Hgr Hx Hb Hv3 Hv4]
  isplitr; · iexact Hctx
  isplitl [Hst]; · iexact Hst
  isplitl [Ha0 Ha1 Hg0 Hg1 Ho0 Ho1]
  · rw [st0_eq]
    isplitl [Ha0 Hg0 Ho0]
    · isplitl [Ha0]; · iexact Ha0
      isplitl [Hg0]; · iexact Hg0
      iexact Ho0
    · isplitl [Ha1]; · iexact Ha1
      isplitl [Hg1]; · iexact Hg1
      iexact Ho1
  iintro ⟨Hst, Hdn⟩
  ihave Hdn' := (Entails.of_eq (dn0_eq m d)) $$ Hdn
  icases Hdn' with ⟨⟨Hg0, Ho0⟩, ⟨Hg1, Ho1⟩⟩
  -- `diag` whole again, the output whole at the kernel's array function
  ihave Hg := (share_cores (F := F) (m (dLoc d))).2 $$ [Hgr Hg0 Hg1]
  · isplitl [Hgr]; · iexact Hgr
    isplitl [Hg0]; · iexact Hg0
    iexact Hg1
  ihave Ho := (Entails.of_eq (oPts_two (F := F) d (Gof m d)).symm) $$ [Ho0 Ho1]
  · isplitl [Ho0]; · iexact Ho0
    iexact Ho1
  -- the transposition, then the reshape, over the output and the two values after it
  iapply (wp_hlo_within 𝒱 (SparseCore.T d) none Set.univ (op := opT2) (S := S3) hT2 (V := V3 m d)) $$ [Hb Ho Hv3 Hv4]
  · isplitl [Hb]; · iexact Hb
    rw [held_V3]
    isplitl [Ho]; · iexact Ho
    isplitl [Hv3]; · iexact Hv3
    iexact Hv4
  iintro ⟨Hb, Hheld⟩
  rw [wp_ret]; imodintro
  iapply (wp_hlo_within 𝒱 (SparseCore.T d) none Set.univ (op := opR2) (S := S3) hR2 (V := (opT2 (F := F)).result (V3 m d))) $$ [Hb Hheld]
  · isplitl [Hb]; · iexact Hb
    iexact Hheld
  iintro ⟨Hb, Hheld⟩
  ihave Hh := (Entails.of_eq (held_V5 m d)) $$ Hheld
  icases Hh with ⟨-, -, Hr⟩
  rw [wp_ret]; imodintro; imodintro
  isplitl [Hst]; · iexact Hst
  isplitl [Hx]; · iexact Hx
  isplitl [Hg]; · iexact Hg
  iexact Hr

/-- What the final memory holds, read off @main's final assertion. -/
def fq (d : Dev nD) (s' : Phys nD τ sig (Elt F)) : Prop :=
  s'.mem.mem (rLoc d) = kernelOut m d ∧ s'.mem.mem (xLoc d) = m (xLoc d) ∧ s'.mem.mem (dLoc d) = m (dLoc d)

theorem hfin (d : Dev nD) (s' : Phys nD τ sig (Elt F)) : iprop(FIN m d ∗ SI s') ⊢ (⌜fq m d s'⌝ : sProp (MM F)) := by
  iintro ⟨⟨Hx, Hg, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := dLoc d) (I := Finset.univ) (q := fullShare) (f := m (dLoc d)))) $$ [HSI Hg]
  · isplitl [HSI] <;> iassumption
  icases H with ⟨%h2, HSI, -⟩
  ihave H := (SI_pointsTo_agree (st := s') (ℓ := rLoc d) (I := Finset.univ) (q := fullShare) (f := kernelOut m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair execution of the device's threads terminates, nothing faulting, with the result at `kernelOut` and
    the arguments unchanged. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KB.Common.lean ====
/-
  The vocabulary every module of the idealized kernel's run shares: the program as the SparseCore launch theorem
  reads it (one vector-subcore call on 2 SparseCores × 16 tiles), the resource algebra (the handshakes' rounds beside
  the transfers' counters: every transfer of this kernel is local to its tile and waited for by the tile itself),
  and the arrays and scratch buffers as a tile's body addresses them.

  The kernel: tile (c, s) has number w = 2 s + c and owns rows j ∈ [256 w, 256 w + 256) of the re-laid input
  a[i, j, s', l] (i < 8, s' < 8, l < 128); it copies diag[128 · 256 w .. +32768) into its scratch, then moves the 64
  chunks (i, jc) — 32 rows j each — through two scratch buffers, scaling element (t, s', l) of a chunk by
  diag[128 (256 w + 32 jc + t) + l], and writes each chunk to the same place of the output.
-/
import proofs.«218970_g6992206758257_cont_9to1_m_205_14_alg».proof.Defs
import Idealize.ShloMosaic.Lib.SparseCore.Launch
import Idealize.ShloMosaic.Lib.StableHlo.Run
import Idealize.ShloMosaic.Lib.Pipeline.Kit
import Idealize.ShloMosaic.Lib.Tactic
import proofs.«218970_g6992206758257_cont_9to1_m_205_14_alg».proof.Proof.Gen.Kernel
import proofs.«218970_g6992206758257_cont_9to1_m_205_14_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

/-- The machine's algebra at this program. -/
abbrev MM (F : FTy → Type) : Type := MT nD τ sig (HIx 1) (Elt F) ℕ UU ℕ

abbrev EH : Emb UH (MM F) := embL

/-! ## Locations and threads -/

/-- The re-laid input `a`, `diag` and the kernel's output `o`, as locations of device `d`. -/
abbrev aLoc (d : Dev nD) : Loc nD τ sig := (SparseCore.T d).loc main_v1
abbrev dLoc (d : Dev nD) : Loc nD τ sig := (SparseCore.T d).loc main_arg1
abbrev oLoc (d : Dev nD) : Loc nD τ sig := (SparseCore.T d).loc main_v2
abbrev xLoc (d : Dev nD) : Loc nD τ sig := (SparseCore.T d).loc main_arg0

/-- The tile at grid coordinates `L` = (SparseCore, vector subcore). -/
abbrev cV (L : grid0.Coords) : Fin τ.nSC := (L 0).castLE hcore0
abbrev jV (L : grid0.Coords) : Fin τ.nSub := (L 1).castLE hsub0
abbrev tileThr (d : Dev nD) (L : grid0.Coords) : Thread nD τ := V d (cV L) (jV L)

def coordsV (c : Fin (grid0.bound 0)) (s : Fin (grid0.bound 1)) : grid0.Coords :=
  fun | 0 => c | 1 => s | ⟨_ + 2, h⟩ => absurd h (Nat.not_lt.2 (Nat.le_add_left _ _))

/-- The tile's number: it owns rows `256 w ≤ j < 256 w + 256`. -/
def wid (L : grid0.Coords) : ℕ := 2 * (L 1).val + (L 0).val
theorem wid_lt (L : grid0.Coords) : wid L < 32 := by
  have h0 : (L 0).val < 2 := (L 0).isLt
  have h1 : (L 1).val < 16 := (L 1).isLt
  unfold wid; omega

end Cert.Proof.KB

end
-- ==== Proof.KB.Chunk.lean ====
/-
  One chunk's scaling: the 32-trip loop over the rows `t` of a scratch buffer holding a chunk `(32, 8, 128)`, each
  trip multiplying row `t`, all 8 sublanes `s`, lane `l`, by the tile's copy of the diagonal at
  `128 (32 jc + t) + l` — `jc` the chunk's number along the tile's rows.
-/
import proofs.«218970_g6992206758257_cont_9to1_m_205_14_alg».proof.Proof.KB.Common
import Idealize.ShloMosaic.Lib.ValueIdx
import Idealize.ShloMosaic.Lib.Writes
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.Kernel.main_v1_scv : Memref Cert.Kernel.sig Kind.scVector Space.hbm Cert.Kernel.S8x8192x8x128 EltTy.f32)
local notation "dW" => (Memref.whole Cert.Kernel.main_arg1_scv : Memref Cert.Kernel.sig Kind.scVector Space.hbm Cert.Kernel.S1048576 EltTy.f32)
local notation "oW" => (Memref.whole Cert.Kernel.main_v2_scv : Memref Cert.Kernel.sig Kind.scVector Space.hbm Cert.Kernel.S8x8192x8x128 EltTy.f32)
local notation "xb0" => (Memref.whole Cert.Kernel.cc0_scratch0 : Memref Cert.Kernel.sig Kind.scVector Space.vmem Cert.Kernel.S32x8x128 EltTy.f32)
local notation "xb1" => (Memref.whole Cert.Kernel.cc0_scratch1 : Memref Cert.Kernel.sig Kind.scVector Space.vmem Cert.Kernel.S32x8x128 EltTy.f32)
local notation "dB" => (Memref.whole Cert.Kernel.cc0_scratch2 : Memref Cert.Kernel.sig Kind.scVector Space.vmem Cert.Kernel.S32768 EltTy.f32)

/-- The chunk `f` with its rows `t' < t` scaled: element `(t', s, l)` by `db[128 (32 jc + t') + l]`. -/
def rowsDone (f : Vec F S32x8x128 .f32) (db : Vec F S32768 .f32) (jc t : ℕ) : Vec F S32x8x128 .f32 :=
  fun y => if (y 0).val < t then
      FloatOps.mulf (f y) (db (ValueIdx.ix1 ⟨(128 * (32 * jc + (y 0).val) + (y 2).val) % 32768, Nat.mod_lt _ (by decide)⟩))
    else f y

theorem rowsDone_zero (f : Vec F S32x8x128 .f32) (db : Vec F S32768 .f32) (jc : ℕ) : rowsDone f db jc 0 = f := by
  funext y; simp [rowsDone]

namespace Chunk

/-- The offset of the diagonal's piece the first buffer's loop loads for lane group `r`, in closed form:
    `128 (32 jc + t) + 16 r` with `jc = 2 k % 8`. -/
theorem k0_off4_closed : ∀ (k : Fin k0_t1_loop.trips) (t : Fin k0_t2_loop.trips) (r : Fin 8),
    k0_off4 k t (BitVec.ofNat 32 (16 * r.val)) = ![128 * (32 * (2 * k.val % 8) + t.val) + 16 * r.val] := by decide +kernel

/-- The same for the second buffer's loop: `jc = 2 k % 8 + 1`. -/
theorem k0_off71_closed : ∀ (k : Fin k0_t1_loop.trips) (t : Fin k0_t3_loop.trips) (r : Fin 8),
    k0_off71 k t (BitVec.ofNat 32 (16 * r.val)) = ![128 * (32 * (2 * k.val % 8 + 1) + t.val) + 16 * r.val] := by decide +kernel

/-- The same offsets over the lane `c = 16 r` itself. -/
theorem k0_off4_c (k : Fin k0_t1_loop.trips) (t : Fin k0_t2_loop.trips) (c : ℕ) (hc : c < 128) (h16 : c % 16 = 0) :
    k0_off4 k t (BitVec.ofNat 32 c) = ![128 * (32 * (2 * k.val % 8) + t.val) + c] := by
  have h := k0_off4_closed k t ⟨c / 16, by omega⟩
  have e : 16 * (c / 16) = c := by omega
  rw [show ((⟨c / 16, by omega⟩ : Fin 8)).val = c / 16 from rfl, e] at h
  exact h

/-- And for the second buffer's loop. -/
theorem k0_off71_c (k : Fin k0_t1_loop.trips) (t : Fin k0_t3_loop.trips) (c : ℕ) (hc : c < 128) (h16 : c % 16 = 0) :
    k0_off71 k t (BitVec.ofNat 32 c) = ![128 * (32 * (2 * k.val % 8 + 1) + t.val) + c] := by
  have h := k0_off71_closed k t ⟨c / 16, by omega⟩
  have e : 16 * (c / 16) = c := by omega
  rw [show ((⟨c / 16, by omega⟩ : Fin 8)).val = c / 16 from rfl, e] at h
  exact h

/-- Such a box lies in the chunk. -/
theorem rowRect_inb (t : ℕ) (ht : t < 32) (i : Fin 64) :
    ∀ a, (![t, (63 - i.val) % 8, 16 * ((63 - i.val) / 8)] : Fin 3 → ℕ) a + S1x1x16.size a ≤ S32x8x128.size a := by
  intro a
  have hi := i.isLt
  fin_cases a
  · show t + 1 ≤ 32; omega
  · show (63 - i.val) % 8 + 1 ≤ 8; omega
  · show 16 * ((63 - i.val) / 8) + 16 ≤ 128; omega

/-- Box number `i` of row `t`, counted from the last: sublane `(63 - i) % 8`, lanes `16 ((63 - i) / 8) .. + 16`. -/
def rowRect (t : ℕ) (ht : t < 32) (i : Fin 64) : Rect S32x8x128 :=
  Rect.unit ![t, (63 - i.val) % 8, 16 * ((63 - i.val) / 8)] S1x1x16.size (rowRect_inb t ht i)

/-- Stores that fill row `t` box by box with one function `G`, which is the old contents off row `t`, leave `G`. -/
theorem read_writes_row {Val : EltTy → Type} {sig : RefSig} {κ : Kind} {sp : Space} (v : View sig κ sp S32x8x128 .f32) (g : v.ty.Contents Val)
    (G : S32x8x128.Idx → Val .f32) (t : ℕ) (ht : t < 32) (L : List (View.Piece Val S32x8x128 .f32))
    (hmap : L.map Sigma.fst = (List.finRange 64).map (rowRect t ht))
    (hG : ∀ p ∈ L, ∀ x, p.2 x = G (p.1.emb x))
    (hout : ∀ y : S32x8x128.Idx, (y 0).val ≠ t → G y = v.read Val g y) :
    v.read Val (v.writes Val g L) = G := by
  funext y
  by_cases hy : (y 0).val = t
  · have h1 : (y 1).val < 8 := (y 1).isLt
    have h2 : (y 2).val < 128 := (y 2).isLt
    have hi : rowRect t ht ⟨63 - (8 * ((y 2).val / 16) + (y 1).val), by omega⟩ ∈ L.map Sigma.fst := by
      rw [hmap]; exact List.mem_map_of_mem (List.mem_finRange _)
    obtain ⟨p, hp, hpi⟩ := List.mem_map.mp hi
    refine View.read_writes_apply_of_pieces v g G L hG y ⟨p, hp, ?_⟩
    rw [hpi]; unfold rowRect; rw [Rect.mem_set_unit]
    intro a
    fin_cases a
    · show t ≤ (y 0).val ∧ (y 0).val < t + 1; omega
    · show (63 - (63 - (8 * ((y 2).val / 16) + (y 1).val))) % 8 ≤ (y 1).val ∧ (y 1).val < (63 - (63 - (8 * ((y 2).val / 16) + (y 1).val))) % 8 + 1; omega
    · show 16 * ((63 - (63 - (8 * ((y 2).val / 16) + (y 1).val))) / 8) ≤ (y 2).val ∧ (y 2).val < 16 * ((63 - (63 - (8 * ((y 2).val / 16) + (y 1).val))) / 8) + 16; omega
  · rw [View.read_writes_apply_of_forall_not_mem v g y L ?_, hout y hy]
    intro p hp hmem
    have hm : p.1 ∈ L.map Sigma.fst := List.mem_map_of_mem hp
    rw [hmap] at hm
    obtain ⟨i, -, hi⟩ := List.mem_map.mp hm
    rw [← hi] at hmem; unfold rowRect at hmem; rw [Rect.mem_set_unit] at hmem
    have h0 := hmem 0
    have h0' : t ≤ (y 0).val ∧ (y 0).val < t + 1 := h0
    omega

/-- A rank-1 index of the diagonal's copy from its position. -/
abbrev dIx (n : ℕ) : S32768.Idx := ValueIdx.ix1 ⟨n % 32768, Nat.mod_lt _ (by decide)⟩

/-- One stored value at an index: the loaded sublane piece times the loaded diagonal piece, lane by lane
    (the casts between `16` and `1 × 1 × 16` keep the lane). -/
theorem pay_apply (a : S1x1x16.Idx → F .f32) (b : S16.Idx → F .f32) (h1 : S1x1x16.ShapeCasts S16) (h2 : S16.ShapeCasts S1x1x16)
    (h3 : S16.ShapeCasts S16) (x : S1x1x16.Idx) :
    shapeCast S1x1x16 (mulf (shapeCast S16 a h1) (shapeCast S16 b h3)) h2 x
      = FloatOps.mulf (a x) (b (ValueIdx.ix1 (n := 16) (x 2))) := by
  have x0 : (x 0).val < 1 := (x 0).isLt
  have x1 : (x 1).val < 1 := (x 1).isLt
  have e : ∀ c : S16.Idx → F .f32, shapeCast S1x1x16 c h2 x = c (ValueIdx.ix1 (n := 16) (x 2)) := fun c =>
    shapeCast_apply c h2 x _ (by
      rw [Shape.rowMajor_val_one, Shape.rowMajor_val_three]
      show (x 2).val = ((x 0).val * 1 + (x 1).val) * 16 + (x 2).val
      omega)
  rw [e]
  show FloatOps.mulf (shapeCast S16 a h1 _) (shapeCast S16 b h3 _) = _
  rw [shapeCast_self, shapeCast_apply a h1 _ x (by
      rw [Shape.rowMajor_val_one, Shape.rowMajor_val_three]
      show ((x 0).val * 1 + (x 1).val) * 16 + (x 2).val = (x 2).val
      omega)]

/-- The value a trip stores at one box of row `t` — sublane `s`, lanes `c .. c + 16` — is the scaled row there: the box's old
    contents (row `t` not yet scaled) times the diagonal's copy at `128 (32 jc + t) + c ..`. -/
theorem piece_ok {sig : RefSig} {κ κd : Kind} {sp spd : Space} (v : View sig κ sp S32x8x128 .f32) (g0 : v.ty.Contents (Elt F))
    (vd : View sig κd spd S32768 .f32) (d0 : vd.ty.Contents (Elt F))
    (f : Vec F S32x8x128 .f32) (db : Vec F S32768 .f32) (jc t s c : ℕ) (hjc : jc < 8) (ht : t < 32) (hc : c + 16 ≤ 128)
    (hread : v.read (Elt F) g0 = rowsDone f db jc t) (hdread : vd.read (Elt F) d0 = db)
    (off : Fin 3 → ℕ) (inb₀ : ∀ a, off a + S1x1x16.size a ≤ S32x8x128.size a) (hoff : off = ![t, s, c])
    (offd : Fin 1 → ℕ) (inbd : ∀ a, offd a + S16.size a ≤ S32768.size a) (hoffd : offd = ![128 * (32 * jc + t) + c])
    (h1 : S1x1x16.ShapeCasts S16) (h2 : S16.ShapeCasts S1x1x16) (h3 : S16.ShapeCasts S16)
    (x : S1x1x16.Idx) :
    shapeCast S1x1x16 (mulf (shapeCast S16 (View.readAt (Elt F) v (Rect.unit (s := S32x8x128) off S1x1x16.size inb₀).toLoadRect g0 : Vec F S1x1x16 .f32) h1 : FVec F S16 .f32)
        (shapeCast S16 (View.readAt (Elt F) vd (Rect.unit (s := S32768) offd S16.size inbd).toLoadRect d0 : Vec F S16 .f32) h3 : FVec F S16 .f32)) h2 x
      = rowsDone f db jc (t + 1) ((Rect.unit (s := S32x8x128) ![t, s, c] S1x1x16.size (fun a => hoff ▸ inb₀ a)).emb x) := by
  subst hoff hoffd
  have inb : ∀ a, (![t, s, c] : Fin 3 → ℕ) a + S1x1x16.size a ≤ S32x8x128.size a := inb₀
  show _ = rowsDone f db jc (t + 1) ((Rect.unit (s := S32x8x128) ![t, s, c] S1x1x16.size inb).emb x)
  rw [pay_apply]
  have x0 : (x 0).val < 1 := (x 0).isLt
  have x2 : (x 2).val < 16 := (x 2).isLt
  rw [View.readAt_apply, View.readAt_apply, hread, hdread]
  have y0 : (((Rect.unit (s := S32x8x128) ![t, s, c] S1x1x16.size inb).emb x) 0).val = t := by
    rw [Rect.emb_apply]; show t + 1 * (x 0).val = t; omega
  have y2 : (((Rect.unit (s := S32x8x128) ![t, s, c] S1x1x16.size inb).emb x) 2).val = c + (x 2).val := by
    rw [Rect.emb_apply]; show c + 1 * (x 2).val = _; omega
  have e : (Rect.unit (s := S32x8x128) ![t, s, c] S1x1x16.size inb₀).toLoadRect.idx x = (Rect.unit (s := S32x8x128) ![t, s, c] S1x1x16.size inb).emb x := rfl
  rw [e]
  unfold rowsDone
  rw [if_neg (by omega), if_pos (by omega)]
  congr 1
  refine congrArg db ?_
  funext a
  refine Fin.ext ?_
  fin_cases a
  show 128 * (32 * jc + t) + c + 1 * (x 2).val = (128 * (32 * jc + (((Rect.unit (s := S32x8x128) ![t, s, c] S1x1x16.size inb).emb x) 0).val) + (((Rect.unit (s := S32x8x128) ![t, s, c] S1x1x16.size inb).emb x) 2).val) % 32768
  rw [y0, y2]
  omega

/-- Off row `t` the chunk with `t + 1` rows scaled is the chunk with `t` rows scaled. -/
theorem rowsDone_succ_of_ne (f : Vec F S32x8x128 .f32) (db : Vec F S32768 .f32) (jc t : ℕ) (y : S32x8x128.Idx) (hy : (y 0).val ≠ t) :
    rowsDone f db jc (t + 1) y = rowsDone f db jc t y := by
  unfold rowsDone
  by_cases h : (y 0).val < t
  · rw [if_pos h, if_pos (by omega)]
  · rw [if_neg h, if_neg (by omega)]

end Chunk

open Chunk

/-- What the first buffer's loop holds before trip `n`: the chunk with `n` rows scaled, the diagonal's copy. -/
def invC0 (d : Dev nD) (L : grid0.Coords) (f : Vec F S32x8x128 .f32) (db : Vec F S32768 .f32) (jc : ℕ) (n : ℕ) (_ : PUnit) : sProp (MM F) :=
  iprop(((xb0).view.loc (tileThr d L) ↦{fullShare} rowsDone f db jc n) ∗ ((dB).view.loc (tileThr d L) ↦{fullShare} db))

/-- The same for the second buffer. -/
def invC1 (d : Dev nD) (L : grid0.Coords) (f : Vec F S32x8x128 .f32) (db : Vec F S32768 .f32) (jc : ℕ) (n : ℕ) (_ : PUnit) : sProp (MM F) :=
  iprop(((xb1).view.loc (tileThr d L) ↦{fullShare} rowsDone f db jc n) ∗ ((dB).view.loc (tileThr d L) ↦{fullShare} db))

set_option sl_exec.closedPieces true in
set_option maxHeartbeats 4000000 in
/-- Trip `t` of the first buffer's loop, in pair `k` of the outer loop (the chunk is number `2 k`: `jc = 2 k % 8`). -/
theorem chunk0_trip (d : Dev nD) (L : grid0.Coords) (f : Vec F S32x8x128 .f32) (db : Vec F S32768 .f32)
    (s3 s4 s5 s6 s0 : DmaSems sig S_) (v2 : BitVec 32) (k : Fin k0_t1_loop.trips) (v18 v28 v36 v37 : BitVec 32) (v51 : BitVec 1)
    (t : Fin k0_t2_loop.trips) (acc : PUnit) :
    invC0 d L f db ((2 * k.val) % 8) t.val acc
      ⊢ wp frame (wpE (defs₀ (F := F)) 𝒱₀ (tileThr d L) none) Set.univ
          (k0_t2_body L aW (Memref.isWhole_whole _) dW (Memref.isWhole_whole _) oW (Memref.isWhole_whole _)
            xb0 (Memref.isWhole_whole _) xb1 (Memref.isWhole_whole _) dB (Memref.isWhole_whole _)
            s3 s4 s5 s6 s0 v2 k v18 v28 v36 v37 v51 t acc)
          (invC0 d L f db ((2 * k.val) % 8) (t.val + 1)) := by
  unfold invC0
  unfold k0_t2_body
  iintro ⟨Hx, Hd⟩
  sl_exec
  sl_step
  isplitl [Hx]
  · istop
    refine Entails.of_eq (congrArg _ ?_)
    have ht : t.val < 32 := Nat.lt_of_lt_of_le t.isLt k0_t2_abs.2.1
    have hk : 2 * k.val % 8 < 8 := Nat.mod_lt _ (by decide)
    have key := read_writes_row (Val := Elt F) (Memref.whole cc0_scratch0).view (rowsDone f db (2 * k.val % 8) t.val)
      (rowsDone f db (2 * k.val % 8) (t.val + 1)) t.val ht
    refine Eq.trans (View.read_whole (Val := Elt F) cc0_scratch0 _).symm ?_
    refine key _ ?_ ?_ ?_
    · rfl
    · repeat' (first | (refine List.forall_mem_cons.2 ⟨?_, ?_⟩) | (exact fun _ h => absurd h List.not_mem_nil))
      all_goals (intro x; exact piece_ok (Memref.whole cc0_scratch0).view _ (Memref.whole cc0_scratch2).view _ f db _ _ _ _ hk ht (by decide) (by rfl) (by rfl) _ _ (by exact ClosedOff.eq) _ _ (by exact k0_off4_c k t _ (by decide) (by decide)) _ _ _ x)
    · intro y hy
      exact rowsDone_succ_of_ne f db _ _ y hy
  · iexact Hd

set_option sl_exec.closedPieces true in
set_option maxHeartbeats 4000000 in
/-- Trip `t` of the second buffer's loop, in pair `k` (the chunk is number `2 k + 1`: `jc = 2 k % 8 + 1`). -/
theorem chunk1_trip (d : Dev nD) (L : grid0.Coords) (f : Vec F S32x8x128 .f32) (db : Vec F S32768 .f32)
    (s3 s4 s5 s6 s0 : DmaSems sig S_) (v2 : BitVec 32) (k : Fin k0_t1_loop.trips) (arg12 v18 v28 v71 : BitVec 32) (v85 : BitVec 1) (v86 v111 : BitVec 32)
    (t : Fin k0_t3_loop.trips) (acc : PUnit) :
    invC1 d L f db ((2 * k.val) % 8 + 1) t.val acc
      ⊢ wp frame (wpE (defs₀ (F := F)) 𝒱₀ (tileThr d L) none) Set.univ
          (k0_t3_body L aW (Memref.isWhole_whole _) dW (Memref.isWhole_whole _) oW (Memref.isWhole_whole _)
            xb0 (Memref.isWhole_whole _) xb1 (Memref.isWhole_whole _) dB (Memref.isWhole_whole _)
            s3 s4 s5 s6 s0 v2 k arg12 v18 v28 v71 v85 v86 v111 t acc)
          (invC1 d L f db ((2 * k.val) % 8 + 1) (t.val + 1)) := by
  unfold invC1
  unfold k0_t3_body
  iintro ⟨Hx, Hd⟩
  sl_exec
  sl_step
  isplitl [Hx]
  · istop
    refine Entails.of_eq (congrArg _ ?_)
    have ht : t.val < 32 := Nat.lt_of_lt_of_le t.isLt k0_t3_abs.2.1
    have hk : 2 * k.val % 8 + 1 < 8 := by omega
    have key := read_writes_row (Val := Elt F) (Memref.whole cc0_scratch1).view (rowsDone f db (2 * k.val % 8 + 1) t.val)
      (rowsDone f db (2 * k.val % 8 + 1) (t.val + 1)) t.val ht
    refine Eq.trans (View.read_whole (Val := Elt F) cc0_scratch1 _).symm ?_
    refine key _ ?_ ?_ ?_
    · rfl
    · repeat' (first | (refine List.forall_mem_cons.2 ⟨?_, ?_⟩) | (exact fun _ h => absurd h List.not_mem_nil))
      all_goals (intro x; exact piece_ok (Memref.whole cc0_scratch1).view _ (Memref.whole cc0_scratch2).view _ f db _ _ _ _ hk ht (by decide) (by rfl) (by rfl) _ _ (by exact ClosedOff.eq) _ _ (by exact k0_off71_c k t _ (by decide) (by decide)) _ _ _ x)
    · intro y hy
      exact rowsDone_succ_of_ne f db _ _ y hy
  · iexact Hd

end Cert.Proof.KB

end
-- ==== Proof.KB.Chunks.lean ====
/-
  The geometry of a tile's chunks. Tile `L` (number `w = wid L`) owns rows `256 w ≤ j < 256 w + 256` of the arrays
  `[8, 8192, 8, 128]`. Its chunk `n < 64` is plane `i = n / 8`, rows `j = 256 w + 32 (n % 8) + t`, `t < 32`, all
  sublanes and lanes: the box at offsets `(n / 8, 256 w + 32 (n % 8), 0, 0)` of sizes `(1, 32, 8, 128)`, squeezed to
  `(32, 8, 128)`. The 64 chunks tile the tile's rows. The tile's piece of the diagonal is the words
  `[32768 w, 32768 w + 32768)`, so that scratch word `128 (32 jc + t) + l` is `diag[128 (256 w + 32 jc + t) + l]`.
-/
import proofs.«218970_g6992206758257_cont_9to1_m_205_14_alg».proof.Proof.KB.Chunk
import proofs.«218970_g6992206758257_cont_9to1_m_205_14_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.Kernel.main_v1_scv : Memref Cert.Kernel.sig Kind.scVector Space.hbm Cert.Kernel.S8x8192x8x128 EltTy.f32)
local notation "dW" => (Memref.whole Cert.Kernel.main_arg1_scv : Memref Cert.Kernel.sig Kind.scVector Space.hbm Cert.Kernel.S1048576 EltTy.f32)
local notation "oW" => (Memref.whole Cert.Kernel.main_v2_scv : Memref Cert.Kernel.sig Kind.scVector Space.hbm Cert.Kernel.S8x8192x8x128 EltTy.f32)
local notation "xb0" => (Memref.whole Cert.Kernel.cc0_scratch0 : Memref Cert.Kernel.sig Kind.scVector Space.vmem Cert.Kernel.S32x8x128 EltTy.f32)
local notation "xb1" => (Memref.whole Cert.Kernel.cc0_scratch1 : Memref Cert.Kernel.sig Kind.scVector Space.vmem Cert.Kernel.S32x8x128 EltTy.f32)
local notation "dB" => (Memref.whole Cert.Kernel.cc0_scratch2 : Memref Cert.Kernel.sig Kind.scVector Space.vmem Cert.Kernel.S32768 EltTy.f32)

/-- Offsets of chunk `n` of tile `L` (total in `n`: read at `n % 64`). -/
def chunkOff (L : grid0.Coords) (n : ℕ) : Fin 4 → ℕ := ![(n % 64) / 8, 256 * wid L + 32 * (n % 8), 0, 0]

theorem chunkOff_inb (L : grid0.Coords) (n : ℕ) : ∀ a, chunkOff L n a + S1x32x8x128.size a ≤ S8x8192x8x128.size a := by
  have hw := wid_lt L
  intro a
  fin_cases a <;> simp [chunkOff] <;> omega

/-- A box `(1, 32, 8, 128)` of an array at given offsets, squeezed, as the kernel slices it. -/
abbrev sl4 (M : Memref sig Kind.scVector Space.hbm S8x8192x8x128 EltTy.f32) (off : Fin 4 → ℕ)
    (h : ∀ a, off a + S1x32x8x128.size a ≤ S8x8192x8x128.size a) : Memref sig Kind.scVector Space.hbm S32x8x128 EltTy.f32 :=
  (M.slice (Rect.unit (s := S8x8192x8x128) off S1x32x8x128.size h) (fun _ => rfl)).squeeze S32x8x128 squeezes_S1x32x8x128_S32x8x128

/-- Chunk `n` of tile `L` of the array `M`. -/
abbrev chunkOf (M : Memref sig Kind.scVector Space.hbm S8x8192x8x128 EltTy.f32) (L : grid0.Coords) (n : ℕ) :
    Memref sig Kind.scVector Space.hbm S32x8x128 EltTy.f32 := sl4 M (chunkOff L n) (chunkOff_inb L n)

/-! ## The program's own slices are these chunks -/

theorem sl4_congr (M : Memref sig Kind.scVector Space.hbm S8x8192x8x128 EltTy.f32) {off off' : Fin 4 → ℕ} (e : off = off')
    (h : ∀ a, off a + S1x32x8x128.size a ≤ S8x8192x8x128.size a) (h' : ∀ a, off' a + S1x32x8x128.size a ≤ S8x8192x8x128.size a) :
    sl4 M off h = sl4 M off' h' := by subst e; rfl

/-- The second guard of a pair's trip: every pair but the last prefetches the chunk after next. -/
-- the guard and the four offset chains, evaluated at every tile and every trip (finitely many closed instances)
theorem cond2_all : ∀ k : Fin k0_t1_loop.trips, k0_cond2 k = 1#1 ↔ k.val < 31 := by decide +kernel
theorem off2_all : ∀ L : grid0.Coords, k0_off2 L = chunkOff L 0 := by decide +kernel
theorem off3_all : ∀ (L : grid0.Coords) (k : Fin k0_t1_loop.trips), k0_off3 L k = chunkOff L (2 * k.val + 1) := by decide +kernel
theorem off69_all : ∀ (L : grid0.Coords) (k : Fin k0_t1_loop.trips), k0_off69 L k = chunkOff L (2 * k.val) := by decide +kernel
theorem off70_all : ∀ (L : grid0.Coords) (k : Fin k0_t1_loop.trips), k.val < 31 → k0_off70 L k = chunkOff L (2 * k.val + 2) := by
  decide +kernel

theorem cond2_iff (k : Fin k0_t1_loop.trips) : k0_cond2 k = 1#1 ↔ k.val < 31 := cond2_all k

theorem off2_eq (L : grid0.Coords) : k0_off2 L = chunkOff L 0 := off2_all L
theorem off3_eq (L : grid0.Coords) (k : Fin k0_t1_loop.trips) : k0_off3 L k = chunkOff L (2 * k.val + 1) := off3_all L k
theorem off69_eq (L : grid0.Coords) (k : Fin k0_t1_loop.trips) : k0_off69 L k = chunkOff L (2 * k.val) := off69_all L k
theorem off70_eq (L : grid0.Coords) (k : Fin k0_t1_loop.trips) (hk : k.val < 31) : k0_off70 L k = chunkOff L (2 * k.val + 2) :=
  off70_all L k hk

/-! ## The tile's rows as 64 chunks -/

/-- The box of chunk `n` of tile `L`. -/
abbrev chunkRect (L : grid0.Coords) (n : ℕ) : Rect S8x8192x8x128 :=
  Rect.unit (s := S8x8192x8x128) (chunkOff L n) S1x32x8x128.size (chunkOff_inb L n)

/-- The elements of a chunk's slice are its box's. -/
theorem set_chunkOf (L : grid0.Coords) (n : ℕ) : (chunkOf oW L n).view.set = (chunkRect L n).set := by
  show (((oW).view.slice (chunkRect L n)).reshape S32x8x128 squeezes_S1x32x8x128_S32x8x128.numel_eq).set = _
  rw [View.set_reshape, View.set_slice]; exact Finset.map_refl

/-- An index is in chunk `n`'s box when its plane is `n / 8` and its row is among the chunk's 32. -/
theorem mem_chunkRect (L : grid0.Coords) (n : ℕ) (i : S8x8192x8x128.Idx) :
    i ∈ (chunkRect L n).set ↔ (i 0).val = (n % 64) / 8 ∧ 256 * wid L + 32 * (n % 8) ≤ (i 1).val ∧ (i 1).val < 256 * wid L + 32 * (n % 8) + 32 := by
  rw [Rect.mem_set_unit]
  have h2 : (i 2).val < 8 := (i 2).isLt
  have h3 : (i 3).val < 128 := (i 3).isLt
  constructor
  · intro h
    have h0 := h 0
    have h1 := h 1
    simp [chunkOff] at h0 h1
    omega
  · rintro ⟨e0, e1, e1'⟩ a
    fin_cases a <;> simp [chunkOff] <;> omega

/-- Rows `256 w ≤ j < 256 w + 256` of an array `[8, 8192, 8, 128]`. -/
def slabSet (w : ℕ) : Finset S8x8192x8x128.Idx := Finset.univ.filter fun i => 256 * w ≤ (i 1).val ∧ (i 1).val < 256 * w + 256

/-- Two different chunks of a tile differ in the plane or in the rows: their boxes are disjoint. -/
theorem chunks_disjoint (L : grid0.Coords) : ∀ n ∈ Finset.range 64, ∀ n' ∈ Finset.range 64, n ≠ n' →
    Disjoint (chunkRect L n).set (chunkRect L n').set := by
  intro n hn n' hn' hne
  rw [Finset.mem_range] at hn hn'
  rw [Finset.disjoint_left]
  intro i hi hi'
  rw [mem_chunkRect] at hi hi'
  omega

/-- The 64 boxes cover the tile's rows: row `j` of plane `i` is in chunk `8 i + (j - 256 w) / 32`. -/
theorem chunks_cover (L : grid0.Coords) : (Finset.range 64).biUnion (fun n => (chunkRect L n).set) = slabSet (wid L) := by
  ext i
  have h0 : (i 0).val < 8 := (i 0).isLt
  simp only [Finset.mem_biUnion, Finset.mem_range, mem_chunkRect, slabSet, Finset.mem_filter, Finset.mem_univ, true_and]
  constructor
  · rintro ⟨n, hn, e0, e1, e1'⟩
    omega
  · rintro ⟨hlo, hhi⟩
    refine ⟨8 * (i 0).val + ((i 1).val - 256 * wid L) / 32, ?_, ?_, ?_, ?_⟩ <;> omega

/-- A chunk's slice of the output, held by its elements, is the array held on the chunk's box. -/
theorem pts_chunkOf (d : Dev nD) (L : grid0.Coords) (n : ℕ) (f : Buf (Elt F) (oLoc d)) :
    ((chunkOf oW L n).view.loc (tileThr d L) ↦[(chunkOf oW L n).view.set]{fullShare} f : sProp (MM F))
      = (oLoc d ↦[(chunkRect L n).set]{fullShare} f) := by
  rw [set_chunkOf]

/-- The tile's rows of the output, held at the full share, are its 64 chunks, each held by its own slice's elements. -/
theorem oSlab_chunks (d : Dev nD) (L : grid0.Coords) (f : Buf (Elt F) (oLoc d)) :
    (oLoc d ↦[slabSet (wid L)]{fullShare} f : sProp (MM F))
      ⊣⊢ bigSep (Finset.range 64) fun n => ((chunkOf oW L n).view.loc (tileThr d L) ↦[(chunkOf oW L n).view.set]{fullShare} f) := by
  refine BiEntails.of_eq ?_
  rw [← chunks_cover L, pointsTo_biUnion (Finset.range 64) (ℓ := oLoc d) (fun n => (chunkRect L n).set) (chunks_disjoint L)]
  exact bigSep_congr fun n _ => (pts_chunkOf d L n f).symm

/-- Chunks that hold (anything that agrees on them with) one array function join to the tile's rows at that function. -/
theorem oChunk_congr (d : Dev nD) (L : grid0.Coords) (n : ℕ) (f g : Buf (Elt F) (oLoc d))
    (h : ∀ i ∈ (chunkOf oW L n).view.set, f i = g i) :
    ((chunkOf oW L n).view.loc (tileThr d L) ↦[(chunkOf oW L n).view.set]{fullShare} f : sProp (MM F))
      ⊢ ((chunkOf oW L n).view.loc (tileThr d L) ↦[(chunkOf oW L n).view.set]{fullShare} g) :=
  Entails.of_eq (pointsTo_congr h)

/-! ## What a chunk holds -/

/-- The tile's piece of the diagonal, as the kernel slices it. -/
abbrev dSlice (L : grid0.Coords) : Memref sig Kind.scVector Space.hbm S32768 EltTy.f32 :=
  (dW).slice (Rect.unit (s := S1048576) (k0_off1 L) S32768.size (k0_off1_inb L)) (fun _ => rfl)

/-- Dropping the leading axis of size one: the index of `(1, 32, 8, 128)` matched with `y` is `y` behind `0`. -/
theorem sq_cons (y : S32x8x128.Idx) :
    (Shape.reshapeEquiv squeezes_S1x32x8x128_S32x8x128.numel_eq y : S1x32x8x128.Idx) = Fin.cons ⟨0, Nat.one_pos⟩ y :=
  Shape.reshapeEquiv_cons_one (n := 3) (d := ![32, 8, 128]) _ y

/-- Element `(t, s, l)` of a squeezed box at offsets `off` sits at `(off 0, off 1 + t, off 2 + s, off 3 + l)`. -/
theorem box_emb_val (off : Fin 4 → ℕ) (h : ∀ a, off a + S1x32x8x128.size a ≤ S8x8192x8x128.size a) (y : S32x8x128.Idx) :
    let i : S8x8192x8x128.Idx := (Rect.unit (s := S8x8192x8x128) off S1x32x8x128.size h).emb
      (Shape.reshapeEquiv squeezes_S1x32x8x128_S32x8x128.numel_eq y)
    (i 0).val = off 0 ∧ (i 1).val = off 1 + (y 0).val ∧ (i 2).val = off 2 + (y 1).val ∧ (i 3).val = off 3 + (y 2).val := by
  intro i
  have e := sq_cons y
  refine ⟨?_, ?_, ?_, ?_⟩
  · show off 0 + 1 * ((Shape.reshapeEquiv squeezes_S1x32x8x128_S32x8x128.numel_eq y : S1x32x8x128.Idx) 0).val = _
    rw [e]; simp; rfl
  · show off 1 + 1 * ((Shape.reshapeEquiv squeezes_S1x32x8x128_S32x8x128.numel_eq y : S1x32x8x128.Idx) 1).val = _
    rw [e]; simp; rfl
  · show off 2 + 1 * ((Shape.reshapeEquiv squeezes_S1x32x8x128_S32x8x128.numel_eq y : S1x32x8x128.Idx) 2).val = _
    rw [e]; simp; rfl
  · show off 3 + 1 * ((Shape.reshapeEquiv squeezes_S1x32x8x128_S32x8x128.numel_eq y : S1x32x8x128.Idx) 3).val = _
    rw [e]; simp; rfl

/-- Element `(t, s, l)` of chunk `n` of the input, scaled by the tile's piece of the diagonal at word
    `128 (32 (n % 8) + t) + l`, is the kernel's array function at the element's place `(n / 8, 256 w + 32 (n % 8) + t, s, l)`:
    the tile's piece starts at word `32768 w`, and `128 (256 w + 32 (n % 8) + t) + l = 32768 w + 128 (32 (n % 8) + t) + l`. -/
theorem chunk_at (d : Dev nD) (L : grid0.Coords) (n : ℕ) (A : Buf (Elt F) (aLoc d)) (DD : Buf (Elt F) (dLoc d)) (y : S32x8x128.Idx) :
    rowsDone ((chunkOf aW L n).view.read (Elt F) A) ((dSlice L).view.read (Elt F) DD) (n % 8) 32 y
      = (Cert.Proof.Spec.Gk (F := F) A DD : Buf (Elt F) (oLoc d)) ((chunkOf oW L n).view.emb y) := by
  have h0 : (y 0).val < 32 := (y 0).isLt
  have h2 : (y 2).val < 128 := (y 2).isLt
  have hL0 : (L 0).val < 2 := (L 0).isLt
  have hL1 : (L 1).val < 16 := (L 1).isLt
  obtain ⟨-, e1, -, e3⟩ := box_emb_val (chunkOff L n) (chunkOff_inb L n) y
  have e1' : ((chunkOf oW L n).view.emb y 1).val = chunkOff L n 1 + (y 0).val := e1
  have e3' : ((chunkOf oW L n).view.emb y 3).val = chunkOff L n 3 + (y 2).val := e3
  unfold rowsDone
  rw [if_pos h0, View.read_apply, View.read_apply, cast_eq, cast_eq]
  show FloatOps.mulf (A ((chunkOf oW L n).view.emb y)) (DD _) = FloatOps.mulf (A ((chunkOf oW L n).view.emb y)) (DD _)
  congr 2
  funext a
  match a with
  | ⟨0, _⟩ =>
    apply Fin.ext
    show k0_off1 L 0 + 1 * ((128 * (32 * (n % 8) + (y 0).val) + (y 2).val) % 32768)
      = (128 * ((chunkOf oW L n).view.emb y 1).val + ((chunkOf oW L n).view.emb y 3).val) % 1048576
    rw [e1', e3', k0_off1_eq]
    simp [chunkOff, wid]
    omega

/-- Reading the kernel's array function through chunk `n`'s view is chunk `n` of the input scaled by the tile's piece
    of the diagonal. -/
theorem chunk_read (d : Dev nD) (L : grid0.Coords) (n : ℕ) (hn : n < 64) (A : Buf (Elt F) (aLoc d)) (DD : Buf (Elt F) (dLoc d)) :
    (chunkOf oW L n).view.read (Elt F) (Cert.Proof.Spec.Gk (F := F) A DD : Buf (Elt F) (oLoc d))
      = rowsDone ((chunkOf aW L n).view.read (Elt F) A) ((dSlice L).view.read (Elt F) DD) (n % 8) 32 := by
  funext y
  rw [View.read_apply, cast_eq]
  exact (chunk_at d L n A DD y).symm

/-- Chunk `n` of the input, scaled by the tile's piece of the diagonal and written over chunk `n` of the output,
    is the kernel's array function there. -/
theorem chunk_value (d : Dev nD) (L : grid0.Coords) (n : ℕ) (hn : n < 64) (A : Buf (Elt F) (aLoc d)) (DD : Buf (Elt F) (dLoc d))
    (O0 : Buf (Elt F) (oLoc d)) :
    ∀ i ∈ (chunkOf oW L n).view.set,
      View.write (Elt F) (chunkOf oW L n).view O0
          (rowsDone ((chunkOf aW L n).view.read (Elt F) A) ((dSlice L).view.read (Elt F) DD) (n % 8) 32) Finset.univ i
        = (Cert.Proof.Spec.Gk (F := F) A DD : Buf (Elt F) (oLoc d)) i := by
  intro i hi
  obtain ⟨y, -, rfl⟩ := Finset.mem_map.mp hi
  rw [View.write_emb_of_mem _ _ (Finset.mem_univ y)]
  exact (cast_eq _ _).trans (chunk_at d L n A DD y)

end Cert.Proof.KB

end
-- ==== Proof.KB.BodyDefs.lean ====
/-
  The vocabulary of one tile's task: what the scratch buffers and the output's chunks hold at each moment, and the
  copies in flight. Chunk `n` of the input is `aChunk n`; scaled it is `sChunk n`; a copy of chunk `n` into a buffer
  delivers the buffer at `aChunk n` and the lent elements of `a`; a copy of a buffer holding `sChunk n` over chunk `n`
  of the output delivers that chunk at the kernel's array function and the buffer back.
-/
import proofs.«218970_g6992206758257_cont_9to1_m_205_14_alg».proof.Proof.KB.Chunks
import Idealize.ShloMosaic.Lib.Exec.Context

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.Kernel.main_v1_scv : Memref Cert.Kernel.sig Kind.scVector Space.hbm Cert.Kernel.S8x8192x8x128 EltTy.f32)
local notation "dW" => (Memref.whole Cert.Kernel.main_arg1_scv : Memref Cert.Kernel.sig Kind.scVector Space.hbm Cert.Kernel.S1048576 EltTy.f32)
local notation "oW" => (Memref.whole Cert.Kernel.main_v2_scv : Memref Cert.Kernel.sig Kind.scVector Space.hbm Cert.Kernel.S8x8192x8x128 EltTy.f32)
local notation "xb0" => (Memref.whole Cert.Kernel.cc0_scratch0 : Memref Cert.Kernel.sig Kind.scVector Space.vmem Cert.Kernel.S32x8x128 EltTy.f32)
local notation "xb1" => (Memref.whole Cert.Kernel.cc0_scratch1 : Memref Cert.Kernel.sig Kind.scVector Space.vmem Cert.Kernel.S32x8x128 EltTy.f32)
local notation "dB" => (Memref.whole Cert.Kernel.cc0_scratch2 : Memref Cert.Kernel.sig Kind.scVector Space.vmem Cert.Kernel.S32768 EltTy.f32)

section Defs

variable (d : Dev nD) (L : grid0.Coords) (q : PosShare TreeShare) (A : Buf (Elt F) (aLoc d)) (DD : Buf (Elt F) (dLoc d))
  (O0 : Buf (Elt F) (oLoc d))

/-- The tile's copy of its piece of the diagonal. -/
abbrev dbOf : Vec F S32768 .f32 := (dSlice L).view.read (Elt F) DD
/-- Chunk `n` of the input. -/
abbrev aChunk (n : ℕ) : Vec F S32x8x128 .f32 := (chunkOf aW L n).view.read (Elt F) A
/-- Chunk `n` scaled. -/
abbrev sChunk (n : ℕ) : Vec F S32x8x128 .f32 := rowsDone (aChunk d L A n) (dbOf d L DD) (n % 8) 32

/-- The kernel's array function, as contents of the output. -/
abbrev GkO : Buf (Elt F) (oLoc d) := (Cert.Proof.Spec.Gk (F := F) A DD : Buf (Elt F) (oLoc d))

/-- Chunk `n` of the output, not yet written / written. -/
def oTodo (n : ℕ) : sProp (MM F) := (chunkOf oW L n).view.loc (tileThr d L) ↦[(chunkOf oW L n).view.set]{fullShare} O0
def oDone (n : ℕ) : sProp (MM F) := (chunkOf oW L n).view.loc (tileThr d L) ↦[(chunkOf oW L n).view.set]{fullShare} GkO d A DD

/-- What a copy of chunk `n` of the input into the first (second) buffer delivers. -/
def ldDel0 (n : ℕ) : sProp (MM F) :=
  iprop(((xb0).view.loc (tileThr d L) ↦{fullShare} aChunk d L A n) ∗ ((aW).view.loc (tileThr d L) ↦[(chunkOf aW L n).view.set]{q} A))
def ldDel1 (n : ℕ) : sProp (MM F) :=
  iprop(((xb1).view.loc (tileThr d L) ↦{fullShare} aChunk d L A n) ∗ ((aW).view.loc (tileThr d L) ↦[(chunkOf aW L n).view.set]{q} A))
/-- The input but chunk `n`'s elements (lent to a copy in flight). -/
def aRest (n : ℕ) : sProp (MM F) := (aW).view.loc (tileThr d L) ↦[Finset.univ \ (chunkOf aW L n).view.set]{q} A

/-- What a copy of the first (second) buffer, holding chunk `n` scaled, over chunk `n` of the output delivers. -/
def stDel0 (n : ℕ) : sProp (MM F) :=
  iprop(oDone d L A DD n ∗ ((xb0).view.loc (tileThr d L) ↦[(xb0).view.set]{fullShare} sChunk d L A DD n))
def stDel1 (n : ℕ) : sProp (MM F) :=
  iprop(oDone d L A DD n ∗ ((xb1).view.loc (tileThr d L) ↦[(xb1).view.set]{fullShare} sChunk d L A DD n))
/-- The (empty) rest of a buffer lent whole to a copy out. -/
def xRest0 (n : ℕ) : sProp (MM F) := (xb0).view.loc (tileThr d L) ↦[Finset.univ \ (xb0).view.set]{fullShare} sChunk d L A DD n
def xRest1 (n : ℕ) : sProp (MM F) := (xb1).view.loc (tileThr d L) ↦[Finset.univ \ (xb1).view.set]{fullShare} sChunk d L A DD n

/-- The four copies in flight, each on its own semaphore: a chunk's worth of credit. -/
def ldFl0 (n : ℕ) : sProp (MM F) := Transfers.Flight countersEmb (tileThr d L) (SemLoc.dma cc0_scratch3.sem) default 1048576 (ldDel0 d L q A n)
def ldFl1 (n : ℕ) : sProp (MM F) := Transfers.Flight countersEmb (tileThr d L) (SemLoc.dma cc0_scratch4.sem) default 1048576 (ldDel1 d L q A n)
def stFl0 (n : ℕ) : sProp (MM F) := Transfers.Flight countersEmb (tileThr d L) (SemLoc.dma cc0_scratch5.sem) default 1048576 (stDel0 d L A DD n)
def stFl1 (n : ℕ) : sProp (MM F) := Transfers.Flight countersEmb (tileThr d L) (SemLoc.dma cc0_scratch6.sem) default 1048576 (stDel1 d L A DD n)

end Defs

/-! ## The same contents and copies, however a box's offsets are written -/

section Folds

variable (d : Dev nD) (L : grid0.Coords) (q : PosShare TreeShare) (A : Buf (Elt F) (aLoc d)) (DD : Buf (Elt F) (dLoc d))
  (O0 : Buf (Elt F) (oLoc d))

theorem trips1 : Scf.trips k0_t1_loop.lb k0_t1_loop.ub k0_t1_loop.st = 32 := by decide
theorem trips2 : Scf.trips k0_t2_loop.lb k0_t2_loop.ub k0_t2_loop.st = 32 := by decide
theorem trips3 : Scf.trips k0_t3_loop.lb k0_t3_loop.ub k0_t3_loop.st = 32 := by decide

/-- A buffer written whole by a copy of the box at `off` holds chunk `n`, when `off` is chunk `n`'s offsets. -/
theorem xb0_landed (off : Fin 4 → ℕ) (h : ∀ a, off a + S1x32x8x128.size a ≤ S8x8192x8x128.size a) (n : ℕ) (e : off = chunkOff L n)
    (fOld : Vec F S32x8x128 .f32) :
    View.write (Elt F) (xb0).view fOld (ReadAs.same.apply (View.read (Elt F) (sl4 aW off h).view A)) Finset.univ = aChunk d L A n := by
  subst e; exact View.write_whole_univ _ _ _
theorem xb1_landed (off : Fin 4 → ℕ) (h : ∀ a, off a + S1x32x8x128.size a ≤ S8x8192x8x128.size a) (n : ℕ) (e : off = chunkOff L n)
    (fOld : Vec F S32x8x128 .f32) :
    View.write (Elt F) (xb1).view fOld (ReadAs.same.apply (View.read (Elt F) (sl4 aW off h).view A)) Finset.univ = aChunk d L A n := by
  subst e; exact View.write_whole_univ _ _ _

/-- The input but the lent box: the rest of chunk `n`. -/
theorem aRest_fold (off : Fin 4 → ℕ) (h : ∀ a, off a + S1x32x8x128.size a ≤ S8x8192x8x128.size a) (n : ℕ) (e : off = chunkOff L n) :
    ((aW).view.loc (tileThr d L) ↦[Finset.univ \ (sl4 aW off h).view.set]{q} A : sProp (MM F)) ⊢ aRest d L q A n := by
  subst e; exact .rfl

/-- A copy of the box at `off` into the first buffer, in flight, is the flight of chunk `n`. -/
theorem ldFl0_fold (off : Fin 4 → ℕ) (h : ∀ a, off a + S1x32x8x128.size a ≤ S8x8192x8x128.size a) (n : ℕ) (e : off = chunkOff L n)
    (fOld : Vec F S32x8x128 .f32) :
    (Transfers.Flight countersEmb (tileThr d L) (SemLoc.dma cc0_scratch3.sem) default 1048576
        iprop(((xb0).view.loc (tileThr d L) ↦{fullShare}
              View.write (Elt F) (xb0).view fOld (ReadAs.same.apply (View.read (Elt F) (sl4 aW off h).view A)) Finset.univ)
          ∗ ((aW).view.loc (tileThr d L) ↦[(sl4 aW off h).view.set]{q} A)) : sProp (MM F))
      ⊢ ldFl0 d L q A n := by
  subst e
  unfold ldFl0 ldDel0
  rw [xb0_landed d L A _ h n rfl fOld]

/-- A chunk of the output written whole with chunk `n` scaled is that chunk at the kernel's array function, given
    that the array function read through the chunk is the scaled chunk. -/
theorem oDone_of_writes [∀ e, Nonempty (Elt F e)] (off : Fin 4 → ℕ) (h : ∀ a, off a + S1x32x8x128.size a ≤ S8x8192x8x128.size a) (n : ℕ)
    (e : off = chunkOff L n) (base : Buf (Elt F) (oLoc d)) (P : Vec F S32x8x128 .f32)
    (hread : (chunkOf oW L n).view.read (Elt F) (GkO d A DD) = P) :
    ((sl4 oW off h).view.loc (tileThr d L) ↦[(sl4 oW off h).view.set]{fullShare}
        (sl4 oW off h).view.writes (Elt F) base [⟨Rect.whole S32x8x128, P⟩] : sProp (MM F))
      ⊢ oDone d L A DD n := by
  subst e
  unfold oDone
  rw [pointsTo_rep (Ix := HIx 1) (Name := ℕ) (U := UU) (Lvl := ℕ) (tileThr d L) (sl4 oW (chunkOff L n) h),
    View.read_writes_whole,
    pointsTo_rep (Ix := HIx 1) (Name := ℕ) (U := UU) (Lvl := ℕ) (tileThr d L) (chunkOf oW L n) (GkO d A DD), hread]

/-! ## The chunks still to write, and those written -/

/-- The chunks from `2 k` on. -/
def todoSet (k : ℕ) : Finset ℕ := (Finset.range 64).filter (2 * k ≤ ·)

theorem todoSet_zero : todoSet 0 = Finset.range 64 := by
  ext n; simp [todoSet]

theorem todoSet_pop (k : ℕ) (hk : k < 32) : todoSet k = insert (2 * k) (insert (2 * k + 1) (todoSet (k + 1))) := by
  ext n; simp only [todoSet, Finset.mem_filter, Finset.mem_range, Finset.mem_insert]; omega

theorem todoSet_last : todoSet 32 = ∅ := by
  ext n; simp only [todoSet, Finset.mem_filter, Finset.mem_range, Finset.notMem_empty, iff_false]; omega

theorem todo_pop (Φ : ℕ → sProp (MM F)) (k : ℕ) (hk : k < 32) :
    bigSep (todoSet k) Φ ⊣⊢ iprop(Φ (2 * k) ∗ Φ (2 * k + 1) ∗ bigSep (todoSet (k + 1)) Φ) := by
  rw [todoSet_pop k hk, BI.bigSep_insert (by simp only [Finset.mem_insert, todoSet, Finset.mem_filter, Finset.mem_range]; omega),
    BI.bigSep_insert (by simp only [todoSet, Finset.mem_filter, Finset.mem_range]; omega)]
  exact ⟨.rfl, .rfl⟩

theorem done_push (Φ : ℕ → sProp (MM F)) (n : ℕ) :
    bigSep (Finset.range (n + 1)) Φ ⊣⊢ iprop(Φ n ∗ bigSep (Finset.range n) Φ) := by
  rw [Finset.range_add_one, BI.bigSep_insert Finset.notMem_range_self]
  exact ⟨.rfl, .rfl⟩

/-- Recording one more wait at the kernels' index keeps the record within the launch's and that index. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

end Folds

/-! ## The outer loop's invariant, by phase -/

section Phases

variable [∀ e, Nonempty (Elt F e)]
variable (d : Dev nD) (L : grid0.Coords) (q : PosShare TreeShare) (A : Buf (Elt F) (aLoc d)) (DD : Buf (Elt F) (dLoc d))
  (O0 : Buf (Elt F) (oLoc d)) (O : CellTallies nD τ sig (HIx 1)) (W : Waits sig (HIx 1))

/-- What every pair finds: the waits' evidence, the diagonal's copy, the second load's semaphore at rest, the chunks
    still to write, and the tile's debts with the waits recorded so far. -/
def invCommon (k : ℕ) : sProp (MM F) :=
  iprop(Transfers.MayWaits (tileThr d L) (none : HIx 1) O
    ∗ ((dB).view.loc (tileThr d L) ↦{fullShare} dbOf d L DD)
    ∗ semVal (tileThr d L, SemLoc.dma cc0_scratch4.sem) 0
    ∗ bigSep (todoSet k) (oTodo d L O0)
    ∗ ∃ W', ⌜∀ p ∈ W', p ∈ W ∨ p.2 = none⌝ ∗ owes (tileThr d L) O W')

/-- Before the first pair: chunk `n = 0` on its way into the first buffer, nothing on its way out. -/
def invA (n : ℕ) : sProp (MM F) :=
  iprop(ldFl0 d L q A n ∗ aRest d L q A n ∗ (∃ f, (xb1).view.loc (tileThr d L) ↦{fullShare} f)
    ∗ semVal (tileThr d L, SemLoc.dma cc0_scratch5.sem) 0 ∗ semVal (tileThr d L, SemLoc.dma cc0_scratch6.sem) 0)

/-- Before pair `0 < k < 32`: chunk `2 k` on its way in, chunk `2 k - 1` on its way out, the earlier ones written. -/
def invB (k : ℕ) : sProp (MM F) :=
  iprop(ldFl0 d L q A (2 * k) ∗ aRest d L q A (2 * k) ∗ stFl1 d L A DD (2 * k - 1) ∗ xRest1 d L A DD (2 * k - 1)
    ∗ semVal (tileThr d L, SemLoc.dma cc0_scratch5.sem) 0 ∗ bigSep (Finset.range (2 * k - 1)) (oDone d L A DD))

/-- After the last pair: chunks `n = 62` and `n + 1` on their way out, the earlier ones written, the input whole. -/
def invC (n : ℕ) : sProp (MM F) :=
  iprop(((aW).view.loc (tileThr d L) ↦{q} A) ∗ semVal (tileThr d L, SemLoc.dma cc0_scratch3.sem) 0
    ∗ stFl0 d L A DD n ∗ xRest0 d L A DD n ∗ stFl1 d L A DD (n + 1) ∗ xRest1 d L A DD (n + 1)
    ∗ bigSep (Finset.range n) (oDone d L A DD))

/-- The outer loop's invariant before pair `k` (after the last pair at `k = 32`). -/
def Inv (k : ℕ) (_ : PUnit) : sProp (MM F) :=
  iprop(invCommon d L DD O0 O W k ∗ (if k = 0 then invA d L q A 0 else if k < 32 then invB d L q A DD k else invC d L q A DD 62))

/-- A chunk to write, as the program slices it at the offsets `off` of chunk `n`. -/
theorem oTodo_spell (off : Fin 4 → ℕ) (h : ∀ a, off a + S1x32x8x128.size a ≤ S8x8192x8x128.size a) (n : ℕ) (e : off = chunkOff L n) :
    oTodo d L O0 n ⊢ ((sl4 oW off h).view.loc (tileThr d L) ↦[(sl4 oW off h).view.set]{fullShare} O0 : sProp (MM F)) := by
  subst e; exact .rfl

/-- The scaled chunk, whatever way its number along the tile's rows is spelt. -/
theorem sChunk_eq (n jc : ℕ) (h : jc = n % 8) : rowsDone (aChunk d L A n) (dbOf d L DD) jc 32 = sChunk d L A DD n := by
  subst h; rfl

/-- A copy of the second buffer, holding chunk `n` scaled, over the box at `off` of the output, in flight. -/
theorem stFl1_fold (off : Fin 4 → ℕ) (h : ∀ a, off a + S1x32x8x128.size a ≤ S8x8192x8x128.size a) (n : ℕ) (e : off = chunkOff L n)
    (hn : n < 64) (X : Vec F S32x8x128 .f32) (hX : X = sChunk d L A DD n) :
    (Transfers.Flight countersEmb (tileThr d L) (SemLoc.dma cc0_scratch6.sem) default 1048576
        iprop(((sl4 oW off h).view.loc (tileThr d L) ↦[(sl4 oW off h).view.set]{fullShare}
              (sl4 oW off h).view.writes (Elt F) O0 [⟨Rect.whole S32x8x128, ReadAs.same.apply (View.read (Elt F) (xb1).view X)⟩])
          ∗ ((xb1).view.loc (tileThr d L) ↦[(xb1).view.set]{fullShare} X)) : sProp (MM F))
      ⊢ stFl1 d L A DD n := by
  subst hX
  unfold stFl1 stDel1
  exact Transfers.Flight_mono _ _ (sep_mono (oDone_of_writes d L A DD off h n e O0 _ (chunk_read d L n hn A DD)) .rfl)

/-- The same for the first buffer. -/
theorem stFl0_fold (off : Fin 4 → ℕ) (h : ∀ a, off a + S1x32x8x128.size a ≤ S8x8192x8x128.size a) (n : ℕ) (e : off = chunkOff L n)
    (hn : n < 64) (X : Vec F S32x8x128 .f32) (hX : X = sChunk d L A DD n) :
    (Transfers.Flight countersEmb (tileThr d L) (SemLoc.dma cc0_scratch5.sem) default 1048576
        iprop(((sl4 oW off h).view.loc (tileThr d L) ↦[(sl4 oW off h).view.set]{fullShare}
              (sl4 oW off h).view.writes (Elt F) O0 [⟨Rect.whole S32x8x128, ReadAs.same.apply (View.read (Elt F) (xb0).view X)⟩])
          ∗ ((xb0).view.loc (tileThr d L) ↦[(xb0).view.set]{fullShare} X)) : sProp (MM F))
      ⊢ stFl0 d L A DD n := by
  subst hX
  unfold stFl0 stDel0
  exact Transfers.Flight_mono _ _ (sep_mono (oDone_of_writes d L A DD off h n e O0 _ (chunk_read d L n hn A DD)) .rfl)

end Phases

end Cert.Proof.KB

end
-- ==== Proof.KB.TripMid.lean ====
/-
  A middle pair `0 < k < 31` of one tile's task: the first buffer's chunk `2 k` lands, the second buffer's chunk
  `2 k - 1` has left, chunk `2 k + 1` is fetched into the second buffer while the first is scaled and written out, chunk
  `2 k + 2` is fetched into the first buffer while the second is scaled, and the second buffer's copy out is started.
-/
import proofs.«218970_g6992206758257_cont_9to1_m_205_14_alg».proof.Proof.KB.BodyDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.Kernel.main_v1_scv : Memref Cert.Kernel.sig Kind.scVector Space.hbm Cert.Kernel.S8x8192x8x128 EltTy.f32)
local notation "dW" => (Memref.whole Cert.Kernel.main_arg1_scv : Memref Cert.Kernel.sig Kind.scVector Space.hbm Cert.Kernel.S1048576 EltTy.f32)
local notation "oW" => (Memref.whole Cert.Kernel.main_v2_scv : Memref Cert.Kernel.sig Kind.scVector Space.hbm Cert.Kernel.S8x8192x8x128 EltTy.f32)
local notation "xb0" => (Memref.whole Cert.Kernel.cc0_scratch0 : Memref Cert.Kernel.sig Kind.scVector Space.vmem Cert.Kernel.S32x8x128 EltTy.f32)
local notation "xb1" => (Memref.whole Cert.Kernel.cc0_scratch1 : Memref Cert.Kernel.sig Kind.scVector Space.vmem Cert.Kernel.S32x8x128 EltTy.f32)
local notation "dB" => (Memref.whole Cert.Kernel.cc0_scratch2 : Memref Cert.Kernel.sig Kind.scVector Space.vmem Cert.Kernel.S32768 EltTy.f32)

section Trips

variable [∀ e, Nonempty (Elt F e)]
variable (d : Dev nD) (L : grid0.Coords) (q : PosShare TreeShare) (A : Buf (Elt F) (aLoc d)) (DD : Buf (Elt F) (dLoc d))
  (O0 : Buf (Elt F) (oLoc d)) (O : CellTallies nD τ sig (HIx 1)) (W : Waits sig (HIx 1))

/-- A middle pair `0 < k < 31`. -/
theorem trip_mid (v2 : BitVec 32) (k : Fin k0_t1_loop.trips) (hk0 : 0 < k.val) (hk31 : k.val < 31) (acc : PUnit) :
    iprop(invCommon d L DD O0 O W k.val ∗ invB d L q A DD k.val)
      ⊢ wp frame (wpE (defs₀ (F := F)) 𝒱₀ (tileThr d L) none) Set.univ
          (k0_t1_body L aW (Memref.isWhole_whole _) dW (Memref.isWhole_whole _) oW (Memref.isWhole_whole _)
            xb0 (Memref.isWhole_whole _) xb1 (Memref.isWhole_whole _) dB (Memref.isWhole_whole _)
            cc0_scratch3 cc0_scratch4 cc0_scratch5 cc0_scratch6 cc0_scoped0 v2 k acc)
          fun _ => iprop(invCommon d L DD O0 O W (k.val + 1) ∗ invB d L q A DD (k.val + 1)) := by
  generalize hQ : (fun _ : PUnit => iprop(invCommon d L DD O0 O W (k.val + 1) ∗ invB d L q A DD (k.val + 1))) = Q
  unfold k0_t1_body invCommon invB
  iintro ⟨⟨#Hmw, HdB, Hs4, Htodo, %W', %hW', HO⟩, HL0, Ha, HS1, Hx1r, Hs5, Hdone⟩
  ihave Ht := (todo_pop (oTodo d L O0) k.val (by omega)).1 $$ Htodo
  icases Ht with ⟨Ho0, Ho1, Htodo⟩
  ihave Ho0 := (oTodo_spell d L O0 (k0_off69 L k) (k0_off69_inb L k) (2 * k.val) (off69_eq L k)) $$ Ho0
  ihave Ho1 := (oTodo_spell d L O0 (k0_off3 L k) (k0_off3_inb L k) (2 * k.val + 1) (off3_eq L k)) $$ Ho1
  unfold ldFl0 ldDel0 aRest stFl1 stDel1 xRest1
  sl_exec (disch := first | omega | (clear * - k hk0 hk31; decide +kernel +revert))
  sl_for (invC0 d L (aChunk d L A (2 * k.val)) (dbOf d L DD) ((2 * k.val) % 8)) $$ [HL0_dst HdB]
  case region => exact fun t acc => chunk0_trip d L _ _ _ _ _ _ _ v2 k _ _ _ _ _ t acc
  · unfold invC0; rw [rowsDone_zero]
    isplitl [HL0_dst]; · iexact HL0_dst
    iexact HdB
  iintro %_ HI
  unfold invC0
  icases HI with ⟨Hx0, HdB⟩
  sl_exec (disch := first | omega | (clear * - k hk0 hk31; decide +kernel +revert))
  sl_unfold_run_names
  ihave Hx1 := (Entails.of_eq (congrArg (fun c => ((xb1).view.loc (tileThr d L) ↦{fullShare} c : sProp (MM F)))
      (xb1_landed d L A (k0_off3 L k) (k0_off3_inb L k) (2 * k.val + 1) (off3_eq L k) _))) $$ Hx1r
  sl_for (invC1 d L (aChunk d L A (2 * k.val + 1)) (dbOf d L DD) ((2 * k.val) % 8 + 1)) $$ [Hx1 HdB]
  case region => exact fun t acc => chunk1_trip d L _ _ _ _ _ _ _ v2 k _ _ _ _ _ _ _ t acc
  · unfold invC1; rw [rowsDone_zero]
    isplitl [Hx1]; · iexact Hx1
    iexact HdB
  iintro %_ HI
  unfold invC1
  icases HI with ⟨Hx1, HdB⟩
  sl_exec (disch := first | omega | (clear * - k hk0 hk31; decide +kernel +revert))
  sl_unfold_run_names
  sl_step
  subst hQ
  unfold invCommon invB
  rw [show 2 * (k.val + 1) = 2 * k.val + 2 from by omega, show 2 * k.val + 2 - 1 = 2 * k.val + 1 from by omega]
  have hX1 : rowsDone (aChunk d L A (2 * k.val + 1)) (dbOf d L DD) (2 * k.val % 8 + 1)
      (Scf.trips k0_t3_loop.lb k0_t3_loop.ub k0_t3_loop.st) = sChunk d L A DD (2 * k.val + 1) := by
    rw [trips3]; exact sChunk_eq d L A DD _ _ (by omega)
  have hX0 : rowsDone (aChunk d L A (2 * k.val)) (dbOf d L DD) (2 * k.val % 8)
      (Scf.trips k0_t2_loop.lb k0_t2_loop.ub k0_t2_loop.st) = sChunk d L A DD (2 * k.val) := by
    rw [trips2]
  have hr0 : (chunkOf oW L (2 * k.val)).view.read (Elt F) (GkO d A DD)
      = ReadAs.same.apply (View.read (Elt F) (xb0).view (rowsDone (aChunk d L A (2 * k.val)) (dbOf d L DD) (2 * k.val % 8)
          (Scf.trips k0_t2_loop.lb k0_t2_loop.ub k0_t2_loop.st))) :=
    (chunk_read d L (2 * k.val) (by omega) A DD).trans hX0.symm
  isplitl [HdB Hs4 Htodo HO]
  · isplitr; · iexact Hmw
    isplitl [HdB]; · iexact HdB
    isplitl [Hs4]; · iexact Hs4
    isplitl [Htodo]; · iexact Htodo
    iexists _; isplitr
    rotate_left
    · iexact HO
    · ipureintro; exact waits_insert _ (waits_insert _ (waits_insert _ (waits_insert _ hW')))
  isplitl [HL0]
  · iapply (ldFl0_fold d L q A (k0_off70 L k) _ (2 * k.val + 2) (off70_eq L k hk31) _); iexact HL0
  isplitl [Ha]
  · iapply (aRest_fold d L q A (k0_off70 L k) _ (2 * k.val + 2) (off70_eq L k hk31)); iexact Ha
  isplitl [HS1]
  · iapply (stFl1_fold d L A DD O0 (k0_off3 L k) _ (2 * k.val + 1) (off3_eq L k) (by omega) _ hX1); iexact HS1
  isplitl [Hx1]
  · unfold xRest1; rw [← hX1]; iexact Hx1
  isplitl [Hs5]; · iexact Hs5
  rw [show 2 * k.val + 1 = (2 * k.val - 1 + 1) + 1 from by omega]
  iapply (done_push (oDone d L A DD) (2 * k.val - 1 + 1)).2
  isplitl [Ho0]
  · rw [show 2 * k.val - 1 + 1 = 2 * k.val from by omega]
    iapply (oDone_of_writes d L A DD (k0_off69 L k) _ (2 * k.val) (off69_eq L k) _ _ hr0); iexact Ho0
  iapply (done_push (oDone d L A DD) (2 * k.val - 1)).2
  isplitl [HS1_dst]; · iexact HS1_dst
  iexact Hdone

end Trips

end Cert.Proof.KB

end
-- ==== Proof.KB.TripFirst.lean ====
/-
  The first pair `k = 0` of one tile's task: the first buffer's chunk `0` lands; nothing has been copied out yet, so
  there is no copy out of the second buffer to wait for; chunk `1` is fetched into the second buffer while the first is
  scaled and written out over chunk `0` of the output, chunk `2` is fetched into the first buffer while the second is
  scaled, and the second buffer's copy out over chunk `1` is started. Chunk `0` is then the one chunk written.
-/
import proofs.«218970_g6992206758257_cont_9to1_m_205_14_alg».proof.Proof.KB.BodyDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.Kernel.main_v1_scv : Memref Cert.Kernel.sig Kind.scVector Space.hbm Cert.Kernel.S8x8192x8x128 EltTy.f32)
local notation "dW" => (Memref.whole Cert.Kernel.main_arg1_scv : Memref Cert.Kernel.sig Kind.scVector Space.hbm Cert.Kernel.S1048576 EltTy.f32)
local notation "oW" => (Memref.whole Cert.Kernel.main_v2_scv : Memref Cert.Kernel.sig Kind.scVector Space.hbm Cert.Kernel.S8x8192x8x128 EltTy.f32)
local notation "xb0" => (Memref.whole Cert.Kernel.cc0_scratch0 : Memref Cert.Kernel.sig Kind.scVector Space.vmem Cert.Kernel.S32x8x128 EltTy.f32)
local notation "xb1" => (Memref.whole Cert.Kernel.cc0_scratch1 : Memref Cert.Kernel.sig Kind.scVector Space.vmem Cert.Kernel.S32x8x128 EltTy.f32)
local notation "dB" => (Memref.whole Cert.Kernel.cc0_scratch2 : Memref Cert.Kernel.sig Kind.scVector Space.vmem Cert.Kernel.S32768 EltTy.f32)

section Trips

variable [∀ e, Nonempty (Elt F e)]
variable (d : Dev nD) (L : grid0.Coords) (q : PosShare TreeShare) (A : Buf (Elt F) (aLoc d)) (DD : Buf (Elt F) (dLoc d))
  (O0 : Buf (Elt F) (oLoc d)) (O : CellTallies nD τ sig (HIx 1)) (W : Waits sig (HIx 1))

/-- The first pair `k = 0`. -/
theorem trip_first (v2 : BitVec 32) (k : Fin k0_t1_loop.trips) (hk : k.val = 0) (acc : PUnit) :
    iprop(invCommon d L DD O0 O W k.val ∗ invA d L q A (2 * k.val))
      ⊢ wp frame (wpE (defs₀ (F := F)) 𝒱₀ (tileThr d L) none) Set.univ
          (k0_t1_body L aW (Memref.isWhole_whole _) dW (Memref.isWhole_whole _) oW (Memref.isWhole_whole _)
            xb0 (Memref.isWhole_whole _) xb1 (Memref.isWhole_whole _) dB (Memref.isWhole_whole _)
            cc0_scratch3 cc0_scratch4 cc0_scratch5 cc0_scratch6 cc0_scoped0 v2 k acc)
          fun _ => iprop(invCommon d L DD O0 O W (k.val + 1) ∗ invB d L q A DD (k.val + 1)) := by
  generalize hQ : (fun _ : PUnit => iprop(invCommon d L DD O0 O W (k.val + 1) ∗ invB d L q A DD (k.val + 1))) = Q
  unfold k0_t1_body invCommon invA
  iintro ⟨⟨#Hmw, HdB, Hs4, Htodo, %W', %hW', HO⟩, HL0, Ha, ⟨%f1, Hx1r⟩, Hs5, Hs6⟩
  ihave Ht := (todo_pop (oTodo d L O0) k.val (by omega)).1 $$ Htodo
  icases Ht with ⟨Ho0, Ho1, Htodo⟩
  ihave Ho0 := (oTodo_spell d L O0 (k0_off69 L k) (k0_off69_inb L k) (2 * k.val) (off69_eq L k)) $$ Ho0
  ihave Ho1 := (oTodo_spell d L O0 (k0_off3 L k) (k0_off3_inb L k) (2 * k.val + 1) (off3_eq L k)) $$ Ho1
  unfold ldFl0 ldDel0 aRest
  sl_exec (disch := first | omega | (clear * - k hk; decide +kernel +revert))
  sl_for (invC0 d L (aChunk d L A (2 * k.val)) (dbOf d L DD) ((2 * k.val) % 8)) $$ [HL0_dst HdB]
  case region => exact fun t acc => chunk0_trip d L _ _ _ _ _ _ _ v2 k _ _ _ _ _ t acc
  · unfold invC0; rw [rowsDone_zero]
    isplitl [HL0_dst]; · iexact HL0_dst
    iexact HdB
  iintro %_ HI
  unfold invC0
  icases HI with ⟨Hx0, HdB⟩
  sl_exec (disch := first | omega | (clear * - k hk; decide +kernel +revert))
  sl_unfold_run_names
  ihave Hx1 := (Entails.of_eq (congrArg (fun c => ((xb1).view.loc (tileThr d L) ↦{fullShare} c : sProp (MM F)))
      (xb1_landed d L A (k0_off3 L k) (k0_off3_inb L k) (2 * k.val + 1) (off3_eq L k) _))) $$ Hx1r
  sl_for (invC1 d L (aChunk d L A (2 * k.val + 1)) (dbOf d L DD) ((2 * k.val) % 8 + 1)) $$ [Hx1 HdB]
  case region => exact fun t acc => chunk1_trip d L _ _ _ _ _ _ _ v2 k _ _ _ _ _ _ _ t acc
  · unfold invC1; rw [rowsDone_zero]
    isplitl [Hx1]; · iexact Hx1
    iexact HdB
  iintro %_ HI
  unfold invC1
  icases HI with ⟨Hx1, HdB⟩
  sl_exec (disch := first | omega | (clear * - k hk; decide +kernel +revert))
  sl_unfold_run_names
  sl_step
  subst hQ
  unfold invCommon invB
  rw [show 2 * (k.val + 1) = 2 * k.val + 2 from by omega, show 2 * k.val + 2 - 1 = 2 * k.val + 1 from by omega]
  have hX1 : rowsDone (aChunk d L A (2 * k.val + 1)) (dbOf d L DD) (2 * k.val % 8 + 1)
      (Scf.trips k0_t3_loop.lb k0_t3_loop.ub k0_t3_loop.st) = sChunk d L A DD (2 * k.val + 1) := by
    rw [trips3]; exact sChunk_eq d L A DD _ _ (by omega)
  have hX0 : rowsDone (aChunk d L A (2 * k.val)) (dbOf d L DD) (2 * k.val % 8)
      (Scf.trips k0_t2_loop.lb k0_t2_loop.ub k0_t2_loop.st) = sChunk d L A DD (2 * k.val) := by
    rw [trips2]
  have hr0 : (chunkOf oW L (2 * k.val)).view.read (Elt F) (GkO d A DD)
      = ReadAs.same.apply (View.read (Elt F) (xb0).view (rowsDone (aChunk d L A (2 * k.val)) (dbOf d L DD) (2 * k.val % 8)
          (Scf.trips k0_t2_loop.lb k0_t2_loop.ub k0_t2_loop.st))) :=
    (chunk_read d L (2 * k.val) (by omega) A DD).trans hX0.symm
  isplitl [HdB Hs4 Htodo HO]
  · isplitr; · iexact Hmw
    isplitl [HdB]; · iexact HdB
    isplitl [Hs4]; · iexact Hs4
    isplitl [Htodo]; · iexact Htodo
    iexists _; isplitr
    rotate_left
    · iexact HO
    · ipureintro; exact waits_insert _ (waits_insert _ (waits_insert _ hW'))
  isplitl [HL0]
  · iapply (ldFl0_fold d L q A (k0_off70 L k) _ (2 * k.val + 2) (off70_eq L k (by omega)) _); iexact HL0
  isplitl [Ha]
  · iapply (aRest_fold d L q A (k0_off70 L k) _ (2 * k.val + 2) (off70_eq L k (by omega))); iexact Ha
  isplitl [Hs6]
  · iapply (stFl1_fold d L A DD O0 (k0_off3 L k) _ (2 * k.val + 1) (off3_eq L k) (by omega) _ hX1); iexact Hs6
  isplitl [Hx1]
  · unfold xRest1; rw [← hX1]; iexact Hx1
  isplitl [Hs5]; · iexact Hs5
  iapply (done_push (oDone d L A DD) (2 * k.val)).2
  isplitl [Ho0]
  · iapply (oDone_of_writes d L A DD (k0_off69 L k) _ (2 * k.val) (off69_eq L k) _ _ hr0); iexact Ho0
  rw [show 2 * k.val = 0 from by omega, Finset.range_zero, BI.bigSep_empty]
  iempintro

end Trips

end Cert.Proof.KB

end
-- ==== Proof.KB.TripLast.lean ====
/-
  The last pair `k = 31` of one tile's task: the first buffer's chunk `62` lands, the second buffer's chunk `61` has
  left, chunk `63` is fetched into the second buffer while the first is scaled and its copy out started; no further
  chunk is fetched, so the input is whole again; the second buffer is scaled and its copy out started. Both copies out
  are still on their way when the pair ends.
-/
import proofs.«218970_g6992206758257_cont_9to1_m_205_14_alg».proof.Proof.KB.BodyDefs

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.Kernel.main_v1_scv : Memref Cert.Kernel.sig Kind.scVector Space.hbm Cert.Kernel.S8x8192x8x128 EltTy.f32)
local notation "dW" => (Memref.whole Cert.Kernel.main_arg1_scv : Memref Cert.Kernel.sig Kind.scVector Space.hbm Cert.Kernel.S1048576 EltTy.f32)
local notation "oW" => (Memref.whole Cert.Kernel.main_v2_scv : Memref Cert.Kernel.sig Kind.scVector Space.hbm Cert.Kernel.S8x8192x8x128 EltTy.f32)
local notation "xb0" => (Memref.whole Cert.Kernel.cc0_scratch0 : Memref Cert.Kernel.sig Kind.scVector Space.vmem Cert.Kernel.S32x8x128 EltTy.f32)
local notation "xb1" => (Memref.whole Cert.Kernel.cc0_scratch1 : Memref Cert.Kernel.sig Kind.scVector Space.vmem Cert.Kernel.S32x8x128 EltTy.f32)
local notation "dB" => (Memref.whole Cert.Kernel.cc0_scratch2 : Memref Cert.Kernel.sig Kind.scVector Space.vmem Cert.Kernel.S32768 EltTy.f32)

section Trips

variable [∀ e, Nonempty (Elt F e)]
variable (d : Dev nD) (L : grid0.Coords) (q : PosShare TreeShare) (A : Buf (Elt F) (aLoc d)) (DD : Buf (Elt F) (dLoc d))
  (O0 : Buf (Elt F) (oLoc d)) (O : CellTallies nD τ sig (HIx 1)) (W : Waits sig (HIx 1))

/-- The last pair `k = 31`. -/
theorem trip_last (v2 : BitVec 32) (k : Fin k0_t1_loop.trips) (hk : k.val = 31) (acc : PUnit) :
    iprop(invCommon d L DD O0 O W k.val ∗ invB d L q A DD k.val)
      ⊢ wp frame (wpE (defs₀ (F := F)) 𝒱₀ (tileThr d L) none) Set.univ
          (k0_t1_body L aW (Memref.isWhole_whole _) dW (Memref.isWhole_whole _) oW (Memref.isWhole_whole _)
            xb0 (Memref.isWhole_whole _) xb1 (Memref.isWhole_whole _) dB (Memref.isWhole_whole _)
            cc0_scratch3 cc0_scratch4 cc0_scratch5 cc0_scratch6 cc0_scoped0 v2 k acc)
          fun _ => iprop(invCommon d L DD O0 O W (k.val + 1) ∗ invC d L q A DD (2 * k.val)) := by
  generalize hQ : (fun _ : PUnit => iprop(invCommon d L DD O0 O W (k.val + 1) ∗ invC d L q A DD (2 * k.val))) = Q
  unfold k0_t1_body invCommon invB
  iintro ⟨⟨#Hmw, HdB, Hs4, Htodo, %W', %hW', HO⟩, HL0, Ha, HS1, Hx1r, Hs5, Hdone⟩
  ihave Ht := (todo_pop (oTodo d L O0) k.val (by omega)).1 $$ Htodo
  icases Ht with ⟨Ho0, Ho1, Htodo⟩
  ihave Ho0 := (oTodo_spell d L O0 (k0_off69 L k) (k0_off69_inb L k) (2 * k.val) (off69_eq L k)) $$ Ho0
  ihave Ho1 := (oTodo_spell d L O0 (k0_off3 L k) (k0_off3_inb L k) (2 * k.val + 1) (off3_eq L k)) $$ Ho1
  unfold ldFl0 ldDel0 aRest stFl1 stDel1 xRest1
  sl_exec (disch := first | omega | (clear * - k hk; decide +kernel +revert))
  sl_for (invC0 d L (aChunk d L A (2 * k.val)) (dbOf d L DD) ((2 * k.val) % 8)) $$ [HL0_dst HdB]
  case region => exact fun t acc => chunk0_trip d L _ _ _ _ _ _ _ v2 k _ _ _ _ _ t acc
  · unfold invC0; rw [rowsDone_zero]
    isplitl [HL0_dst]; · iexact HL0_dst
    iexact HdB
  iintro %_ HI
  unfold invC0
  icases HI with ⟨Hx0, HdB⟩
  sl_exec (disch := first | omega | (clear * - k hk; decide +kernel +revert))
  sl_unfold_run_names
  ihave Hx1 := (Entails.of_eq (congrArg (fun c => ((xb1).view.loc (tileThr d L) ↦{fullShare} c : sProp (MM F)))
      (xb1_landed d L A (k0_off3 L k) (k0_off3_inb L k) (2 * k.val + 1) (off3_eq L k) _))) $$ Hx1r
  sl_for (invC1 d L (aChunk d L A (2 * k.val + 1)) (dbOf d L DD) ((2 * k.val) % 8 + 1)) $$ [Hx1 HdB]
  case region => exact fun t acc => chunk1_trip d L _ _ _ _ _ _ _ v2 k _ _ _ _ _ _ _ t acc
  · unfold invC1; rw [rowsDone_zero]
    isplitl [Hx1]; · iexact Hx1
    iexact HdB
  iintro %_ HI
  unfold invC1
  icases HI with ⟨Hx1, HdB⟩
  sl_exec (disch := first | omega | (clear * - k hk; decide +kernel +revert))
  sl_unfold_run_names
  sl_step
  subst hQ
  unfold invCommon invC
  have hX1 : rowsDone (aChunk d L A (2 * k.val + 1)) (dbOf d L DD) (2 * k.val % 8 + 1)
      (Scf.trips k0_t3_loop.lb k0_t3_loop.ub k0_t3_loop.st) = sChunk d L A DD (2 * k.val + 1) := by
    rw [trips3]; exact sChunk_eq d L A DD _ _ (by omega)
  have hX0 : rowsDone (aChunk d L A (2 * k.val)) (dbOf d L DD) (2 * k.val % 8)
      (Scf.trips k0_t2_loop.lb k0_t2_loop.ub k0_t2_loop.st) = sChunk d L A DD (2 * k.val) := by
    rw [trips2]
  have hr : Finset.range (2 * k.val) = Finset.range (2 * k.val - 1 + 1) := by
    rw [show 2 * k.val - 1 + 1 = 2 * k.val from by omega]
  isplitl [HdB Hs4 Htodo HO]
  · isplitr; · iexact Hmw
    isplitl [HdB]; · iexact HdB
    isplitl [Hs4]; · iexact Hs4
    isplitl [Htodo]; · iexact Htodo
    iexists _; isplitr
    rotate_left
    · iexact HO
    · ipureintro; exact waits_insert _ (waits_insert _ (waits_insert _ hW'))
  isplitl [Ha]; · iexact Ha
  isplitl [HL0]; · iexact HL0
  isplitl [Hs5]
  · iapply (stFl0_fold d L A DD O0 (k0_off69 L k) _ (2 * k.val) (off69_eq L k) (by omega) _ hX0); iexact Hs5
  isplitl [Hx0]
  · unfold xRest0; rw [← hX0]; iexact Hx0
  isplitl [HS1]
  · iapply (stFl1_fold d L A DD O0 (k0_off3 L k) _ (2 * k.val + 1) (off3_eq L k) (by omega) _ hX1); iexact HS1
  isplitl [Hx1]
  · unfold xRest1; rw [← hX1]; iexact Hx1
  rw [hr]
  iapply (done_push (oDone d L A DD) (2 * k.val - 1)).2
  isplitl [HS1_dst]; · iexact HS1_dst
  iexact Hdone

end Trips

end Cert.Proof.KB

end
-- ==== Proof.KB.TileRes.lean ====
/-
  A tile's own storage, as the launch hands it to the task: its five DMA semaphores at zero and its three scratch
  buffers at whatever they hold, named one by one, and the rest of the tile's scoped cells and buffers set aside.
-/
import proofs.«218970_g6992206758257_cont_9to1_m_205_14_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.Kernel.main_v1_scv : Memref Cert.Kernel.sig Kind.scVector Space.hbm Cert.Kernel.S8x8192x8x128 EltTy.f32)
local notation "dW" => (Memref.whole Cert.Kernel.main_arg1_scv : Memref Cert.Kernel.sig Kind.scVector Space.hbm Cert.Kernel.S1048576 EltTy.f32)
local notation "oW" => (Memref.whole Cert.Kernel.main_v2_scv : Memref Cert.Kernel.sig Kind.scVector Space.hbm Cert.Kernel.S8x8192x8x128 EltTy.f32)
local notation "xb0" => (Memref.whole Cert.Kernel.cc0_scratch0 : Memref Cert.Kernel.sig Kind.scVector Space.vmem Cert.Kernel.S32x8x128 EltTy.f32)
local notation "xb1" => (Memref.whole Cert.Kernel.cc0_scratch1 : Memref Cert.Kernel.sig Kind.scVector Space.vmem Cert.Kernel.S32x8x128 EltTy.f32)
local notation "dB" => (Memref.whole Cert.Kernel.cc0_scratch2 : Memref Cert.Kernel.sig Kind.scVector Space.vmem Cert.Kernel.S32768 EltTy.f32)

/-- A DMA semaphore of the tile, as a cell of the machine. -/
abbrev dmaCell (d : Dev nD) (L : grid0.Coords) (s : DmaSem sig) : GSem nD τ sig := (tileThr d L, SemLoc.dma s)

/-- Different semaphores are different cells. -/
theorem dmaCell_ne (d : Dev nD) (L : grid0.Coords) {s s' : DmaSem sig} (h : s ≠ s') : dmaCell d L s ≠ dmaCell d L s' :=
  fun e => h (SemLoc.dma.inj (Prod.mk.inj e).2)

/-- A DMA semaphore of the tile is one of the tile's own scoped cells. -/
theorem dmaCell_mem (d : Dev nD) (L : grid0.Coords) (s : DmaSem sig) : dmaCell d L s ∈ ownCells (tileThr d L) :=
  (mem_ownCells (g := dmaCell d L s)).mpr ⟨rfl, by show (SemLoc.dma s : SemLoc sig).isScoped .scVector = true; rfl⟩

/-- The tile's scoped semaphores but the kernel's five. -/
def semsRest (d : Dev nD) (L : grid0.Coords) : sProp (MM F) :=
  bigSep ((((((ownCells (tileThr d L)).erase (dmaCell d L cc0_scratch3.sem)).erase (dmaCell d L cc0_scratch4.sem)).erase
      (dmaCell d L cc0_scratch5.sem)).erase (dmaCell d L cc0_scratch6.sem)).erase (dmaCell d L cc0_scoped0.sem))
    fun g => semVal g 0

/-- A scratch buffer of the tile, as a buffer of its device. -/
abbrev tileRef (L : grid0.Coords) (b : Ref sig .scVector) : DevRef τ sig := (Proc.scVector (cV L) (jV L)).devRef b

/-- Different scratch buffers are different buffers of the device. -/
theorem tileRef_ne (L : grid0.Coords) {b b' : Ref sig .scVector} (h : b ≠ b') : tileRef L b ≠ tileRef L b' :=
  fun e => h (Proc.devRef_injective _ e)

/-- The tile's scoped buffers but the kernel's three. -/
def bufsRest (d : Dev nD) (L : grid0.Coords) : sProp (MM F) :=
  bigSep ((((ownRefs (τ := τ) (.scVector (cV L) (jV L))).erase (tileRef L cc0_scratch0)).erase (tileRef L cc0_scratch1)).erase
      (tileRef L cc0_scratch2))
    fun b => iprop(∃ f, ((d, b) : Loc nD τ sig) ↦{fullShare} f)

theorem tile_sems (d : Dev nD) (L : grid0.Coords) :
    (scopedSems0 (tileThr d L) : sProp (MM F))
      = iprop(semVal (tileThr d L, SemLoc.dma cc0_scratch3.sem) 0 ∗ semVal (tileThr d L, SemLoc.dma cc0_scratch4.sem) 0
          ∗ semVal (tileThr d L, SemLoc.dma cc0_scratch5.sem) 0 ∗ semVal (tileThr d L, SemLoc.dma cc0_scratch6.sem) 0
          ∗ semVal (tileThr d L, SemLoc.dma cc0_scoped0.sem) 0 ∗ semsRest d L) := by
  rw [SparseCore.Cfg.scopedSems0_V (Val := Elt F) d (cV L) (jV L)]
  unfold SparseCore.Cfg.ownSems0 semsRest
  rw [SparseCore.bigSep_erase' (dmaCell_mem d L cc0_scratch3.sem),
    SparseCore.bigSep_erase' (Finset.mem_erase.mpr ⟨dmaCell_ne d L (show cc0_scratch4.sem ≠ cc0_scratch3.sem by decide),
      dmaCell_mem d L cc0_scratch4.sem⟩),
    SparseCore.bigSep_erase' (Finset.mem_erase.mpr ⟨dmaCell_ne d L (show cc0_scratch5.sem ≠ cc0_scratch4.sem by decide),
      Finset.mem_erase.mpr ⟨dmaCell_ne d L (show cc0_scratch5.sem ≠ cc0_scratch3.sem by decide), dmaCell_mem d L cc0_scratch5.sem⟩⟩),
    SparseCore.bigSep_erase' (Finset.mem_erase.mpr ⟨dmaCell_ne d L (show cc0_scratch6.sem ≠ cc0_scratch5.sem by decide),
      Finset.mem_erase.mpr ⟨dmaCell_ne d L (show cc0_scratch6.sem ≠ cc0_scratch4.sem by decide),
        Finset.mem_erase.mpr ⟨dmaCell_ne d L (show cc0_scratch6.sem ≠ cc0_scratch3.sem by decide), dmaCell_mem d L cc0_scratch6.sem⟩⟩⟩),
    SparseCore.bigSep_erase' (Finset.mem_erase.mpr ⟨dmaCell_ne d L (show cc0_scoped0.sem ≠ cc0_scratch6.sem by decide),
      Finset.mem_erase.mpr ⟨dmaCell_ne d L (show cc0_scoped0.sem ≠ cc0_scratch5.sem by decide),
        Finset.mem_erase.mpr ⟨dmaCell_ne d L (show cc0_scoped0.sem ≠ cc0_scratch4.sem by decide),
          Finset.mem_erase.mpr ⟨dmaCell_ne d L (show cc0_scoped0.sem ≠ cc0_scratch3.sem by decide), dmaCell_mem d L cc0_scoped0.sem⟩⟩⟩⟩)]

theorem tile_bufs (hF : (K (F := F)).Facts) (d : Dev nD) (L : grid0.Coords) :
    (scopedBufs (tileThr d L) : sProp (MM F))
      = iprop((∃ f, (xb0).view.loc (tileThr d L) ↦{fullShare} f) ∗ (∃ f, (xb1).view.loc (tileThr d L) ↦{fullShare} f)
          ∗ (∃ f, (dB).view.loc (tileThr d L) ↦{fullShare} f) ∗ bufsRest d L) := by
  rw [(K (F := F)).scopedBufs_V hF d (cV L) (jV L)]
  unfold SparseCore.Cfg.ownBufs bufsRest
  refine (SparseCore.bigSep_erase' (SparseCore.Cfg.mem_ownRefs_of_owner (p := Proc.scVector (cV L) (jV L))
    (b := tileRef L cc0_scratch0) rfl)).trans ?_
  rw [SparseCore.bigSep_erase' (Finset.mem_erase.mpr ⟨tileRef_ne L (show (cc0_scratch1 : Ref sig .scVector) ≠ cc0_scratch0 by decide),
      SparseCore.Cfg.mem_ownRefs_of_owner (p := Proc.scVector (cV L) (jV L)) (b := tileRef L cc0_scratch1) rfl⟩),
    SparseCore.bigSep_erase' (Finset.mem_erase.mpr ⟨tileRef_ne L (show (cc0_scratch2 : Ref sig .scVector) ≠ cc0_scratch1 by decide),
      Finset.mem_erase.mpr ⟨tileRef_ne L (show (cc0_scratch2 : Ref sig .scVector) ≠ cc0_scratch0 by decide),
        SparseCore.Cfg.mem_ownRefs_of_owner (p := Proc.scVector (cV L) (jV L)) (b := tileRef L cc0_scratch2) rfl⟩⟩)]

end Cert.Proof.KB

end
-- ==== Proof.KB.Body.lean ====
/-
  One tile's task. The tile is handed a read share of the re-laid input `a` and of `diag`, and its own rows of the
  output; it copies its piece of `diag` into a scratch buffer, then moves its 64 chunks through two scratch buffers in
  32 pairs — while one buffer is scaled and written out, the other is being filled — and ends with its rows of the output
  at the kernel's array function of `a` and `diag`. Every semaphore has one copy outstanding at a time, and no buffer
  is touched while a copy into or out of it is outstanding.
-/
import proofs.«218970_g6992206758257_cont_9to1_m_205_14_alg».proof.Proof.KB.TripMid
import proofs.«218970_g6992206758257_cont_9to1_m_205_14_alg».proof.Proof.KB.TripFirst
import proofs.«218970_g6992206758257_cont_9to1_m_205_14_alg».proof.Proof.KB.TripLast
import proofs.«218970_g6992206758257_cont_9to1_m_205_14_alg».proof.Proof.KB.TileRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

-- the kernel's memrefs, spelt as the body table passes them (so that the terms are the printed ones)
local notation "aW" => (Memref.whole Cert.Kernel.main_v1_scv : Memref Cert.Kernel.sig Kind.scVector Space.hbm Cert.Kernel.S8x8192x8x128 EltTy.f32)
local notation "dW" => (Memref.whole Cert.Kernel.main_arg1_scv : Memref Cert.Kernel.sig Kind.scVector Space.hbm Cert.Kernel.S1048576 EltTy.f32)
local notation "oW" => (Memref.whole Cert.Kernel.main_v2_scv : Memref Cert.Kernel.sig Kind.scVector Space.hbm Cert.Kernel.S8x8192x8x128 EltTy.f32)
local notation "xb0" => (Memref.whole Cert.Kernel.cc0_scratch0 : Memref Cert.Kernel.sig Kind.scVector Space.vmem Cert.Kernel.S32x8x128 EltTy.f32)
local notation "xb1" => (Memref.whole Cert.Kernel.cc0_scratch1 : Memref Cert.Kernel.sig Kind.scVector Space.vmem Cert.Kernel.S32x8x128 EltTy.f32)
local notation "dB" => (Memref.whole Cert.Kernel.cc0_scratch2 : Memref Cert.Kernel.sig Kind.scVector Space.vmem Cert.Kernel.S32768 EltTy.f32)

/-- What a tile is handed: a read share of `a` and of `diag`, and its rows of the output at whatever they hold. -/
def tileGo (d : Dev nD) (L : grid0.Coords) (q : PosShare TreeShare) (A : Buf (Elt F) (aLoc d)) (DD : Buf (Elt F) (dLoc d))
    (O0 : Buf (Elt F) (oLoc d)) : sProp (MM F) :=
  iprop((aLoc d ↦{q} A) ∗ (dLoc d ↦{q} DD) ∗ (oLoc d ↦[slabSet (wid L)]{fullShare} O0))

/-- What it hands back: the share of `diag`, and its rows of the output scaled. -/
def tileTd (d : Dev nD) (L : grid0.Coords) (q : PosShare TreeShare) (A : Buf (Elt F) (aLoc d)) (DD : Buf (Elt F) (dLoc d)) : sProp (MM F) :=
  iprop((dLoc d ↦{q} DD) ∗ (oLoc d ↦[slabSet (wid L)]{fullShare} (Cert.Proof.Spec.Gk (F := F) A DD : Buf (Elt F) (oLoc d))))

section Task

variable [∀ e, Nonempty (Elt F e)] (hF : (K (F := F)).Facts)
variable (d : Dev nD) (L : grid0.Coords) (q : PosShare TreeShare) (A : Buf (Elt F) (aLoc d)) (DD : Buf (Elt F) (dLoc d))
  (O0 : Buf (Elt F) (oLoc d)) (O : CellTallies nD τ sig (HIx 1)) (W : Waits sig (HIx 1)) (hO : ∀ g, O g none = 0)

/-- The arrays as a tile's memrefs address them are the device's arrays. -/
theorem pts_a (f : Buf (Elt F) (aLoc d)) : ((aW).view.loc (tileThr d L) ↦{q} f : sProp (MM F)) = (aLoc d ↦{q} f) := by
  simp only [Memref.view_whole, View.set_whole]
theorem pts_d (f : Buf (Elt F) (dLoc d)) : ((dW).view.loc (tileThr d L) ↦{q} f : sProp (MM F)) = (dLoc d ↦{q} f) := by
  simp only [Memref.view_whole, View.set_whole]

/-- The diagonal's scratch after the tile's piece has landed in it. -/
theorem dB_landed (fOld : Vec F S32768 .f32) :
    View.write (Elt F) (dB).view fOld (ReadAs.same.apply (View.read (Elt F) (dSlice L).view DD)) Finset.univ = dbOf d L DD :=
  View.write_whole_univ _ _ _

/-- One pair of the outer loop, whichever. -/
theorem trip (v2 : BitVec 32) (k : Fin k0_t1_loop.trips) (acc : PUnit) :
    Inv d L q A DD O0 O W k.val acc
      ⊢ wp frame (wpE (defs₀ (F := F)) 𝒱₀ (tileThr d L) none) Set.univ
          (k0_t1_body L aW (Memref.isWhole_whole _) dW (Memref.isWhole_whole _) oW (Memref.isWhole_whole _)
            xb0 (Memref.isWhole_whole _) xb1 (Memref.isWhole_whole _) dB (Memref.isWhole_whole _)
            cc0_scratch3 cc0_scratch4 cc0_scratch5 cc0_scratch6 cc0_scoped0 v2 k acc)
          (Inv d L q A DD O0 O W (k.val + 1)) := by
  have hk32 : k.val < 32 := lt_of_lt_of_le k.isLt k0_t1_abs.2.1
  unfold Inv
  by_cases h0 : k.val = 0
  · rw [if_pos h0, if_neg (by omega : ¬ k.val + 1 = 0), if_pos (by omega : k.val + 1 < 32)]
    have e : invA d L q A 0 = invA d L q A (2 * k.val) := by rw [h0]
    rw [e]
    exact trip_first d L q A DD O0 O W v2 k h0 acc
  · by_cases h31 : k.val = 31
    · rw [if_neg h0, if_pos hk32, if_neg (by omega : ¬ k.val + 1 = 0), if_neg (by omega : ¬ k.val + 1 < 32)]
      have e : invC d L q A DD 62 = invC d L q A DD (2 * k.val) := by rw [h31]
      rw [e]
      exact trip_last d L q A DD O0 O W v2 k h31 acc
    · rw [if_neg h0, if_pos hk32, if_neg (by omega : ¬ k.val + 1 = 0), if_pos (by omega : k.val + 1 < 32)]
      exact trip_mid d L q A DD O0 O W v2 k (by omega) (by omega) acc

include hF hO in
/-- The task on the tile at grid coordinates `L` of device `d`. -/
theorem tile_body :
    iprop(levAts (K (F := F)).L (K (F := F)).lev ∗ emp ∗ tileGo d L q A DD O0
        ∗ scopedBufs (tileThr d L) ∗ scopedSems0 (tileThr d L) ∗ owes (tileThr d L) O W)
      ⊢ wp frame (wpE (defs₀ (F := F)) 𝒱₀ (tileThr d L) none) Set.univ
          (cc0__sc_scale L aW (Memref.isWhole_whole _) dW (Memref.isWhole_whole _) oW (Memref.isWhole_whole _)
            xb0 (Memref.isWhole_whole _) xb1 (Memref.isWhole_whole _) dB (Memref.isWhole_whole _)
            cc0_scratch3 cc0_scratch4 cc0_scratch5 cc0_scratch6 cc0_scoped0)
          fun _ => iprop(tileTd d L q A DD ∗ scopedBufs (tileThr d L) ∗ scopedSems0 (tileThr d L)
            ∗ ∃ W', ⌜∀ p ∈ W', p ∈ W ∨ p.2 = none⌝ ∗ owes (tileThr d L) O W') := by
  generalize hQ : (fun _ : PUnit => iprop(tileTd d L q A DD ∗ scopedBufs (tileThr d L) ∗ scopedSems0 (tileThr d L)
            ∗ ∃ W', ⌜∀ p ∈ W', p ∈ W ∨ p.2 = none⌝ ∗ owes (tileThr d L) O W')) = Q
  rw [cc0__sc_scale_eq_skeleton]; unfold cc0__sc_scale_skel tileGo
  rw [tile_sems d L, tile_bufs hF d L]
  iintro ⟨#Hlv, -, ⟨Ha, Hd, Ho⟩, ⟨⟨%f0, Hx0⟩, ⟨%f1, Hx1⟩, ⟨%fd, HdB⟩, Hbufs⟩, ⟨Hs3, Hs4, Hs5, Hs6, Hs0, Hsems⟩, HO⟩
  ihave Hmw := ((K (F := F)).mayWaits_none (thr := tileThr d L) hO) $$ Hlv
  ihave Ha := (Entails.of_eq (pts_a d L q A).symm) $$ Ha
  ihave Hd := (Entails.of_eq (pts_d d L q DD).symm) $$ Hd
  ihave Ht := (oSlab_chunks d L O0).1 $$ Ho
  sl_exec
  sl_unfold_run_names
  ihave HdB := (Entails.of_eq (congrArg (fun c => ((dB).view.loc (tileThr d L) ↦{fullShare} c : sProp (MM F)))
      (dB_landed d L DD fd))) $$ HdB
  sl_for (Inv d L q A DD O0 O W) $$ [Hmw HdB Hs4 Ht HO Hs3 Ha Hx1 Hs5 Hs6]
  case region => exact fun k acc => trip d L q A DD O0 O W _ k acc
  · unfold Inv invCommon
    rw [if_pos rfl]
    unfold invA
    isplitl [HdB Hs4 Ht HO]
    · isplitr; · iexact Hmw
      isplitl [HdB]; · iexact HdB
      isplitl [Hs4]; · iexact Hs4
      isplitl [Ht]; · rw [todoSet_zero]; iexact Ht
      iexists _; isplitr
      rotate_left
      · iexact HO
      · ipureintro; exact waits_insert _ (fun p hp => .inl hp)
    isplitl [Hs3]
    · iapply (ldFl0_fold d L q A (k0_off2 L) _ 0 (off2_eq L) _); iexact Hs3
    isplitl [Ha]
    · iapply (aRest_fold d L q A (k0_off2 L) _ 0 (off2_eq L)); iexact Ha
    isplitl [Hx1]; · iexists _; iexact Hx1
    isplitl [Hs5]; · iexact Hs5
    iexact Hs6
  iintro %_ HI
  unfold Inv invCommon
  rw [trips1, if_neg (by decide : ¬ (32 : ℕ) = 0), if_neg (by decide : ¬ (32 : ℕ) < 32)]
  unfold invC stFl0 stDel0 stFl1 stDel1 xRest0 xRest1
  icases HI with ⟨⟨#Hmw', HdB, Hs4, Htodo, %W', %hW', HO⟩, Ha, Hs3, HS0, Hx0r, HS1, Hx1r, Hdone⟩
  sl_exec
  sl_step
  subst hQ
  unfold tileTd
  rw [tile_sems d L, tile_bufs hF d L]
  isplitl [Hd Hdone HS0_dst HS1_dst]
  · isplitl [Hd]
    · iapply (Entails.of_eq (pts_d d L q DD)); iexact Hd
    iapply (oSlab_chunks d L (GkO d A DD)).2
    have e64 : Finset.range 64 = Finset.range (62 + 1 + 1) := rfl
    rw [e64]
    iapply (done_push (oDone d L A DD) (62 + 1)).2
    isplitl [HS1_dst]; · iexact HS1_dst
    iapply (done_push (oDone d L A DD) 62).2
    isplitl [HS0_dst]; · iexact HS0_dst
    iexact Hdone
  isplitl [Hx0r Hx1r HdB Hbufs]
  · isplitl [Hx0r]; · iexists _; iexact Hx0r
    isplitl [Hx1r]; · iexists _; iexact Hx1r
    isplitl [HdB]; · iexists _; iexact HdB
    iexact Hbufs
  isplitl [Hs3 Hs4 HS0 HS1 Hs0 Hsems]
  · isplitl [Hs3]; · iexact Hs3
    isplitl [Hs4]; · iexact Hs4
    isplitl [HS0]; · iexact HS0
    isplitl [HS1]; · iexact HS1
    isplitl [Hs0]; · iexact Hs0
    iexact Hsems
  iexists _; isplitr
  rotate_left
  · iexact HO
  · ipureintro; exact waits_insert _ (waits_insert _ hW')

end Task

end Cert.Proof.KB

end
-- ==== Proof.KB.Launch.lean ====
/-
  The program's run from the tiles' tasks: the SparseCore launch theorem at one vector-subcore call on two SparseCores of
  sixteen tiles. @main re-lays `x` into `a` on the TensorCore (a reshape and a transposition), hands each SparseCore a
  read share of `a` and of `diag` and the rows of the output its tiles own, each sequencer hands each tile its share
  and its rows, the tiles scale (`tile_body`), the rows come back and join to the whole output at the kernel's array
  function, and @main lays it back (the inverse transposition and reshape).
-/
import proofs.«218970_g6992206758257_cont_9to1_m_205_14_alg».proof.Proof.KB.Body

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

-- the kernel's memrefs, spelt as the body table passes them (so that the terms are the printed ones)
local notation "aW" => (Memref.whole Cert.Kernel.main_v1_scv : Memref Cert.Kernel.sig Kind.scVector Space.hbm Cert.Kernel.S8x8192x8x128 EltTy.f32)
local notation "dW" => (Memref.whole Cert.Kernel.main_arg1_scv : Memref Cert.Kernel.sig Kind.scVector Space.hbm Cert.Kernel.S1048576 EltTy.f32)
local notation "oW" => (Memref.whole Cert.Kernel.main_v2_scv : Memref Cert.Kernel.sig Kind.scVector Space.hbm Cert.Kernel.S8x8192x8x128 EltTy.f32)
local notation "xb0" => (Memref.whole Cert.Kernel.cc0_scratch0 : Memref Cert.Kernel.sig Kind.scVector Space.vmem Cert.Kernel.S32x8x128 EltTy.f32)
local notation "xb1" => (Memref.whole Cert.Kernel.cc0_scratch1 : Memref Cert.Kernel.sig Kind.scVector Space.vmem Cert.Kernel.S32x8x128 EltTy.f32)
local notation "dB" => (Memref.whole Cert.Kernel.cc0_scratch2 : Memref Cert.Kernel.sig Kind.scVector Space.vmem Cert.Kernel.S32768 EltTy.f32)

variable (m : (ℓ : Loc nD τ sig) → Buf (Elt F) ℓ) (ρ : Dev nD → PrngReg)

/-- @main's result, as a location of device `d`. -/
abbrev rLoc (d : Dev nD) : Loc nD τ sig := (SparseCore.T d).loc main_v4

/-- The re-laid input as @main's first two operations leave it. -/
def Aof (d : Dev nD) : Buf (Elt F) (aLoc d) :=
  transpose S8x8192x8x128 [2, 0, 3, 1] (shapeCast S8192x128x8x8 (m (xLoc d)) shapeCasts_S1048576x64_S8192x128x8x8)
    transposes_S8192x128x8x8_S8x8192x8x128_2_0_3_1

/-- What @main leaves in its result: the kernel's array function of the re-laid input and `diag`, laid back. -/
def kernelOut (d : Dev nD) : Buf (Elt F) (rLoc d) :=
  shapeCast S1048576x64
    (transpose S8192x128x8x8 [1, 3, 0, 2] (Cert.Proof.Spec.Gk (F := F) (Aof m d) (m (dLoc d))) transposes_S8x8192x8x128_S8192x128x8x8_1_3_0_2)
    shapeCasts_S8192x128x8x8_S1048576x64

/-- The run's post: the result, and the two arguments unchanged. -/
def QC : PUnit × MemSt nD τ sig (Elt F) → Prop := fun r => ∀ c : Dev nD,
  r.2.mem (rLoc c) = kernelOut m c
    ∧ r.2.mem (xLoc c) = m (xLoc c) ∧ r.2.mem (dLoc c) = m (dLoc c)

/-! ## Read shares, and the rows of the output by SparseCore and by tile -/

/-- SparseCore `c`'s read share of an array (a token of the full share), and tile `(c, i)`'s share of that. -/
abbrev cShare (c : ℕ) : PosShare TreeShare := Transfers.shareTokN fullShare c
abbrev tShare (c i : ℕ) : PosShare TreeShare := Transfers.shareTokN (cShare c) i

/-- The rows SparseCore `c`'s tiles own: tile `i` of SparseCore `c` has number `2 i + c`. -/
def coreSet (c : ℕ) : Finset S8x8192x8x128.Idx := (Finset.univ : Finset (Fin 16)).biUnion fun i => slabSet (2 * i.val + c)

/-- Two different tiles' rows are disjoint. -/
theorem slab_disjoint {w w' : ℕ} (h : w ≠ w') : Disjoint (slabSet w) (slabSet w') := by
  rw [Finset.disjoint_left]
  intro x hx hx'
  simp only [slabSet, Finset.mem_filter, Finset.mem_univ, true_and] at hx hx'
  omega

theorem tiles_disjoint (c : ℕ) : ∀ i ∈ (Finset.univ : Finset (Fin 16)), ∀ j ∈ (Finset.univ : Finset (Fin 16)), i ≠ j →
    Disjoint (slabSet (2 * i.val + c)) (slabSet (2 * j.val + c)) :=
  fun i _ j _ h => slab_disjoint fun e => h (Fin.ext (by omega))

/-- The two SparseCores' rows are disjoint: a tile's number has its SparseCore's parity. -/
theorem cores_disjoint : ∀ c ∈ (Finset.univ : Finset (Fin 2)), ∀ c' ∈ (Finset.univ : Finset (Fin 2)), c ≠ c' →
    Disjoint (coreSet c.val) (coreSet c'.val) := by
  intro c _ c' _ h
  have hc : c.val < 2 := c.isLt
  have hc' : c'.val < 2 := c'.isLt
  have hne : c.val ≠ c'.val := fun e => h (Fin.ext e)
  rw [Finset.disjoint_left]
  intro x hx hx'
  obtain ⟨i, -, hi⟩ := Finset.mem_biUnion.mp hx
  obtain ⟨j, -, hj⟩ := Finset.mem_biUnion.mp hx'
  simp only [slabSet, Finset.mem_filter, Finset.mem_univ, true_and] at hi hj
  omega

/-- Every row is some tile's: row `j` is tile `j / 256`'s, on SparseCore `(j / 256) % 2`. -/
theorem cores_cover : (Finset.univ : Finset (Fin 2)).biUnion (fun c => coreSet c.val) = Finset.univ := by
  ext x
  have h1 : (x 1).val < 8192 := (x 1).isLt
  simp only [Finset.mem_biUnion, Finset.mem_univ, true_and, iff_true, coreSet, slabSet, Finset.mem_filter]
  refine ⟨⟨((x 1).val / 256) % 2, Nat.mod_lt _ (by decide)⟩, ⟨((x 1).val / 256) / 2, by omega⟩, ?_, ?_⟩
  · show 256 * (2 * (((x 1).val / 256) / 2) + ((x 1).val / 256) % 2) ≤ (x 1).val
    omega
  · show (x 1).val < 256 * (2 * (((x 1).val / 256) / 2) + ((x 1).val / 256) % 2) + 256
    omega

/-- The output whole is the two SparseCores' rows; -/
theorem oPts_cores (d : Dev nD) (f : Buf (Elt F) (oLoc d)) :
    (oLoc d ↦{fullShare} f : sProp (MM F)) = bigSep Finset.univ fun c : Fin 2 => oLoc d ↦[coreSet c.val]{fullShare} f := by
  rw [← pointsTo_biUnion Finset.univ (ℓ := oLoc d) (fun c : Fin 2 => coreSet c.val) cores_disjoint, cores_cover]; try rfl

/-- a SparseCore's rows are its sixteen tiles'. -/
theorem oPts_tiles (d : Dev nD) (c : ℕ) (f : Buf (Elt F) (oLoc d)) :
    (oLoc d ↦[coreSet c]{fullShare} f : sProp (MM F)) = bigSep Finset.univ fun i : Fin 16 => oLoc d ↦[slabSet (2 * i.val + c)]{fullShare} f := by
  unfold coreSet
  rw [pointsTo_biUnion Finset.univ (ℓ := oLoc d) (fun i : Fin 16 => slabSet (2 * i.val + c)) (tiles_disjoint c)]

/-! ## What the handshakes carry -/

/-- The kernel's result array, whole: its array function of the re-laid input and `diag`. -/
abbrev Gof (d : Dev nD) : Buf (Elt F) (oLoc d) := Cert.Proof.Spec.Gk (F := F) (Aof m d) (m (dLoc d))

/-- The call hands SparseCore `c` a read share of `a` and of `diag` and its tiles' rows of the output; tile `(c, i)` a
    share of that share and its own rows. Back come the shares of `diag` and the rows at the kernel's array function. -/
def P : (K (F := F)).Pay (nD := nD) (Val := Elt F) (Name := ℕ) (U := UU) where
  st := fun q d c => match q with
    | 0 => iprop((aLoc d ↦{cShare c.val} Aof m d) ∗ (dLoc d ↦{cShare c.val} m (dLoc d)) ∗ (oLoc d ↦[coreSet c.val]{fullShare} m (oLoc d)))
  dn := fun q d c => match q with
    | 0 => iprop((dLoc d ↦{cShare c.val} m (dLoc d)) ∗ (oLoc d ↦[coreSet c.val]{fullShare} Gof m d))
  go := fun q d c i => match q with
    | 0 => tileGo d (coordsV ⟨c.val, c.isLt⟩ ⟨i.val, i.isLt⟩) (tShare c.val i.val) (Aof m d) (m (dLoc d)) (m (oLoc d))
  td := fun q d c i => match q with
    | 0 => tileTd d (coordsV ⟨c.val, c.isLt⟩ ⟨i.val, i.isLt⟩) (tShare c.val i.val) (Aof m d) (m (dLoc d))
  x := fun _ _ => iprop(emp)

instance P_storable : (P (F := F) m).IsStorable where
  st q d c := match q with
    | 0 => (inferInstance : BI.Storable (upEmb : UEmb _ (MM F))
        iprop((aLoc d ↦{cShare c.val} Aof m d) ∗ (dLoc d ↦{cShare c.val} m (dLoc d)) ∗ (oLoc d ↦[coreSet c.val]{fullShare} m (oLoc d))))
  dn q d c := match q with
    | 0 => (inferInstance : BI.Storable (upEmb : UEmb _ (MM F))
        iprop((dLoc d ↦{cShare c.val} m (dLoc d)) ∗ (oLoc d ↦[coreSet c.val]{fullShare} Gof m d)))
  go q d c i := match q with
    | 0 => by
      show BI.Storable (upEmb : UEmb _ (MM F)) (tileGo d (coordsV ⟨c.val, c.isLt⟩ ⟨i.val, i.isLt⟩) (tShare c.val i.val) (Aof m d) (m (dLoc d)) (m (oLoc d)))
      unfold tileGo; infer_instance
  td q d c i := match q with
    | 0 => by
      show BI.Storable (upEmb : UEmb _ (MM F)) (tileTd d (coordsV ⟨c.val, c.isLt⟩ ⟨i.val, i.isLt⟩) (tShare c.val i.val) (Aof m d) (m (dLoc d)))
      unfold tileTd; infer_instance

/-! ## A SparseCore's operands split among its tiles, and their results gathered -/

theorem vecSplit : (K (F := F)).VecSplit' (P m) 0 := by
  intro d c
  show iprop((aLoc d ↦{cShare c.val} Aof m d) ∗ (dLoc d ↦{cShare c.val} m (dLoc d)) ∗ (oLoc d ↦[coreSet c.val]{fullShare} m (oLoc d)))
    ⊢ |={Set.univ}=> iprop(
      (bigSep Finset.univ fun i : Fin 16 =>
        iprop((aLoc d ↦{tShare c.val i.val} Aof m d) ∗ (dLoc d ↦{tShare c.val i.val} m (dLoc d))
          ∗ (oLoc d ↦[slabSet (2 * i.val + c.val)]{fullShare} m (oLoc d))))
      ∗ ((bigSep Finset.univ fun i : Fin 16 =>
          iprop((dLoc d ↦{tShare c.val i.val} m (dLoc d)) ∗ (oLoc d ↦[slabSet (2 * i.val + c.val)]{fullShare} Gof m d)))
          -∗ iprop((dLoc d ↦{cShare c.val} m (dLoc d)) ∗ (oLoc d ↦[coreSet c.val]{fullShare} Gof m d))))
  rw [bigSep_sep', bigSep_sep', bigSep_sep', oPts_tiles, oPts_tiles]
  iintro ⟨Ha, Hd, Ho⟩
  -- the shares of `a` and of `diag`: one token per tile; `diag`'s remainder waits for the tokens' return
  ihave Ha' := (Transfers.pointsTo_toks_split (cShare c.val) 16) $$ Ha
  icases Ha' with ⟨-, Has⟩
  ihave Hd' := (Transfers.pointsTo_toks_split (cShare c.val) 16) $$ Hd
  icases Hd' with ⟨Hdr, Hds⟩
  imodintro
  isplitl [Has Hds Ho]
  · isplitl [Has]; · iexact Has
    isplitl [Hds]; · iexact Hds
    iexact Ho
  iintro ⟨Hds, Ho⟩
  isplitl [Hdr Hds]
  · iapply (Transfers.pointsTo_toks_join (cShare c.val) 16)
    isplitl [Hdr]; · iexact Hdr
    iexact Hds
  iexact Ho

/-! ## The tiles' obligation -/

theorem defs₀_vector (c : Fin τ.nSC) (s : Fin τ.nSub) :
    defs₀ (F := F) (.scVector c s) 0 ()
      = SparseCore.onTile hcore0 hsub0 (fun c s => cc0__sc_scale (coordsV c s)
          aW (Memref.isWhole_whole _) dW (Memref.isWhole_whole _) oW (Memref.isWhole_whole _)
          xb0 (Memref.isWhole_whole _) xb1 (Memref.isWhole_whole _) dB (Memref.isWhole_whole _)
          cc0_scratch3 cc0_scratch4 cc0_scratch5 cc0_scratch6 cc0_scoped0) ⟨⟩ c s := rfl

omit [FloatOps F] in
/-- A task that recorded waits at no index has recorded them at no index or the call's. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [∀ e, Nonempty (Elt F e)] (hF : (K (F := F)).Facts) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coordsV ⟨_, hc.1⟩ ⟨_, hc.2⟩) (tShare c.val i.val) (Aof m d) (m (dLoc d)) (m (oLoc d)) O W hO).trans
    (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## @main on the TensorCore -/

abbrev x' : DevRef τ sig := Proc.devRef .tc (main_arg0 : Ref sig .tc)
abbrev g' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- @main's four host operations: the re-laying before the call and the laying back after it. -/
abbrev opR1 : HloOp τ sig (Elt F) := StableHlo.reshape main_arg0 main_v0 rfl shapeCasts_S1048576x64_S8192x128x8x8
abbrev opT1 : HloOp τ sig (Elt F) :=
  StableHlo.unary main_v0 main_v1 ((transpose S8x8192x8x128 [2, 0, 3, 1] · transposes_S8192x128x8x8_S8x8192x8x128_2_0_3_1) :
    (⟨S8192x128x8x8, .f32⟩ : BufTy).Contents (Elt F) → (⟨S8x8192x8x128, .f32⟩ : BufTy).Contents (Elt F))
abbrev opT2 : HloOp τ sig (Elt F) :=
  StableHlo.unary main_v2 main_v3 ((transpose S8192x128x8x8 [1, 3, 0, 2] · transposes_S8x8192x8x128_S8192x128x8x8_1_3_0_2) :
    (⟨S8x8192x8x128, .f32⟩ : BufTy).Contents (Elt F) → (⟨S8192x128x8x8, .f32⟩ : BufTy).Contents (Elt F))
abbrev opR2 : HloOp τ sig (Elt F) := StableHlo.reshape main_v3 main_v4 rfl shapeCasts_S8192x128x8x8_S1048576x64

/-- The TensorCore's arrays, all unscoped: the two arguments and the five values of @main. -/
abbrev S7 : Finset (DevRef τ sig) := {x', g', v0', v1', v2', v3', v4'}
/-- The arrays the two operations after the call touch. -/
abbrev S3 : Finset (DevRef τ sig) := {v2', v3', v4'}

omit [FloatOps F] in
theorem held_S7 (d : Dev nD) (W : Valuation τ sig (Elt F)) :
    (held (T d) S7 W : sProp (MM F)) = iprop((xLoc d ↦{fullShare} W x') ∗ (dLoc d ↦{fullShare} W g') ∗ ((SparseCore.T d).loc main_v0 ↦{fullShare} W v0')
      ∗ (aLoc d ↦{fullShare} W v1') ∗ (oLoc d ↦{fullShare} W v2') ∗ ((SparseCore.T d).loc main_v3 ↦{fullShare} W v3') ∗ (rLoc d ↦{fullShare} W v4')) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem held_S3 (d : Dev nD) (W : Valuation τ sig (Elt F)) :
    (held (T d) S3 W : sProp (MM F)) = iprop((oLoc d ↦{fullShare} W v2') ∗ ((SparseCore.T d).loc main_v3 ↦{fullShare} W v3') ∗ (rLoc d ↦{fullShare} W v4')) := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp (MM F)) = iprop((xLoc d ↦{fullShare} W main_arg0) ∗ (dLoc d ↦{fullShare} W main_arg1) ∗ ((SparseCore.T d).loc main_v0 ↦{fullShare} W main_v0)
      ∗ (aLoc d ↦{fullShare} W main_v1) ∗ (oLoc d ↦{fullShare} W main_v2) ∗ ((SparseCore.T d).loc main_v3 ↦{fullShare} W main_v3) ∗ (rLoc d ↦{fullShare} W main_v4)) := by
  unfold unscopedBufs
  rw [show (Finset.univ.filter fun b : Ref sig .tc => ¬ b.isScoped) = {main_arg0, main_arg1, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation; after the re-laying; after the call, with the kernel's output at its array function. -/
def V0 (d : Dev nD) : Valuation τ sig (Elt F) := fun b => m (d, b)
abbrev V2 (d : Dev nD) : Valuation τ sig (Elt F) := (opT1 (F := F)).result ((opR1 (F := F)).result (V0 m d))
def V3 (d : Dev nD) : Valuation τ sig (Elt F) := Function.update (V2 m d) v2' (Gof m d)
abbrev V5 (d : Dev nD) : Valuation τ sig (Elt F) := (opR2 (F := F)).result ((opT2 (F := F)).result (V3 m d))

theorem unscoped_held (d : Dev nD) : (unscopedBufs d (fun b => m ((SparseCore.T d).loc b)) : sProp (MM F)) = held (T d) S7 (V0 m d) := by
  rw [unscopedBufs_eq, held_S7]; rfl

theorem V2_x (d : Dev nD) : (opT1 (F := F)).result ((opR1 (F := F)).result (V0 m d)) x' = m (xLoc d) := by
  show (opT1 (F := F)).result _ x' = _
  rw [(opT1 (F := F)).result_of_not_mem _ (b := x') (show x' ∉ ({v1'} : Finset (DevRef τ sig)) by decide),
    (opR1 (F := F)).result_of_not_mem _ (b := x') (show x' ∉ ({v0'} : Finset (DevRef τ sig)) by decide)]
  rfl
theorem V2_g (d : Dev nD) : (opT1 (F := F)).result ((opR1 (F := F)).result (V0 m d)) g' = m (dLoc d) := by
  show (opT1 (F := F)).result _ g' = _
  rw [(opT1 (F := F)).result_of_not_mem _ (b := g') (show g' ∉ ({v1'} : Finset (DevRef τ sig)) by decide),
    (opR1 (F := F)).result_of_not_mem _ (b := g') (show g' ∉ ({v0'} : Finset (DevRef τ sig)) by decide)]
  rfl
theorem V2_o (d : Dev nD) : (opT1 (F := F)).result ((opR1 (F := F)).result (V0 m d)) v2' = m (oLoc d) := by
  show (opT1 (F := F)).result _ v2' = _
  rw [(opT1 (F := F)).result_of_not_mem _ (b := v2') (show v2' ∉ ({v1'} : Finset (DevRef τ sig)) by decide),
    (opR1 (F := F)).result_of_not_mem _ (b := v2') (show v2' ∉ ({v0'} : Finset (DevRef τ sig)) by decide)]
  rfl
/-- After the reshape and the transposition the kernel's input holds the re-laid `x`. -/
theorem V2_a (d : Dev nD) : (opT1 (F := F)).result ((opR1 (F := F)).result (V0 m d)) v1' = Aof m d := by
  show (opT1 (F := F)).result _ v1' = _
  rw [StableHlo.unary_result, StableHlo.reshape_result]
  rfl

theorem V3_o (d : Dev nD) : V3 m d v2' = Gof m d := Function.update_self _ _ _
theorem V3_v3 (d : Dev nD) : V3 m d v3' = V2 m d v3' := Function.update_of_ne (show v3' ≠ v2' by decide) _ _
theorem V3_v4 (d : Dev nD) : V3 m d v4' = V2 m d v4' := Function.update_of_ne (show v4' ≠ v2' by decide) _ _

/-- After the transposition and the reshape @main's result holds the kernel's output laid back. -/
theorem V5_r (d : Dev nD) : (opR2 (F := F)).result ((opT2 (F := F)).result (V3 m d)) v4' = kernelOut m d := by
  show (opR2 (F := F)).result _ v4' = _
  rw [StableHlo.reshape_result, StableHlo.unary_result, V3_o]
  rfl

theorem hR1 : (opR1 (F := F)).bufs ⊆ S7 := show ({x', v0'} : Finset (DevRef τ sig)) ⊆ S7 by decide
theorem hT1 : (opT1 (F := F)).bufs ⊆ S7 := show ({v0', v1'} : Finset (DevRef τ sig)) ⊆ S7 by decide
theorem hT2 : (opT2 (F := F)).bufs ⊆ S3 := show ({v2', v3'} : Finset (DevRef τ sig)) ⊆ S3 by decide
theorem hR2 : (opR2 (F := F)).bufs ⊆ S3 := show ({v3', v4'} : Finset (DevRef τ sig)) ⊆ S3 by decide

/-- The seven arrays after the re-laying: the arguments and the output untouched, `a` at the re-laid `x`. -/
theorem held_V2 (d : Dev nD) :
    (held (T d) S7 ((opT1 (F := F)).result ((opR1 (F := F)).result (V0 m d))) : sProp (MM F))
      = iprop((xLoc d ↦{fullShare} m (xLoc d)) ∗ (dLoc d ↦{fullShare} m (dLoc d)) ∗ ((SparseCore.T d).loc main_v0 ↦{fullShare} V2 m d v0')
        ∗ (aLoc d ↦{fullShare} Aof m d) ∗ (oLoc d ↦{fullShare} m (oLoc d)) ∗ ((SparseCore.T d).loc main_v3 ↦{fullShare} V2 m d v3')
        ∗ (rLoc d ↦{fullShare} V2 m d v4')) := by
  rw [held_S7, V2_x, V2_g, V2_a, V2_o]
/-- The three arrays after the call. -/
theorem held_V3 (d : Dev nD) :
    (held (T d) S3 (V3 m d) : sProp (MM F))
      = iprop((oLoc d ↦{fullShare} Gof m d) ∗ ((SparseCore.T d).loc main_v3 ↦{fullShare} V2 m d v3') ∗ (rLoc d ↦{fullShare} V2 m d v4')) := by
  rw [held_S3, V3_o, V3_v3, V3_v4]
/-- The three arrays after the laying back: the result at the kernel's output laid back. -/
theorem held_V5 (d : Dev nD) :
    (held (T d) S3 ((opR2 (F := F)).result ((opT2 (F := F)).result (V3 m d))) : sProp (MM F))
      = iprop((oLoc d ↦{fullShare} V5 m d v2') ∗ ((SparseCore.T d).loc main_v3 ↦{fullShare} V5 m d v3') ∗ (rLoc d ↦{fullShare} kernelOut m d)) := by
  rw [held_S3, V5_r]

/-- An array whole is the two SparseCores' read shares of it and a remainder. -/
theorem share_cores {ℓ : Loc nD τ sig} (f : Buf (Elt F) ℓ) :
    (ℓ ↦{fullShare} f : sProp (MM F)) ⊣⊢ iprop((ℓ ↦{Transfers.shareDrop fullShare 2} f) ∗ (ℓ ↦{cShare 0} f) ∗ (ℓ ↦{cShare 1} f)) := by
  have h := Transfers.pointsTo_toks (Ix := HIx 1) (Name := ℕ) (U := UU) (Lvl := ℕ) (ℓ := ℓ) (S := Finset.univ) (f := f) fullShare 2
  rw [bigSep_univ_two] at h
  exact h

/-- The output whole is the two SparseCores' rows. -/
theorem oPts_two (d : Dev nD) (f : Buf (Elt F) (oLoc d)) :
    (oLoc d ↦{fullShare} f : sProp (MM F)) = iprop((oLoc d ↦[coreSet 0]{fullShare} f) ∗ (oLoc d ↦[coreSet 1]{fullShare} f)) := by
  rw [oPts_cores, bigSep_univ_two]; rfl

/-- What the call takes for the two SparseCores, and what it hands back. -/
theorem st0_eq (d : Dev nD) : (bigSep Finset.univ fun c : Fin ((K (F := F)).nCore 0) => (P m).st 0 d c)
    = iprop(((aLoc d ↦{cShare 0} Aof m d) ∗ (dLoc d ↦{cShare 0} m (dLoc d)) ∗ (oLoc d ↦[coreSet 0]{fullShare} m (oLoc d)))
        ∗ ((aLoc d ↦{cShare 1} Aof m d) ∗ (dLoc d ↦{cShare 1} m (dLoc d)) ∗ (oLoc d ↦[coreSet 1]{fullShare} m (oLoc d)))) := by
  show (bigSep (Finset.univ : Finset (Fin 2)) fun c =>
    iprop((aLoc d ↦{cShare c.val} Aof m d) ∗ (dLoc d ↦{cShare c.val} m (dLoc d)) ∗ (oLoc d ↦[coreSet c.val]{fullShare} m (oLoc d)))) = _
  rw [bigSep_univ_two]; rfl
theorem dn0_eq (d : Dev nD) : (bigSep Finset.univ fun c : Fin ((K (F := F)).nCore 0) => (P m).dn 0 d c)
    = iprop(((dLoc d ↦{cShare 0} m (dLoc d)) ∗ (oLoc d ↦[coreSet 0]{fullShare} Gof m d))
        ∗ ((dLoc d ↦{cShare 1} m (dLoc d)) ∗ (oLoc d ↦[coreSet 1]{fullShare} Gof m d))) := by
  show (bigSep (Finset.univ : Finset (Fin 2)) fun c =>
    iprop((dLoc d ↦{cShare c.val} m (dLoc d)) ∗ (oLoc d ↦[coreSet c.val]{fullShare} Gof m d))) = _
  rw [bigSep_univ_two]; rfl

/-- What @main leaves the claim: the two arguments at their launch contents, the result at the kernel's output laid back. -/
abbrev FIN (d : Dev nD) : sProp (MM F) :=
  iprop((xLoc d ↦{fullShare} m (xLoc d)) ∗ (dLoc d ↦{fullShare} m (dLoc d)) ∗ (rLoc d ↦{fullShare} kernelOut m d))

/-- @main on device `d`'s TensorCore: the reshape and the transposition (`a` at the re-laid `x`), the call (each
    SparseCore a read share of `a` and of `diag` and its rows of the output; `diag` and the output back), the
    transposition and the reshape (the result at the kernel's output laid back); `x` and `diag` kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape, then the transposition, over the seven arrays
  iapply (wp_hlo_within 𝒱 (SparseCore.T d) none Set.univ (op := opR1) (S := S7) hR1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opT1) (S := S7) hT1 (V := (opR1 (F := F)).result (V0 m d))) $$ [Hb Hheld]
  · isplitl [Hb]; · iexact Hb
    iexact Hheld
  iintro ⟨Hb, Hheld⟩
  rw [wp_ret]; imodintro
  ihave Hh := (Entails.of_eq (held_V2 m d)) $$ Hheld
  icases Hh with ⟨Hx, Hg, -, Ha, Ho, Hv3, Hv4⟩
  -- the shares and the rows for the two SparseCores
  ihave Ha' := (share_cores (F := F) (Aof m d)).1 $$ Ha
  icases Ha' with ⟨-, Ha0, Ha1⟩
  ihave Hg' := (share_cores (F := F) (m (dLoc d))).1 $$ Hg
  icases Hg' with ⟨Hgr, Hg0, Hg1⟩
  ihave Ho' := (Entails.of_eq (oPts_two (F := F) d (m (oLoc d)))) $$ Ho
  icases Ho' with ⟨Ho0, Ho1⟩
  -- the call
  iapply ((K (F := F)).wp_run (D (F := F)) 𝒱 (EH := EH) (P := P m) κ d 0) $$ [Hst Ha0 Ha1 Hg0 Hg1 Ho0 Ho1 Hgr Hx Hb Hv3 Hv4]
  isplitr; · iexact Hctx
  isplitl [Hst]; · iexact Hst
  isplitl [Ha0 Ha1 Hg0 Hg1 Ho0 Ho1]
  · rw [st0_eq]
    isplitl [Ha0 Hg0 Ho0]
    · isplitl [Ha0]; · iexact Ha0
      isplitl [Hg0]; · iexact Hg0
      iexact Ho0
    · isplitl [Ha1]; · iexact Ha1
      isplitl [Hg1]; · iexact Hg1
      iexact Ho1
  iintro ⟨Hst, Hdn⟩
  ihave Hdn' := (Entails.of_eq (dn0_eq m d)) $$ Hdn
  icases Hdn' with ⟨⟨Hg0, Ho0⟩, ⟨Hg1, Ho1⟩⟩
  -- `diag` whole again, the output whole at the kernel's array function
  ihave Hg := (share_cores (F := F) (m (dLoc d))).2 $$ [Hgr Hg0 Hg1]
  · isplitl [Hgr]; · iexact Hgr
    isplitl [Hg0]; · iexact Hg0
    iexact Hg1
  ihave Ho := (Entails.of_eq (oPts_two (F := F) d (Gof m d)).symm) $$ [Ho0 Ho1]
  · isplitl [Ho0]; · iexact Ho0
    iexact Ho1
  -- the transposition, then the reshape, over the output and the two values after it
  iapply (wp_hlo_within 𝒱 (SparseCore.T d) none Set.univ (op := opT2) (S := S3) hT2 (V := V3 m d)) $$ [Hb Ho Hv3 Hv4]
  · isplitl [Hb]; · iexact Hb
    rw [held_V3]
    isplitl [Ho]; · iexact Ho
    isplitl [Hv3]; · iexact Hv3
    iexact Hv4
  iintro ⟨Hb, Hheld⟩
  rw [wp_ret]; imodintro
  iapply (wp_hlo_within 𝒱 (SparseCore.T d) none Set.univ (op := opR2) (S := S3) hR2 (V := (opT2 (F := F)).result (V3 m d))) $$ [Hb Hheld]
  · isplitl [Hb]; · iexact Hb
    iexact Hheld
  iintro ⟨Hb, Hheld⟩
  ihave Hh := (Entails.of_eq (held_V5 m d)) $$ Hheld
  icases Hh with ⟨-, -, Hr⟩
  rw [wp_ret]; imodintro; imodintro
  isplitl [Hst]; · iexact Hst
  isplitl [Hx]; · iexact Hx
  isplitl [Hg]; · iexact Hg
  iexact Hr

/-- What the final memory holds, read off @main's final assertion. -/
def fq (d : Dev nD) (s' : Phys nD τ sig (Elt F)) : Prop :=
  s'.mem.mem (rLoc d) = kernelOut m d ∧ s'.mem.mem (xLoc d) = m (xLoc d) ∧ s'.mem.mem (dLoc d) = m (dLoc d)

theorem hfin (d : Dev nD) (s' : Phys nD τ sig (Elt F)) : iprop(FIN m d ∗ SI s') ⊢ (⌜fq m d s'⌝ : sProp (MM F)) := by
  iintro ⟨⟨Hx, Hg, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := dLoc d) (I := Finset.univ) (q := fullShare) (f := m (dLoc d)))) $$ [HSI Hg]
  · isplitl [HSI] <;> iassumption
  icases H with ⟨%h2, HSI, -⟩
  ihave H := (SI_pointsTo_agree (st := s') (ℓ := rLoc d) (I := Finset.univ) (q := fullShare) (f := kernelOut m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

/-- Every weakly fair execution of the device's threads terminates, nothing faulting, with the result at `kernelOut` and
    the arguments unchanged. -/
theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.lean ====
/-
  The certificate's claims, assembled.

  The kernel scales row `r` of `x : f32[1048576, 64]` by `diag[r]`. @main re-lays `x` as
  `a[i, j, s, l] = x[128 j + l, 8 i + s]` (a reshape to [8192, 128, 8, 8] and the transposition (2, 0, 3, 1)); the 32 tiles of
  the two SparseCores each take 256 rows `j` of `a` and scale element `(i, j, s, l)` by `diag[128 j + l]`, 32 rows at a
  time through two buffers; @main lays the result back by the inverse transposition (1, 3, 0, 2) and reshape. Row-major
  position `64 r + c` of [8192, 128, 8, 8] is the index `(j, l, i, s)` with `r = 128 j + l` and `c = 8 i + s`, so element
  `(r, c)` of the kernel's result is `x[r, c] · diag[r]` (`kernelOut_eq`, from `Spec.relayout`).

  The reference is `diag[:, None] * x`: element `(r, c)` of its result is `diag[r] · x[r, c]`. On the extended reals the
  product commutes, so from memories that agree on `x` and `diag` the two programs end with one and the same array
  (`algebraic`). Both leave their arguments as they found them (the frames): the kernel only reads `x` and `diag`, and
  every read share of `diag` it hands out comes back. The idealized kernel is the kernel's own text read on the
  extended reals: no operation was rewritten (`preserves`).
-/
import proofs.«218970_g6992206758257_cont_9to1_m_205_14_alg».proof.Defs
import proofs.«218970_g6992206758257_cont_9to1_m_205_14_alg».proof.Proof.Gen.Kernel
import proofs.«218970_g6992206758257_cont_9to1_m_205_14_alg».proof.Proof.Gen.Kernel.Skeleton
import proofs.«218970_g6992206758257_cont_9to1_m_205_14_alg».proof.Proof.Gen.KernelIdeal
import proofs.«218970_g6992206758257_cont_9to1_m_205_14_alg».proof.Proof.Gen.KernelIdeal.Skeleton
import proofs.«218970_g6992206758257_cont_9to1_m_205_14_alg».proof.Proof.Gen.ReferenceIdeal
import proofs.«218970_g6992206758257_cont_9to1_m_205_14_alg».proof.Proof.Gen.Pre_finite_inputs
import proofs.«218970_g6992206758257_cont_9to1_m_205_14_alg».proof.Proof.Gen.ReferenceIdeal.Run
import proofs.«218970_g6992206758257_cont_9to1_m_205_14_alg».proof.Proof.RefValue
import proofs.«218970_g6992206758257_cont_9to1_m_205_14_alg».proof.Proof.KI.Launch
import proofs.«218970_g6992206758257_cont_9to1_m_205_14_alg».proof.Proof.KB.Launch
import Idealize.ShloMosaic.Adequacy
import Idealize.ShloMosaic.Init

noncomputable section

namespace Cert.Proof

open Idealize.ShloMosaic Idealize.SL.Sem

/-- What the idealized kernel leaves in its result is the row scaling of the specification: re-laying, scaling each
    element `(i, j, s, l)` by `diag[128 j + l]` and laying back scales row `r` by `diag[r]`. -/
theorem kernelOut_eq (m : (ℓ : Loc Cert.KernelIdeal.nD Cert.KernelIdeal.τ Cert.KernelIdeal.sig) → Buf (Elt Ideal) ℓ)
    (c : Dev Cert.KernelIdeal.nD) :
    Cert.Proof.KI.kernelOut (F := Ideal) m c
      = Cert.Proof.Spec.rowScaled (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  unfold Cert.Proof.KI.kernelOut Cert.Proof.KI.Aof
  exact Cert.Proof.Spec.relayout _ _ _ _ _ _

/-- The kernel's run, read at its arguments. -/
theorem frame_k : Cert.frame_Kernel := fun m ρ _ =>
  (θ_run Cert.Kernel.defs _ _).mono (fun _ h c => ⟨(h c).2.1, (h c).2.2⟩) (Cert.Proof.KB.run_main (F := Bits) m ρ)

/-- The idealized kernel's run, read at its arguments. -/
theorem frame_ki : Cert.frame_KernelIdeal := fun m ρ _ =>
  (θ_run Cert.KernelIdeal.defs _ _).mono (fun _ h c => ⟨(h c).2.1, (h c).2.2⟩) (Cert.Proof.KI.run_main (F := Ideal) m ρ)

/-- The reference's run, read at its arguments. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for its idealization. -/
theorem preserves : Cert.preserves_Kernel_KernelIdeal := trivial

/-- On the extended reals the kernel's result `x[r, c] · diag[r]` and the reference's `diag[r] · x[r, c]`, of arguments
    that agree, are one array: the row scaling of the specification. -/
theorem algebraic : Cert.algebraic_KernelIdeal_ReferenceIdeal := by
  intro m ρ m' ρ' _ hagree
  refine ⟨fun c => Cert.Proof.Spec.rowScaled (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernelOut_eq m c), (h c).2.1, (h c).2.2⟩)
      (Cert.Proof.KI.run_main (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact Cert.Proof.RefValue.ref_eq _ _

/-- `Cert.Claim`: the programs' stated facts, as their generated modules prove them, and the five claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
